-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S800000 32) (main_arg7 : FVec F S10 .f32) (main_v13 : IVec S_ 1) (main_v16 : IVec S128x10 1) : IVec S_ 1 :=
  let main_c_5 : IVec S_ 1 := constantI S_ 1 1#1
  let main_v17 : IVec S_ 1 := (fun x v => Host.reduce IntOp.andi x v reducesTo_S128x10_S_d0_1 h_S_) main_v16 main_c_5
  let main_v18 : IVec S_ 1 := andi main_v13 main_v17
  let main_v19 : FVec F S10 .f32 := Host.absf main_arg7
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_c_8 : IVec S_ 32 := constantI S_ 32 0#32
  let main_v24 : IVec S800000 32 := broadcastInDim S800000 ![] bcast_S_S800000 main_c_8
  let main_v25 : IVec S800000 1 := cmpi .sge main_arg1 main_v24
  let main_c_9 : IVec S_ 32 := constantI S_ 32 50000#32
  let main_v26 : IVec S800000 32 := broadcastInDim S800000 ![] bcast_S_S800000 main_c_9
  let main_v27 : IVec S800000 1 := cmpi .slt main_arg1 main_v26
  let main_v28 : IVec S800000 1 := andi main_v25 main_v27
  let main_c_10 : IVec S_ 1 := constantI S_ 1 1#1
  let main_v29 : IVec S_ 1 := (fun x v => Host.reduce IntOp.andi x v reducesTo_S800000_S_d0 h_S_) main_v28 main_c_10
  let main_v30 : IVec S_ 1 := andi main_v23 main_v29
  main_v30

def fn {F : FTy → Type} [FloatOps F] (main_arg0 : FVec F S50000x128 .f32) (main_arg1 : IVec S800000 32) (main_arg2 : IVec S800000 32) (main_arg3 : IVec S50000 32) (main_arg4 : FVec F S128x128 .f32) (main_arg5 : FVec F S128 .f32) (main_arg6 : FVec F S128x10 .f32) (main_arg7 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x10 .f32 := Host.absf main_arg6
  let main_cst_4 : FVec F S_ .f32 := constant S_ .f32 0x7F800000#32
  let main_v15 : FVec F S128x10 .f32 := broadcastInDim S128x10 ![] bcast_S_S128x10 main_cst_4
  let main_v16 : IVec S128x10 1 := cmpf .olt main_v14 main_v15
  fn_part1 (F := F) main_arg1 main_arg7 main_v13 main_v16
-- ==== Kernel.lean ====
abbrev S50000x128 : Shape := ⟨2, ![50000, 128]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S800000x1 : Shape := ⟨2, ![800000, 1]⟩
abbrev S50000x1 : Shape := ⟨2, ![50000, 1]⟩
abbrev S802816 : Shape := ⟨1, ![802816]⟩
abbrev S802816x1 : Shape := ⟨2, ![802816, 1]⟩
abbrev S1x802816 : Shape := ⟨2, ![1, 802816]⟩
abbrev S50176x128 : Shape := ⟨2, ![50176, 128]⟩
abbrev S802816x128 : Shape := ⟨2, ![802816, 128]⟩
abbrev S4096x1 : Shape := ⟨2, ![4096, 1]⟩
abbrev S1024x128 : Shape := ⟨2, ![1024, 128]⟩
abbrev S4096x128 : Shape := ⟨2, ![4096, 128]⟩
abbrev S1x1024 : Shape := ⟨2, ![1, 1024]⟩
abbrev S4096x1024 : Shape := ⟨2, ![4096, 1024]⟩
abbrev S1x4096 : Shape := ⟨2, ![1, 4096]⟩
abbrev S1024x1 : Shape := ⟨2, ![1024, 1]⟩
abbrev S1024x4096 : Shape := ⟨2, ![1024, 4096]⟩
abbrev S1x128 : Shape := ⟨2, ![1, 128]⟩
abbrev S64 : Shape := ⟨1, ![64]⟩
abbrev S64x128 : Shape := ⟨2, ![64, 128]⟩
abbrev S64x1 : Shape := ⟨2, ![64, 1]⟩
abbrev S64x10 : Shape := ⟨2, ![64, 10]⟩
abbrev S1x10 : Shape := ⟨2, ![1, 10]⟩

abbrev nBuf : Space → Nat
  | .hbm => 76
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x10, .f32⟩
  | .hbm, ⟨7, _⟩ => ⟨S10, .f32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S_, .i32⟩
  | .hbm, ⟨34, _⟩ => ⟨S802816, .i32⟩
  | .hbm, ⟨35, _⟩ => ⟨S_, .i32⟩
  | .hbm, ⟨36, _⟩ => ⟨S_, .i32⟩
  | .hbm, ⟨37, _⟩ => ⟨S802816, .i32⟩
  | .hbm, ⟨38, _⟩ => ⟨S802816x1, .i32⟩
  | .hbm, ⟨39, _⟩ => ⟨S1x802816, .i32⟩
  | .hbm, ⟨40, _⟩ => ⟨S_, .i32⟩
  | .hbm, ⟨41, _⟩ => ⟨S_, .f32⟩
  | .hbm, ⟨42, _⟩ => ⟨S50176x128, .f32⟩
  | .hbm, ⟨43, _⟩ => ⟨S802816x128, .bf16⟩
  | .hbm, ⟨44, _⟩ => ⟨S50176x128, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S50000x128, .f32⟩
  | .hbm, ⟨55, _⟩ => ⟨S_, .f32⟩
  | .hbm, ⟨56, _⟩ => ⟨S50000, .f32⟩
  | .hbm, ⟨57, _⟩ => ⟨S_, .f32⟩
  | .hbm, ⟨58, _⟩ => ⟨S64, .f32⟩
  | .hbm, ⟨59, _⟩ => ⟨S50000x1, .i32⟩
  | .hbm, ⟨60, _⟩ => ⟨S64, .f32⟩
  | .hbm, ⟨61, _⟩ => ⟨S_, .f32⟩
  | .hbm, ⟨62, _⟩ => ⟨S64x128, .f32⟩
  | .hbm, ⟨63, _⟩ => ⟨S50000x1, .i32⟩
  | .hbm, ⟨64, _⟩ => ⟨S64x128, .f32⟩
  | .hbm, ⟨65, _⟩ => ⟨S_, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S64x1, .f32⟩
  | .hbm, ⟨70, _⟩ => ⟨S64x128, .f32⟩
  | .hbm, ⟨71, _⟩ => ⟨S64x128, .f32⟩
  | .hbm, ⟨72, _⟩ => ⟨S64x10, .f32⟩
  | .hbm, ⟨73, _⟩ => ⟨S1x10, .f32⟩
  | .hbm, ⟨74, _⟩ => ⟨S64x10, .f32⟩
  | .hbm, ⟨75, _⟩ => ⟨S64x10, .f32⟩
  | .local _ .vmem, ⟨0, _⟩ => ⟨S4096x1, .i32⟩
  | .local _ .vmem, ⟨1, _⟩ => ⟨S4096x1, .i32⟩
  | .local _ .vmem, ⟨2, _⟩ => ⟨S1024x128, .f32⟩
  | .local _ .vmem, ⟨3, _⟩ => ⟨S1024x128, .f32⟩
  | .local _ .vmem, ⟨4, _⟩ => ⟨S4096x128, .bf16⟩
  | .local _ .vmem, ⟨5, _⟩ => ⟨S4096x128, .bf16⟩
  | .local _ .vmem, ⟨6, _⟩ => ⟨S4096x128, .f32⟩
  | .local _ .vmem, ⟨7, _⟩ => ⟨S1x4096, .i32⟩
  | .local _ .vmem, ⟨8, _⟩ => ⟨S1x4096, .i32⟩
  | .local _ .vmem, ⟨9, _⟩ => ⟨S4096x128, .bf16⟩
  | .local _ .vmem, ⟨10, _⟩ => ⟨S4096x128, .bf16⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_call2_v0 : Ref sig .tc := ⟨.hbm, 33, rfl⟩
abbrev main_v15 : Ref sig .tc := ⟨.hbm, 34, rfl⟩
abbrev main_c_4 : Ref sig .tc := ⟨.hbm, 35, rfl⟩
abbrev main_call3_v0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_5 : Ref sig .tc := ⟨.hbm, 40, rfl⟩
abbrev main_call4_v0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call5_cst : Ref sig .tc := ⟨.hbm, 52, rfl⟩
abbrev main_call5_v0 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_cst_7 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_8 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_9 : Ref sig .tc := ⟨.hbm, 65, rfl⟩
abbrev main_call6_v0 : Ref sig .tc := ⟨.hbm, 66, rfl⟩
abbrev main_call6_v1 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![196, 49], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![49, 196], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  pads_S800000_S802816_028160 : S800000.Pads (![0] : Fin 1 → Nat) ![2816] ![0] S802816
  h_S_ : 0 < S_.numel
  shapeCasts_S802816_S802816x1 : S802816.ShapeCasts S802816x1
  shapeCasts_S802816_S1x802816 : S802816.ShapeCasts S1x802816
  pads_S50000x128_S50176x128_01760_000 : S50000x128.Pads (![0, 0] : Fin 2 → Nat) ![176, 0] ![0, 0] S50176x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  iota_S1x1024_d1_w32 : S1x1024.Iotas .tc 32 [1]
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x1024 : S4096x1.Broadcasts S4096x1024
  broadcasts_S1x1024_S4096x1024 : S1x1024.Broadcasts S4096x1024
  natLt_1_32 : 1 < 32
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  packedbf16_S4096x128_S4096x128_0_0 : (Rect.unit (s := S4096x128) ![0, 0] S4096x128.size inb_S4096x128_S4096x128_0_0).PackedRows (EltTy.packing .bf16)
  iota_S1024x1_d0_w32 : S1024x1.Iotas .tc 32 [0]
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1024x1_S1024x4096 : S1024x1.Broadcasts S1024x4096
  broadcasts_S1x4096_S1024x4096 : S1x4096.Broadcasts S1024x4096
  slices_S50176x128_S50000x128_0_0 : S50176x128.Slices ![0, 0] S50000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S800000x1_S800000_n_0_0_1_wf : ScatterDims.WF S50000 S800000x1 S800000 [] [0] [0] 1
  dot_S4096x1024_S1024x128_S4096x128_1_0_0_1_n_n_wf : DotDims.WF S4096x1024 S1024x128 S4096x128 [1] [0] [0] [1] [] []
  dot_S1024x4096_S4096x128_S1024x128_1_0_0_1_n_n_wf : DotDims.WF S1024x4096 S4096x128 S1024x128 [1] [0] [0] [1] [] []
  dot_S50000x128_S128x128_S50000x128_1_0_0_1_n_n_wf : DotDims.WF S50000x128 S128x128 S50000x128 [1] [0] [0] [1] [] []
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S802816x1.size a
  hwx0_0 : ∀ i : grid0.Coords, EltTy.bits .i32 = 32 ∨ (Rect.block (s := S802816x1) S4096x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S50176x128.size a
  hwx0_1 : ∀ i : grid0.Coords, EltTy.bits .f32 = 32 ∨ (Rect.block (s := S50176x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S802816x128.size a
  hwx0_2 : ∀ i : grid0.Coords, EltTy.bits .bf16 = 32 ∨ (Rect.block (s := S802816x128) S4096x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x802816.size a
  hwx1_0 : ∀ i : grid1.Coords, EltTy.bits .i32 = 32 ∨ (Rect.block (s := S1x802816) S1x4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S802816x128.size a
  hwx1_1 : ∀ i : grid1.Coords, EltTy.bits .bf16 = 32 ∨ (Rect.block (s := S802816x128) S4096x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S50176x128.size a
  hwx1_2 : ∀ i : grid1.Coords, EltTy.bits .f32 = 32 ∨ (Rect.block (s := S50176x128) S1024x128.size (cc1_transform_2 i) (hinb1_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_v17) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S1x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S64 : Shape := ⟨1, ![64]⟩
abbrev S64x128 : Shape := ⟨2, ![64, 128]⟩
abbrev S64x1 : Shape := ⟨2, ![64, 1]⟩
abbrev S64x10 : Shape := ⟨2, ![64, 10]⟩
abbrev S1x10 : Shape := ⟨2, ![1, 10]⟩

abbrev nBuf : Space → Nat
  | .hbm => 75
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S50000, .i32⟩
  | .hbm, ⟨4, _⟩ => ⟨S128x128, .f32⟩
  | .hbm, ⟨5, _⟩ => ⟨S128, .f32⟩
  | .hbm, ⟨6, _⟩ => ⟨S128x10, .f32⟩
  | .hbm, ⟨7, _⟩ => ⟨S10, .f32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000, .f32⟩
  | .hbm, ⟨56, _⟩ => ⟨S_, .f32⟩
  | .hbm, ⟨57, _⟩ => ⟨S64, .f32⟩
  | .hbm, ⟨58, _⟩ => ⟨S50000x1, .i32⟩
  | .hbm, ⟨59, _⟩ => ⟨S64, .f32⟩
  | .hbm, ⟨60, _⟩ => ⟨S_, .f32⟩
  | .hbm, ⟨61, _⟩ => ⟨S64x128, .f32⟩
  | .hbm, ⟨62, _⟩ => ⟨S50000x1, .i32⟩
  | .hbm, ⟨63, _⟩ => ⟨S64x128, .f32⟩
  | .hbm, ⟨64, _⟩ => ⟨S_, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S64x1, .f32⟩
  | .hbm, ⟨69, _⟩ => ⟨S64x128, .f32⟩
  | .hbm, ⟨70, _⟩ => ⟨S64x128, .f32⟩
  | .hbm, ⟨71, _⟩ => ⟨S64x10, .f32⟩
  | .hbm, ⟨72, _⟩ => ⟨S1x10, .f32⟩
  | .hbm, ⟨73, _⟩ => ⟨S64x10, .f32⟩
  | .hbm, ⟨74, _⟩ => ⟨S64x10, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call2_cst : Ref sig .tc := ⟨.hbm, 51, rfl⟩
abbrev main_call2_v0 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_8 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_9 : Ref sig .tc := ⟨.hbm, 64, rfl⟩
abbrev main_call3_v0 : Ref sig .tc := ⟨.hbm, 65, rfl⟩
abbrev main_call3_v1 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64 : S_.BroadcastsInDim S64 (![] : Fin 0 → Fin S64.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S64_S50000x1_S50000_n_0_0_1_wf : ScatterDims.WF S64 S50000x1 S50000 [] [0] [0] 1
  scatter_S64x128_S50000x1_S50000x128_1_0_0_1_wf : ScatterDims.WF S64x128 S50000x1 S50000x128 [1] [0] [0] 1
  dot_S64x128_S128x10_S64x10_1_0_0_1_n_n_wf : DotDims.WF S64x128 S128x10 S64x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.LibWhole.lean ====
/-
  A store through the rectangle that is the whole of a buffer's shape covers every index, so whatever was stored
  before it is gone: the buffer reads back the last such store's payload.
-/
import Idealize.ShloMosaic.Lib.Pipeline.Value

noncomputable section

namespace Cert.LibWhole

open Idealize.ShloMosaic

variable {Val : EltTy → Type} {S : Shape} {e : EltTy}

/-- Every index lies in the unit-stride rectangle at zero offsets whose sizes are the shape's own. -/
theorem mem_unit_zero {off : Fin S.rank → Nat} (h : off = fun _ => 0) (inb : ∀ a, off a + S.size a ≤ S.size a)
    (y : S.Idx) : y ∈ (Rect.unit off S.size inb).set := by
  subst h
  show y ∈ (Rect.whole S).set
  rw [Rect.set_whole]; exact Finset.mem_univ y

/-- A list of pieces whose head is such a rectangle covers the shape. -/
theorem cover_head {off : Fin S.rank → Nat} (h : off = fun _ => 0) (inb : ∀ a, off a + S.size a ≤ S.size a)
    (w : S.Idx → Val e) (L : List (View.Piece Val S e)) (y : S.Idx) :
    ∃ p ∈ ((⟨Rect.unit off S.size inb, w⟩ : View.Piece Val S e) :: L), y ∈ p.1.set :=
  ⟨⟨Rect.unit off S.size inb, w⟩, List.mem_cons_self, mem_unit_zero h inb y⟩

/-- Reading a buffer back after a list of stores whose LAST (the list's head) is a store through the whole rectangle
    gives that store's payload. -/
theorem read_writes_head [∀ e, Nonempty (Val e)] {sig : RefSig} {κ : Kind} {sp : Space} (v : View sig κ sp S e)
    (f : v.ty.Contents Val) {off : Fin S.rank → Nat} (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w := by
  rw [View.read_writes_eq_canon v f _ (cover_head h inb w L), View.canon_cons_unit_zero h]

/-- A load through the whole rectangle after such a list of stores reads the last store's payload. -/
theorem readCov_head [∀ e, Nonempty (Val e)] {sig : RefSig} {κ : Kind} {sp : Space} (v : View sig κ sp S e)
    {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (cover_head rfl inb w L), View.canon_cons_unit_zero rfl, View.ld_unit_zero rfl]

theorem zeros2 : (![0, 0] : Fin 2 → Nat) = fun _ => 0 := by funext a; fin_cases a <;> rfl

end Cert.LibWhole

end
-- ==== Proof.K.Body0.lean ====
/-
  The gather call's body at one grid point. The body keeps a [4096, 128] accumulator in a scratch buffer across the 49
  points of a row of the grid: at the row's first point it zeroes the accumulator, at every point it adds to it the
  product of a one-hot [4096, 1024] weight block (the source words of 4096 edges against 1024 node numbers) with a
  [1024, 128] block of feature rows, and stores the accumulator, narrowed, into the output block. Two cases, by whether
  the point is the first of its row; in each the buffers end at the named pure terms of what the body loaded.
-/
import proofs.«421818_j2293512536174_1_alg».proof.Proof.Gen.Kernel.Launch
import proofs.«421818_j2293512536174_1_alg».proof.Proof.Gen.Kernel.Skeleton
import proofs.«421818_j2293512536174_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«421818_j2293512536174_1_alg».proof.Proof.LibWhole

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWhole

/-- The gather kernel's reset condition: the second grid coordinate is zero. -/
abbrev cond0 (i : grid0.Coords) : Prop :=
  (Scalar.cmpi .ne (Scalar.extui (Scalar.cmpi .eq (BitVec.ofNat 32 (i 1).val) 0#32)) 0#32) = 1#1

set_option maxHeartbeats 2000000 in
/-- At a point whose second coordinate is zero the body zeroes the accumulator, adds the block's product into it and
    stores it, narrowed, into the output block. -/
theorem gather_first (c : Dev nD) (E : Set ℕ) (i : grid0.Coords)
    (arg2 : Memref sig .tc .vmem S4096x1 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hc : cond0 i) (x0 : Vec F S4096x1 .i32) (x1 : Vec F S1024x128 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay3 (k0_pay2 i x0 x1 (k0_pay1 (F := F))))
            ∗ owns (c : Thread nD τ) arg5 fullShare (k0_pay2 i x0 x1 (k0_pay1 (F := F)))) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [read_writes_head _ _ zeros2]
    sl_unfold_words
    simp only [View.readAt_eq_ld, hf0, hf1, View.ld_unit_zero (S := S4096x1) zeros2, View.ld_unit_zero (S := S1024x128) zeros2,
    View.ld_unit_zero (S := S4096x128) zeros2, readCov_head (S := S4096x128) _ zeros2]
  iexists _; isplitr
  swap; · iexact H3
  ipureintro
  sl_unfold_words
  rw [read_writes_head _ _ zeros2]
  simp only [View.readAt_eq_ld, hf0, hf1, View.ld_unit_zero (S := S4096x1) zeros2, View.ld_unit_zero (S := S1024x128) zeros2,
    View.ld_unit_zero (S := S4096x128) zeros2, readCov_head (S := S4096x128) _ zeros2]

set_option maxHeartbeats 2000000 in
/-- At any other point the body adds the block's product into the accumulator the point before left and stores it,
    narrowed, into the output block. -/
theorem gather_next (c : Dev nD) (E : Set ℕ) (i : grid0.Coords)
    (arg2 : Memref sig .tc .vmem S4096x1 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hc : ¬cond0 i) (x0 : Vec F S4096x1 .i32) (x1 : Vec F S1024x128 .f32) (xs : Vec F S4096x128 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k0_pay3 (k0_pay2 i x0 x1 xs))
            ∗ owns (c : Thread nD τ) arg5 fullShare (k0_pay2 i x0 x1 xs)) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [read_writes_head _ _ zeros2]
    sl_unfold_words
    simp only [View.readAt_eq_ld, hf0, hf1, hf3, View.ld_unit_zero (S := S4096x1) zeros2, View.ld_unit_zero (S := S1024x128) zeros2,
    View.ld_unit_zero (S := S4096x128) zeros2, readCov_head (S := S4096x128) _ zeros2]
  iexists _; isplitr
  swap; · iexact H3
  ipureintro
  sl_unfold_words
  rw [read_writes_head _ _ zeros2]
  simp only [View.readAt_eq_ld, hf0, hf1, hf3, View.ld_unit_zero (S := S4096x1) zeros2, View.ld_unit_zero (S := S1024x128) zeros2,
    View.ld_unit_zero (S := S4096x128) zeros2, readCov_head (S := S4096x128) _ zeros2]

end Cert.Kernel.Hand

end
-- ==== Proof.K.Dat0.lean ====
/-
  The gather call point by point. What the accumulator holds after point n is defined by recursion on n: at a multiple
  of 49 the step applied to zeros, elsewhere the step applied to what the point before left. The region's invariant
  carries the accumulator at that value from one point to the next (any contents before the first point), each input
  window's buffer holds its block of the array the region was entered with, and the output window's buffer is left at
  the accumulator narrowed. With the two cases of the body this gives the obligation the pipeline asks at every point.
-/
import proofs.«421818_j2293512536174_1_alg».proof.Proof.Gen.Kernel.Launch
import proofs.«421818_j2293512536174_1_alg».proof.Proof.Gen.Kernel.Skeleton
import proofs.«421818_j2293512536174_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«421818_j2293512536174_1_alg».proof.Proof.K.Body0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The reset condition holds exactly at the points whose number is a multiple of 49: decided over the grid. -/
theorem hcond0 : ∀ t : Fin cfg0.N, cond0 (grid0.coords t) ↔ t.val % 49 = 0 :=
  (by decide +kernel : ∀ t : Fin grid0.N, cond0 (grid0.coords t) ↔ t.val % 49 = 0)

/-! ## The accumulator after each point -/

/-- One step of the accumulator at point `n`: the block's product added to `xs`. -/
def step0 (c : Dev nD) (n : ℕ) (hn : n < cfg0.N) (xs : Vec F S4096x128 .f32) : Vec F S4096x128 .f32 :=
  k0_pay2 (grid0.coords ⟨n, hn⟩) (iblk0 V c 0 ⟨n, hn⟩) (iblk0 V c 1 ⟨n, hn⟩) xs

/-- What the accumulator holds after the body at position `n`: reset to zero before the step at the multiples of 49,
    stepped from what the point before left elsewhere. -/
def acc0 (c : Dev nD) : (n : ℕ) → n < cfg0.N → Vec F S4096x128 .f32
  | 0, hn => step0 V c 0 hn (k0_pay1 (F := F))
  | n + 1, hn => if (n + 1) % 49 = 0 then step0 V c (n + 1) hn (k0_pay1 (F := F)) else step0 V c (n + 1) hn (acc0 c n (Nat.lt_of_succ_lt hn))

theorem acc0_reset (c : Dev nD) (n : ℕ) (hn : n < cfg0.N) (h : n % 49 = 0) : acc0 V c n hn = step0 V c n hn (k0_pay1 (F := F)) := by
  cases n with
  | zero => rfl
  | succ n => exact if_pos h

theorem acc0_step (c : Dev nD) (n : ℕ) (hn : n + 1 < cfg0.N) (h : ¬(n + 1) % 49 = 0) :
    acc0 V c (n + 1) hn = step0 V c (n + 1) hn (acc0 V c n (Nat.lt_of_succ_lt hn)) := if_neg h

/-- The scratch operand: a whole scoped buffer of the kernel's own. -/
abbrev scM0 : Memref sig .tc .vmem S4096x128 .f32 := Memref.whole cc0_scratch0

/-- The scoped buffers no window of this call stages, but for the accumulator. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the accumulator as a memref owned at some contents. -/
theorem PhiA0_eq (c : Dev nD) :
    (Pipeline.ΦA spec0 c : sProp 𝕄)
      = iprop(iprop((∃ d, owns (c : Thread nD τ) scM0 fullShare d) ∗ restS0 (F := F) c) ∗ (∃ r, prngReg c r)) := by
  unfold Pipeline.ΦA restS0; rw [scopedRest0_eq]; simp only [scM0, owns_whole]; try rfl

/-- The region invariant before position `n`: before the first point the class's; afterwards the accumulator at what
    the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ restS0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ restS0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ restS0 (F := F) c) ∗ (∃ r, prngReg c r)) := by
  cases n with
  | zero => exact absurd rfl hz
  | succ n => rfl

/-! ## The pipeline's proof data -/

/-- The proof data of the gather call on core `c`: the arrays as the region finds them; after the body at point `t`
    each input's buffer at its block and the output's at the accumulator narrowed; the invariant `PhiS0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ, after0_0, after0_1, after0_2]
  by_cases h0 : t.val % 49 = 0
  · rw [acc0_reset V c t.val t.isLt h0]; unfold step0
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩⟩
      iapply (gather_first c Set.univ (grid0.coords t) _ _ _ _ _ _ _ _ ((hcond0 t).mpr h0) (iblk0 V c 0 t) (iblk0 V c 1 t) _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · rw [PhiS0_castSucc V c t, PhiS0_pos V c _ _ hz]
      iintro ⟨⟨⟨HS, HR⟩, Hg⟩, Ho, ⟨%d0, H0⟩, ⟨%d1, H1⟩, ⟨%d2, H2⟩⟩
      iapply (gather_first c Set.univ (grid0.coords t) _ _ _ _ _ _ _ _ ((hcond0 t).mpr h0) (iblk0 V c 0 t) (iblk0 V c 1 t) _)
      isplitl [H0]; · iexact H0
      isplitl [H1]; · iexact H1
      isplitl [H2]; · iexists _; iexact H2
      isplitl [HS]; · iexists _; iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
  · have hz : t.val ≠ 0 := fun e => h0 (by rw [e])
    obtain ⟨n, hn⟩ : ∃ n, t.val = n + 1 := ⟨t.val - 1, by omega⟩
    rw [PhiS0_castSucc V c t, PhiS0_pos V c _ _ hz]
    have hacc : acc0 V c t.val t.isLt = step0 V c t.val t.isLt (acc0 V c (t.val - 1) (by omega)) := by
      have key : ∀ (u : ℕ) (hu : u < cfg0.N) (hu0 : ¬u % 49 = 0) (hpos : u ≠ 0), acc0 V c u hu = step0 V c u hu (acc0 V c (u - 1) (by omega)) := by
        intro u hu hu0 hpos
        cases u with
        | zero => exact absurd rfl hpos
        | succ u => exact acc0_step V c u hu hu0
      exact key t.val t.isLt h0 hz
    rw [hacc]; unfold step0
    iintro ⟨⟨⟨HS, HR⟩, Hg⟩, Ho, ⟨%d0, H0⟩, ⟨%d1, H1⟩, ⟨%d2, H2⟩⟩
    iapply (gather_next c Set.univ (grid0.coords t) _ _ _ _ _ _ _ _ (fun h => h0 ((hcond0 t).mp h)) (iblk0 V c 0 t) (iblk0 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitr [Hg]
      · isplitl [HS]; · iexact HS
        iexact HR
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 9604 := N_0; omega), PhiA0_eq]
  iintro ⟨⟨HS, HR⟩, Hg⟩
  isplitl [HS HR]
  · isplitl [HS]; · iexists _; iexact HS
    iexact HR
  iexact Hg

end

end Cert.Kernel.Hand

end
-- ==== Proof.K.Body1.lean ====
/-
  The scatter call's body at one grid point. The body keeps a [1024, 128] accumulator in a scratch buffer across the 196
  points of a row of the grid: at the row's first point it zeroes the accumulator, at every point it adds to it the
  product of a one-hot [1024, 4096] weight block (1024 node numbers against the destination words of 4096 edges) with a
  [4096, 128] block of gathered rows, and stores the accumulator into the output block. Two cases, by whether the point
  is the first of its row; in each the buffers end at the named pure terms of what the body loaded.
-/
import proofs.«421818_j2293512536174_1_alg».proof.Proof.Gen.Kernel.Launch
import proofs.«421818_j2293512536174_1_alg».proof.Proof.Gen.Kernel.Skeleton
import proofs.«421818_j2293512536174_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«421818_j2293512536174_1_alg».proof.Proof.LibWhole

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWhole

/-- The scatter kernel's reset condition: the second grid coordinate is zero. -/
abbrev cond1 (i : grid1.Coords) : Prop :=
  (Scalar.cmpi .ne (Scalar.extui (Scalar.cmpi .eq (BitVec.ofNat 32 (i 1).val) 0#32)) 0#32) = 1#1

set_option maxHeartbeats 2000000 in
/-- At a point whose second coordinate is zero the body zeroes the accumulator, adds the block's product into it and
    stores it into the output block. -/
theorem scatter_first (c : Dev nD) (E : Set ℕ) (i : grid1.Coords)
    (arg2 : Memref sig .tc .vmem S1x4096 .i32) (harg2 : arg2.IsWhole) (arg3 : Memref sig .tc .vmem S4096x128 .bf16) (harg3 : arg3.IsWhole)
    (arg4 : Memref sig .tc .vmem S1024x128 .f32) (harg4 : arg4.IsWhole) (arg5 : Memref sig .tc .vmem S1024x128 .f32) (harg5 : arg5.IsWhole)
    (hc : cond1 i) (x0 : Vec F S1x4096 .i32) (x1 : Vec F S4096x128 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k1_pay2 i x0 x1 (k1_pay1 (F := F)))
            ∗ owns (c : Thread nD τ) arg5 fullShare (k1_pay2 i x0 x1 (k1_pay1 (F := F)))) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [read_writes_head _ _ zeros2]
    sl_unfold_words
    simp only [View.readAt_eq_ld, hf0, hf1, View.ld_unit_zero (S := S1x4096) zeros2, View.ld_unit_zero (S := S4096x128) zeros2,
      View.ld_unit_zero (S := S1024x128) zeros2, readCov_head (S := S1024x128) _ zeros2]
  iexists _; isplitr
  swap; · iexact H3
  ipureintro
  sl_unfold_words
  rw [read_writes_head _ _ zeros2]
  simp only [View.readAt_eq_ld, hf0, hf1, View.ld_unit_zero (S := S1x4096) zeros2, View.ld_unit_zero (S := S4096x128) zeros2,
    View.ld_unit_zero (S := S1024x128) zeros2, readCov_head (S := S1024x128) _ zeros2]

set_option maxHeartbeats 2000000 in
/-- At any other point the body adds the block's product into the accumulator the point before left and stores it into
    the output block. -/
theorem scatter_next (c : Dev nD) (E : Set ℕ) (i : grid1.Coords)
    (arg2 : Memref sig .tc .vmem S1x4096 .i32) (harg2 : arg2.IsWhole) (arg3 : Memref sig .tc .vmem S4096x128 .bf16) (harg3 : arg3.IsWhole)
    (arg4 : Memref sig .tc .vmem S1024x128 .f32) (harg4 : arg4.IsWhole) (arg5 : Memref sig .tc .vmem S1024x128 .f32) (harg5 : arg5.IsWhole)
    (hc : ¬cond1 i) (x0 : Vec F S1x4096 .i32) (x1 : Vec F S4096x128 .bf16) (xs : Vec F S1024x128 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k1_pay2 i x0 x1 xs)
            ∗ owns (c : Thread nD τ) arg5 fullShare (k1_pay2 i x0 x1 xs)) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [read_writes_head _ _ zeros2]
    sl_unfold_words
    simp only [View.readAt_eq_ld, hf0, hf1, hf3, View.ld_unit_zero (S := S1x4096) zeros2, View.ld_unit_zero (S := S4096x128) zeros2,
      View.ld_unit_zero (S := S1024x128) zeros2, readCov_head (S := S1024x128) _ zeros2]
  iexists _; isplitr
  swap; · iexact H3
  ipureintro
  sl_unfold_words
  rw [read_writes_head _ _ zeros2]
  simp only [View.readAt_eq_ld, hf0, hf1, hf3, View.ld_unit_zero (S := S1x4096) zeros2, View.ld_unit_zero (S := S4096x128) zeros2,
    View.ld_unit_zero (S := S1024x128) zeros2, readCov_head (S := S1024x128) _ zeros2]

end Cert.Kernel.Hand

end
-- ==== Proof.K.Dat1.lean ====
/-
  The scatter call point by point. What the accumulator holds after point n is defined by recursion on n: at a multiple
  of 196 the step applied to zeros, elsewhere the step applied to what the point before left. The region's invariant
  carries the accumulator at that value from one point to the next (any contents before the first point), each input
  window's buffer holds its block of the array the region was entered with, and the output window's buffer is left at
  the accumulator. With the two cases of the body this gives the obligation the pipeline asks at every point.
-/
import proofs.«421818_j2293512536174_1_alg».proof.Proof.Gen.Kernel.Launch
import proofs.«421818_j2293512536174_1_alg».proof.Proof.Gen.Kernel.Skeleton
import proofs.«421818_j2293512536174_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«421818_j2293512536174_1_alg».proof.Proof.K.Body1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The reset condition holds exactly at the points whose number is a multiple of 196: decided over the grid. -/
theorem hcond1 : ∀ t : Fin cfg1.N, cond1 (grid1.coords t) ↔ t.val % 196 = 0 :=
  (by decide +kernel : ∀ t : Fin grid1.N, cond1 (grid1.coords t) ↔ t.val % 196 = 0)

/-! ## The accumulator after each point -/

/-- One step of the accumulator at point `n`: the block's product added to `xs`. -/
def step1 (c : Dev nD) (n : ℕ) (hn : n < cfg1.N) (xs : Vec F S1024x128 .f32) : Vec F S1024x128 .f32 :=
  k1_pay2 (grid1.coords ⟨n, hn⟩) (iblk1 V c 0 ⟨n, hn⟩) (iblk1 V c 1 ⟨n, hn⟩) xs

/-- What the accumulator holds after the body at position `n`: reset to zero before the step at the multiples of 196,
    stepped from what the point before left elsewhere. -/
def acc1 (c : Dev nD) : (n : ℕ) → n < cfg1.N → Vec F S1024x128 .f32
  | 0, hn => step1 V c 0 hn (k1_pay1 (F := F))
  | n + 1, hn => if (n + 1) % 196 = 0 then step1 V c (n + 1) hn (k1_pay1 (F := F)) else step1 V c (n + 1) hn (acc1 c n (Nat.lt_of_succ_lt hn))

theorem acc1_reset (c : Dev nD) (n : ℕ) (hn : n < cfg1.N) (h : n % 196 = 0) : acc1 V c n hn = step1 V c n hn (k1_pay1 (F := F)) := by
  cases n with
  | zero => rfl
  | succ n => exact if_pos h

theorem acc1_step (c : Dev nD) (n : ℕ) (hn : n + 1 < cfg1.N) (h : ¬(n + 1) % 196 = 0) :
    acc1 V c (n + 1) hn = step1 V c (n + 1) hn (acc1 V c n (Nat.lt_of_succ_lt hn)) := if_neg h

/-- The scratch operand: a whole scoped buffer of the kernel's own. -/
abbrev scM1 : Memref sig .tc .vmem S1024x128 .f32 := Memref.whole cc1_scratch0

/-- The scoped buffers no window of this call stages: the other call's, each whole at some contents, and last the
    accumulator, at `X`. -/
def restS1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ X)

/-- The class invariant with the accumulator as a memref owned at some contents. -/
theorem PhiA1_eq (c : Dev nD) :
    (Pipeline.ΦA spec1 c : sProp 𝕄)
      = iprop(restS1 (F := F) c iprop(∃ d, owns (c : Thread nD τ) scM1 fullShare d) ∗ (∃ r, prngReg c r)) := by
  unfold Pipeline.ΦA restS1; rw [scopedRest1_eq]; simp only [scM1, owns_whole]; try rfl

/-- The region invariant before position `n`: before the first point the class's; afterwards the accumulator at what
    the point before left, the other scoped buffers at anything, the generator register at some state. -/
def PhiS1 (c : Dev nD) : (n : ℕ) → n ≤ cfg1.N → sProp 𝕄
  | 0, _ => Pipeline.ΦA spec1 c
  | n + 1, hn => iprop(restS1 (F := F) c (owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(restS1 (F := F) c (owns (c : Thread nD τ) scM1 fullShare (acc1 V c n hn)) ∗ (∃ r, prngReg c r)) := rfl
theorem PhiS1_pos (c : Dev nD) (n : ℕ) (h : n ≤ cfg1.N) (hz : n ≠ 0) :
    PhiS1 V c n h = iprop(restS1 (F := F) c (owns (c : Thread nD τ) scM1 fullShare (acc1 V c (n - 1) (by omega))) ∗ (∃ r, prngReg c r)) := by
  cases n with
  | zero => exact absurd rfl hz
  | succ n => rfl

/-! ## The pipeline's proof data -/

/-- The proof data of the scatter call on core `c`: the arrays as the region finds them; after the body at point `t`
    each input's buffer at its block and the output's at the accumulator narrowed; the invariant `PhiS1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ, after1_0, after1_1, after1_2]
  by_cases h0 : t.val % 196 = 0
  · rw [acc1_reset V c t.val t.isLt h0]; unfold step1
    by_cases hz : t.val = 0
    · rw [PhiS1_castSucc V c t, PhiS1_zero V c _ _ hz, PhiA1_eq]
      unfold restS1
      iintro ⟨⟨⟨R0, R1, R2, R3, R4, R5, R6, HS⟩, Hg⟩, Ho, ⟨%d0, H0⟩, ⟨%d1, H1⟩, ⟨%d2, H2⟩⟩
      iapply (scatter_first c Set.univ (grid1.coords t) _ _ _ _ _ _ _ _ ((hcond1 t).mpr h0) (iblk1 V c 0 t) (iblk1 V c 1 t) _)
      isplitl [H0]; · iexact H0
      isplitl [H1]; · iexact H1
      isplitl [H2]; · iexists _; iexact H2
      isplitl [HS]; · iexact HS
      iintro ⟨H0, H1, H2, HS⟩
      isplitl [HS R0 R1 R2 R3 R4 R5 R6 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          iexact HS
        iexact Hg
      isplitl [Ho]; · iexact Ho
      isplitl [H0]; · iexact H0
      isplitl [H1]; · iexact H1
      iexact H2
    · rw [PhiS1_castSucc V c t, PhiS1_pos V c _ _ hz]
      unfold restS1
      iintro ⟨⟨⟨R0, R1, R2, R3, R4, R5, R6, HS⟩, Hg⟩, Ho, ⟨%d0, H0⟩, ⟨%d1, H1⟩, ⟨%d2, H2⟩⟩
      iapply (scatter_first c Set.univ (grid1.coords t) _ _ _ _ _ _ _ _ ((hcond1 t).mpr h0) (iblk1 V c 0 t) (iblk1 V c 1 t) _)
      isplitl [H0]; · iexact H0
      isplitl [H1]; · iexact H1
      isplitl [H2]; · iexists _; iexact H2
      isplitl [HS]; · iexists _; iexact HS
      iintro ⟨H0, H1, H2, HS⟩
      isplitl [HS R0 R1 R2 R3 R4 R5 R6 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          iexact HS
        iexact Hg
      isplitl [Ho]; · iexact Ho
      isplitl [H0]; · iexact H0
      isplitl [H1]; · iexact H1
      iexact H2
  · have hz : t.val ≠ 0 := fun e => h0 (by rw [e])
    obtain ⟨n, hn⟩ : ∃ n, t.val = n + 1 := ⟨t.val - 1, by omega⟩
    rw [PhiS1_castSucc V c t, PhiS1_pos V c _ _ hz]
    have hacc : acc1 V c t.val t.isLt = step1 V c t.val t.isLt (acc1 V c (t.val - 1) (by omega)) := by
      have key : ∀ (u : ℕ) (hu : u < cfg1.N) (hu0 : ¬u % 196 = 0) (hpos : u ≠ 0), acc1 V c u hu = step1 V c u hu (acc1 V c (u - 1) (by omega)) := by
        intro u hu hu0 hpos
        cases u with
        | zero => exact absurd rfl hpos
        | succ u => exact acc1_step V c u hu hu0
      exact key t.val t.isLt h0 hz
    rw [hacc]; unfold step1
    unfold restS1
    iintro ⟨⟨⟨R0, R1, R2, R3, R4, R5, R6, HS⟩, Hg⟩, Ho, ⟨%d0, H0⟩, ⟨%d1, H1⟩, ⟨%d2, H2⟩⟩
    iapply (scatter_next c Set.univ (grid1.coords t) _ _ _ _ _ _ _ _ (fun h => h0 ((hcond1 t).mp h)) (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS R0 R1 R2 R3 R4 R5 R6 Hg]
    · isplitr [Hg]
      · isplitl [R0]; · iexact R0
        isplitl [R1]; · iexact R1
        isplitl [R2]; · iexact R2
        isplitl [R3]; · iexact R3
        isplitl [R4]; · iexact R4
        isplitl [R5]; · iexact R5
        isplitl [R6]; · iexact R6
        iexact HS
      iexact Hg
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 9604 := N_1; omega), PhiA1_eq]
  unfold restS1
  iintro ⟨⟨R0, R1, R2, R3, R4, R5, R6, HS⟩, Hg⟩
  isplitl [HS R0 R1 R2 R3 R4 R5 R6]
  · isplitl [R0]; · iexact R0
    isplitl [R1]; · iexact R1
    isplitl [R2]; · iexact R2
    isplitl [R3]; · iexact R3
    isplitl [R4]; · iexact R4
    isplitl [R5]; · iexact R5
    isplitl [R6]; · iexact R6
    iexists _; iexact HS
  iexact Hg

end

end Cert.Kernel.Hand

end
-- ==== Proof.K.RunCond.lean ====
/-
  The program's run from one record per kernel region, with the result buffer named in the post: @main is a list of
  host stretches and two regions; between two items every unscoped buffer of the core is held at a known valuation, so
  at the end each argument is read back to its launch contents and the result buffer to the last valuation's value.
-/
import proofs.«421818_j2293512536174_1_alg».proof.Proof.Gen.Kernel.Launch
import proofs.«421818_j2293512536174_1_alg».proof.Proof.Gen.Kernel.Skeleton
import proofs.«421818_j2293512536174_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«421818_j2293512536174_1_alg».proof.Proof.Gen.Kernel.Regions
import Idealize.ShloMosaic.Lib.Pipeline.Frame
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.Pipeline (Seg HostSeg RegionSeg)

variable (m : (ℓ : Loc nD τ sig) → Buf (Elt F) ℓ)

-- the launch theorem's implicit arguments are found by unifying its conclusion with this one
set_option backward.isDefEq.respectTransparency.types false in
/-- The conditional run with the result named: given, per kernel region, a segment record entered from the thread state
    before it and left at the one after it, every weakly fair execution of @main terminates and every final memory holds
    the result buffer at what the last valuation says and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V10 m c) ∗ E 0 c) ⊢ R0.pre c)
    (hpost0 : ∀ c : Dev nD, R0.post c ⊢ iprop(StableHlo.held (c : Thread nD τ) (Pipeline.ucRefs τ sig) (V11 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V11 m outs c) ∗ E 1 c) ⊢ R1.pre c)
    (hpost1 : ∀ c : Dev nD, R1.post c ⊢ iprop(StableHlo.held (c : Thread nD τ) (Pipeline.ucRefs τ sig) (V12 m outs c) ∗ E 2 c)) :
    θ_run defs (onTc (τ := τ) (main (F := F))) ⟨m, fun _ => 0, ρ⟩ (fun r => ∀ c : Dev nD,
      r.2.mem ((c.tc : Thread nD τ).loc main_v44) = V17 m outs c main_v44
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V17 m outs c))
    (hch := fun c => ⟨.rfl, .rfl, .rfl, .rfl, .rfl, .rfl, .rfl, .rfl, .rfl, .rfl, hpre0 c, (hpost0 c).trans (hpre1 c), hpost1 c, .rfl, .rfl, .rfl, .rfl, sep_mono .rfl (hE2 c)⟩)
    (hinit := ?_) (QY := fun c s => s.mem ((c.tc : Thread nD τ).loc main_v44) = V17 m outs c main_v44 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V17 m outs c) s') $$ [Hh HSI]
    · isplitl [Hh] <;> iassumption
    icases Hr with ⟨%h, HSI⟩
    imodintro
    isplitr
    · ipureintro
      exact ⟨h (Proc.devRef .tc main_v44) (Finset.mem_filter.mpr ⟨StableHlo.devRef_mem_tcRefs main_v44, by decide⟩),
        (h (Proc.devRef .tc main_arg0) (Finset.mem_filter.mpr ⟨StableHlo.devRef_mem_tcRefs main_arg0, by decide⟩)).trans (V17_main_arg0 m outs c),
        (h (Proc.devRef .tc main_arg1) (Finset.mem_filter.mpr ⟨StableHlo.devRef_mem_tcRefs main_arg1, by decide⟩)).trans (V17_main_arg1 m outs c),
        (h (Proc.devRef .tc main_arg2) (Finset.mem_filter.mpr ⟨StableHlo.devRef_mem_tcRefs main_arg2, by decide⟩)).trans (V17_main_arg2 m outs c),
        (h (Proc.devRef .tc main_arg3) (Finset.mem_filter.mpr ⟨StableHlo.devRef_mem_tcRefs main_arg3, by decide⟩)).trans (V17_main_arg3 m outs c),
        (h (Proc.devRef .tc main_arg4) (Finset.mem_filter.mpr ⟨StableHlo.devRef_mem_tcRefs main_arg4, by decide⟩)).trans (V17_main_arg4 m outs c),
        (h (Proc.devRef .tc main_arg5) (Finset.mem_filter.mpr ⟨StableHlo.devRef_mem_tcRefs main_arg5, by decide⟩)).trans (V17_main_arg5 m outs c),
        (h (Proc.devRef .tc main_arg6) (Finset.mem_filter.mpr ⟨StableHlo.devRef_mem_tcRefs main_arg6, by decide⟩)).trans (V17_main_arg6 m outs c),
        (h (Proc.devRef .tc main_arg7) (Finset.mem_filter.mpr ⟨StableHlo.devRef_mem_tcRefs main_arg7, by decide⟩)).trans (V17_main_arg7 m outs c)⟩
    · iexact HSI

end Cert.Kernel.Hand

end
-- ==== Proof.K.Run.lean ====
/-
  The two calls as regions of @main and the program's run. The gather call is entered from the contents the host
  operations before it leave and exits with its output array at what its write-backs leave; the scatter call is entered
  from there and exits likewise; every other buffer passes through a call unchanged. The run ends with the result buffer
  at the host operations after the calls applied to those contents, and every argument as launched.
-/
import proofs.«421818_j2293512536174_1_alg».proof.Proof.Gen.Kernel.Launch
import proofs.«421818_j2293512536174_1_alg».proof.Proof.Gen.Kernel.Skeleton
import proofs.«421818_j2293512536174_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«421818_j2293512536174_1_alg».proof.Proof.K.Dat0
import proofs.«421818_j2293512536174_1_alg».proof.Proof.K.Dat1
import proofs.«421818_j2293512536174_1_alg».proof.Proof.K.RunCond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (m : (ℓ : Loc nD τ sig) → Buf (Elt F) ℓ) (ρ : Dev nD → PrngReg)

/-! ## The buffer contents around the two calls -/

/-- What the gather call is entered from, read at the TensorCore's references. -/
abbrev Vin0 : (c : Dev nD) → (b : Ref sig .tc) → Buf (Elt F) ((c : Thread nD τ).loc b) := fun c b => V10 m c b
/-- What the gather call leaves in its output array. -/
def gOut (c : Dev nD) : Buf (Elt F) ((c : Thread nD τ).loc main_v20) := (dat0 (Vin0 m) c).arrAt 2 cfg0.N
/-- The contents after the gather call: its output array at what the call leaves, every other buffer as entered. -/
def Wa (c : Dev nD) : Valuation τ sig (Elt F) := Function.update (V10 m c) main_v20 (gOut m c)
/-- What the scatter call is entered from, read at the TensorCore's references. -/
abbrev Vin1 : (c : Dev nD) → (b : Ref sig .tc) → Buf (Elt F) ((c : Thread nD τ).loc b) := fun c b => Wa m c b
/-- What the scatter call leaves in its output array. -/
def aOut (c : Dev nD) : Buf (Elt F) ((c : Thread nD τ).loc main_v21) := (dat1 (Vin1 m) c).arrAt 2 cfg1.N
/-- The contents after the scatter call. -/
def Wb (c : Dev nD) : Valuation τ sig (Elt F) := Function.update (Wa m c) main_v21 (aOut m c)

/-- What the two calls leave, as the family the valuations between @main's items are written over. -/
def outs : Outs (F := F) := fun J r c => if J = 11 then Wa m c r else Wb m c r

theorem Wa_v20 (c : Dev nD) : Wa m c main_v20 = gOut m c := by unfold Wa; exact Function.update_self ..
theorem Wb_v21 (c : Dev nD) : Wb m c main_v21 = aOut m c := by unfold Wb; exact Function.update_self ..
theorem Wa_of_ne (c : Dev nD) (b : Ref sig .tc) (hb : b ≠ main_v20) : Wa m c b = V10 m c b := by
  unfold Wa; exact Function.update_of_ne (StableHlo.devRef_ne_of_ne hb) ..
theorem Wb_of_ne (c : Dev nD) (b : Ref sig .tc) (hb : b ≠ main_v21) : Wb m c b = Wa m c b := by
  unfold Wb; exact Function.update_of_ne (StableHlo.devRef_ne_of_ne hb) ..

theorem outs_11 (c : Dev nD) : outs m 11 main_v20 c = gOut m c := by
  unfold outs; rw [if_pos rfl]; exact Wa_v20 m c
theorem outs_12 (c : Dev nD) : outs m 12 main_v21 c = aOut m c := by
  unfold outs; rw [if_neg (by decide)]; exact Wb_v21 m c

/-- The generated valuation after the gather call, at these contents, is `Wa`. -/
theorem V11_eq (c : Dev nD) : V11 m (outs m) c = Wa m c := by
  show Function.update (V10 m c) main_v20 (outs m 11 main_v20 c) = Wa m c
  rw [outs_11]; rfl
/-- The generated valuation after the scatter call, at these contents, is `Wb`. -/
theorem V12_eq (c : Dev nD) : V12 m (outs m) c = Wb m c := by
  show Function.update (V11 m (outs m) c) main_v21 (outs m 12 main_v21 c) = Wb m c
  rw [outs_12, V11_eq]; rfl

/-! ## The proof data family and the thread state -/

abbrev admK : (p : Fin 2) → (pcfgs (F := F) p).Adm := fun p => (cfgs p).toPCfg_adm
/-- Every call's proof data, each at its region's entry contents. -/
def pdats : (p : Fin 2) → (c : Dev nD) → Dat τ (Elt F) Unit ℕ (UR sig nD τ) ℕ (Pipeline.pin (pcfgs (F := F)) admK p) c
  | ⟨0, _⟩ => fun c => dat0 (Vin0 m) c
  | ⟨1, _⟩ => fun c => dat1 (Vin1 m) c
abbrev 𝒱K : Variants := Variants.none
abbrev LK : GSem nD τ sig → Finset Unit := fun _ => ∅
abbrev lvK : GSem nD τ sig → Unit → ℕ := fun _ _ => 0
/-- What rides beside the buffers through every item: the generator register at some state and the core owing nothing. -/
abbrev RK (c : Dev nD) : sProp 𝕄 := iprop((∃ r, prngReg c r) ∗ ∃ W, owes (c : Thread nD τ) (0 : CellTallies nD τ sig Unit) W)

/-- After the gather call its arrays hold what the pipeline leaves: the inputs as entered, the output `gOut`. -/
theorem hF0 (c : Dev nD) (w : Fin cfg0.W) : (dat0 (Vin0 m) c).arrAt w cfg0.N = Wa m c (Pipeline.arrRef spec0 w) := by
  match w with
  | ⟨0, _⟩ => exact (((dat0 (Vin0 m) c).arrAt_in 0 rfl _).trans (A_eq0 (Vin0 m) c 0)).trans (Wa_of_ne m c _ (by decide)).symm
  | ⟨1, _⟩ => exact (((dat0 (Vin0 m) c).arrAt_in 1 rfl _).trans (A_eq0 (Vin0 m) c 1)).trans (Wa_of_ne m c _ (by decide)).symm
  | ⟨2, _⟩ => exact (Wa_v20 m c).symm
theorem hrest0 (c : Dev nD) : ∀ b, b ∉ Finset.univ.image (Pipeline.arrRef spec0) → Vin1 m c b = Vin0 m c b :=
  fun b hb => Wa_of_ne m c b fun e => hb (Finset.mem_image.mpr ⟨2, Finset.mem_univ _, e.symm⟩)
theorem hF1 (c : Dev nD) (w : Fin cfg1.W) : (dat1 (Vin1 m) c).arrAt w cfg1.N = Wb m c (Pipeline.arrRef spec1 w) := by
  match w with
  | ⟨0, _⟩ => exact (((dat1 (Vin1 m) c).arrAt_in 0 rfl _).trans (A_eq1 (Vin1 m) c 0)).trans (Wb_of_ne m c _ (by decide)).symm
  | ⟨1, _⟩ => exact (((dat1 (Vin1 m) c).arrAt_in 1 rfl _).trans (A_eq1 (Vin1 m) c 1)).trans (Wb_of_ne m c _ (by decide)).symm
  | ⟨2, _⟩ => exact (Wb_v21 m c).symm
theorem hrest1 (c : Dev nD) : ∀ b, b ∉ Finset.univ.image (Pipeline.arrRef spec1) → (fun b : Ref sig .tc => Wb m c b) b = Vin1 m c b :=
  fun b hb => Wb_of_ne m c b fun e => hb (Finset.mem_image.mpr ⟨2, Finset.mem_univ _, e.symm⟩)

/-! ## The regions as segments -/

set_option backward.isDefEq.respectTransparency.types false in
/-- The gather call over the thread state: entered from every unscoped buffer at `V10`, left at `Wa`. -/
def reg0 : Pipeline.RegionSeg (pcfgs (F := F)) admK (pdats m) () defs₀ 𝒱K LK lvK 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ LK lvK 0 fun _ _ => rfl
  pre c := iprop(StableHlo.held (c : Thread nD τ) (Pipeline.ucRefs τ sig) (V10 m c) ∗ RK c)
  post c := iprop(StableHlo.held (c : Thread nD τ) (Pipeline.ucRefs τ sig) (Wa m c) ∗ RK c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) admK (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vin0 m) c)
    unfold Pipeline.ΦA
    iintro ⟨Hp, -, Hr⟩
    isplitl [Hr]; · iexact Hr
    iexact Hp
  hout c := by
    rw [Pipeline.ownSems0_none]
    refine BIBase.Entails.trans (hout0 (Vin0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m) ((pdats m 0 c).share_full fun _ => rfl)
      (Vin0 m c) (Vin1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scatter call over the thread state: entered from every unscoped buffer at `Wa`, left at `Wb`. -/
def reg1 : Pipeline.RegionSeg (pcfgs (F := F)) admK (pdats m) () defs₀ 𝒱K LK lvK 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ LK lvK 1 fun _ _ => rfl
  pre c := iprop(StableHlo.held (c : Thread nD τ) (Pipeline.ucRefs τ sig) (Wa m c) ∗ RK c)
  post c := iprop(StableHlo.held (c : Thread nD τ) (Pipeline.ucRefs τ sig) (Wb m c) ∗ RK c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) admK (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vin1 m) c)
    unfold Pipeline.ΦA
    iintro ⟨Hp, -, Hr⟩
    isplitl [Hr]; · iexact Hr
    iexact Hp
  hout c := by
    rw [Pipeline.ownSems0_none]
    refine BIBase.Entails.trans (hout1 (Vin1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m) ((pdats m 1 c).share_full fun _ => rfl)
      (Vin1 m c) (fun b : Ref sig .tc => Wb m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main terminates, nothing faulting; every final memory holds the result buffer at
    what the host operations after the two calls make of the calls' outputs, and each argument as launched. -/
theorem run_main : θ_run defs (onTc (τ := τ) (main (F := F))) ⟨m, fun _ => 0, ρ⟩ (fun r => ∀ c : Dev nD,
      r.2.mem ((c.tc : Thread nD τ).loc main_v44) = V17 m (outs m) c main_v44
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_cond m (Ix := Unit) (U := UR sig nD τ) (Lvl := ℕ) emb₁ () 𝒱K LK lvK (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => RK c)
    (hE0 := by
      refine Pipeline.initEach LK lvK fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => by rw [V11_eq]; exact .rfl)
    (R1 := reg1 m) (hpre1 := fun c => by rw [V11_eq]; exact .rfl) (hpost1 := fun c => by rw [V12_eq]; exact .rfl)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_main m ρ)

end

end Cert.Kernel.Hand

end
-- ==== Proof.KI.Body0.lean ====
/-
  The gather call's body at one grid point. The body keeps a [4096, 128] accumulator in a scratch buffer across the 49
  points of a row of the grid: at the row's first point it zeroes the accumulator, at every point it adds to it the
  product of a one-hot [4096, 1024] weight block (the source words of 4096 edges against 1024 node numbers) with a
  [1024, 128] block of feature rows, and stores the accumulator, narrowed, into the output block. Two cases, by whether
  the point is the first of its row; in each the buffers end at the named pure terms of what the body loaded.
-/
import proofs.«421818_j2293512536174_1_alg».proof.Proof.Gen.KernelIdeal.Launch
import proofs.«421818_j2293512536174_1_alg».proof.Proof.Gen.KernelIdeal.Skeleton
import proofs.«421818_j2293512536174_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«421818_j2293512536174_1_alg».proof.Proof.LibWhole

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWhole

/-- The gather kernel's reset condition: the second grid coordinate is zero. -/
abbrev cond0 (i : grid0.Coords) : Prop :=
  (Scalar.cmpi .ne (Scalar.extui (Scalar.cmpi .eq (BitVec.ofNat 32 (i 1).val) 0#32)) 0#32) = 1#1

set_option maxHeartbeats 2000000 in
/-- At a point whose second coordinate is zero the body zeroes the accumulator, adds the block's product into it and
    stores it, narrowed, into the output block. -/
theorem gather_first (c : Dev nD) (E : Set ℕ) (i : grid0.Coords)
    (arg2 : Memref sig .tc .vmem S4096x1 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hc : cond0 i) (x0 : Vec F S4096x1 .i32) (x1 : Vec F S1024x128 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay3 (k0_pay2 i x0 x1 (k0_pay1 (F := F))))
            ∗ owns (c : Thread nD τ) arg5 fullShare (k0_pay2 i x0 x1 (k0_pay1 (F := F)))) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [read_writes_head _ _ zeros2]
    sl_unfold_words
    simp only [View.readAt_eq_ld, hf0, hf1, View.ld_unit_zero (S := S4096x1) zeros2, View.ld_unit_zero (S := S1024x128) zeros2,
    View.ld_unit_zero (S := S4096x128) zeros2, readCov_head (S := S4096x128) _ zeros2]
  iexists _; isplitr
  swap; · iexact H3
  ipureintro
  sl_unfold_words
  rw [read_writes_head _ _ zeros2]
  simp only [View.readAt_eq_ld, hf0, hf1, View.ld_unit_zero (S := S4096x1) zeros2, View.ld_unit_zero (S := S1024x128) zeros2,
    View.ld_unit_zero (S := S4096x128) zeros2, readCov_head (S := S4096x128) _ zeros2]

set_option maxHeartbeats 2000000 in
/-- At any other point the body adds the block's product into the accumulator the point before left and stores it,
    narrowed, into the output block. -/
theorem gather_next (c : Dev nD) (E : Set ℕ) (i : grid0.Coords)
    (arg2 : Memref sig .tc .vmem S4096x1 .i32) (harg2 : arg2.IsWhole) (arg3 : Memref sig .tc .vmem S1024x128 .f32) (harg3 : arg3.IsWhole)
    (arg4 : Memref sig .tc .vmem S4096x128 .bf16) (harg4 : arg4.IsWhole) (arg5 : Memref sig .tc .vmem S4096x128 .f32) (harg5 : arg5.IsWhole)
    (hc : ¬cond0 i) (x0 : Vec F S4096x1 .i32) (x1 : Vec F S1024x128 .f32) (xs : Vec F S4096x128 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k0_pay3 (k0_pay2 i x0 x1 xs))
            ∗ owns (c : Thread nD τ) arg5 fullShare (k0_pay2 i x0 x1 xs)) -∗ K ⟨⟩))
      ⊢ wp frame (wpE (defs₀ (F := F)) Variants.none c none) E (cc0__gather_kernel i arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [read_writes_head _ _ zeros2]
    sl_unfold_words
    simp only [View.readAt_eq_ld, hf0, hf1, hf3, View.ld_unit_zero (S := S4096x1) zeros2, View.ld_unit_zero (S := S1024x128) zeros2,
    View.ld_unit_zero (S := S4096x128) zeros2, readCov_head (S := S4096x128) _ zeros2]
  iexists _; isplitr
  swap; · iexact H3
  ipureintro
  sl_unfold_words
  rw [read_writes_head _ _ zeros2]
  simp only [View.readAt_eq_ld, hf0, hf1, hf3, View.ld_unit_zero (S := S4096x1) zeros2, View.ld_unit_zero (S := S1024x128) zeros2,
    View.ld_unit_zero (S := S4096x128) zeros2, readCov_head (S := S4096x128) _ zeros2]

end Cert.KernelIdeal.Hand

end
-- ==== Proof.KI.Dat0.lean ====
/-
  The gather call point by point. What the accumulator holds after point n is defined by recursion on n: at a multiple
  of 49 the step applied to zeros, elsewhere the step applied to what the point before left. The region's invariant
  carries the accumulator at that value from one point to the next (any contents before the first point), each input
  window's buffer holds its block of the array the region was entered with, and the output window's buffer is left at
  the accumulator narrowed. With the two cases of the body this gives the obligation the pipeline asks at every point.
-/
import proofs.«421818_j2293512536174_1_alg».proof.Proof.Gen.KernelIdeal.Launch
import proofs.«421818_j2293512536174_1_alg».proof.Proof.Gen.KernelIdeal.Skeleton
import proofs.«421818_j2293512536174_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«421818_j2293512536174_1_alg».proof.Proof.KI.Body0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The reset condition holds exactly at the points whose number is a multiple of 49: decided over the grid. -/
theorem hcond0 : ∀ t : Fin cfg0.N, cond0 (grid0.coords t) ↔ t.val % 49 = 0 :=
  (by decide +kernel : ∀ t : Fin grid0.N, cond0 (grid0.coords t) ↔ t.val % 49 = 0)

/-! ## The accumulator after each point -/

/-- One step of the accumulator at point `n`: the block's product added to `xs`. -/
def step0 (c : Dev nD) (n : ℕ) (hn : n < cfg0.N) (xs : Vec F S4096x128 .f32) : Vec F S4096x128 .f32 :=
  k0_pay2 (grid0.coords ⟨n, hn⟩) (iblk0 V c 0 ⟨n, hn⟩) (iblk0 V c 1 ⟨n, hn⟩) xs

/-- What the accumulator holds after the body at position `n`: reset to zero before the step at the multiples of 49,
    stepped from what the point before left elsewhere. -/
def acc0 (c : Dev nD) : (n : ℕ) → n < cfg0.N → Vec F S4096x128 .f32
  | 0, hn => step0 V c 0 hn (k0_pay1 (F := F))
  | n + 1, hn => if (n + 1) % 49 = 0 then step0 V c (n + 1) hn (k0_pay1 (F := F)) else step0 V c (n + 1) hn (acc0 c n (Nat.lt_of_succ_lt hn))

theorem acc0_reset (c : Dev nD) (n : ℕ) (hn : n < cfg0.N) (h : n % 49 = 0) : acc0 V c n hn = step0 V c n hn (k0_pay1 (F := F)) := by
  cases n with
  | zero => rfl
  | succ n => exact if_pos h

theorem acc0_step (c : Dev nD) (n : ℕ) (hn : n + 1 < cfg0.N) (h : ¬(n + 1) % 49 = 0) :
    acc0 V c (n + 1) hn = step0 V c (n + 1) hn (acc0 V c n (Nat.lt_of_succ_lt hn)) := if_neg h

/-- The scratch operand: a whole scoped buffer of the kernel's own. -/
abbrev scM0 : Memref sig .tc .vmem S4096x128 .f32 := Memref.whole cc0_scratch0

/-- The scoped buffers no window of this call stages, but for the accumulator. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant with the accumulator as a memref owned at some contents. -/
theorem PhiA0_eq (c : Dev nD) :
    (Pipeline.ΦA spec0 c : sProp 𝕄)
      = iprop(iprop((∃ d, owns (c : Thread nD τ) scM0 fullShare d) ∗ restS0 (F := F) c) ∗ (∃ r, prngReg c r)) := by
  unfold Pipeline.ΦA restS0; rw [scopedRest0_eq]; simp only [scM0, owns_whole]; try rfl

/-- The region invariant before position `n`: before the first point the class's; afterwards the accumulator at what
    the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ restS0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ restS0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ restS0 (F := F) c) ∗ (∃ r, prngReg c r)) := by
  cases n with
  | zero => exact absurd rfl hz
  | succ n => rfl

/-! ## The pipeline's proof data -/

/-- The proof data of the gather call on core `c`: the arrays as the region finds them; after the body at point `t`
    each input's buffer at its block and the output's at the accumulator narrowed; the invariant `PhiS0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay3 (acc0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ, after0_0, after0_1, after0_2]
  by_cases h0 : t.val % 49 = 0
  · rw [acc0_reset V c t.val t.isLt h0]; unfold step0
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩⟩
      iapply (gather_first c Set.univ (grid0.coords t) _ _ _ _ _ _ _ _ ((hcond0 t).mpr h0) (iblk0 V c 0 t) (iblk0 V c 1 t) _)
      isplitl [H0]; · iexact H0
      isplitl [H1]; · iexact H1
      isplitl [H2]; · iexists _; iexact H2
      isplitl [HS]; · iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
    · rw [PhiS0_castSucc V c t, PhiS0_pos V c _ _ hz]
      iintro ⟨⟨⟨HS, HR⟩, Hg⟩, Ho, ⟨%d0, H0⟩, ⟨%d1, H1⟩, ⟨%d2, H2⟩⟩
      iapply (gather_first c Set.univ (grid0.coords t) _ _ _ _ _ _ _ _ ((hcond0 t).mpr h0) (iblk0 V c 0 t) (iblk0 V c 1 t) _)
      isplitl [H0]; · iexact H0
      isplitl [H1]; · iexact H1
      isplitl [H2]; · iexists _; iexact H2
      isplitl [HS]; · iexists _; iexact HS
      iintro ⟨H0, H1, H2, HS⟩
      isplitl [HS HR Hg]
      · isplitr [Hg]
        · isplitl [HS]; · iexact HS
          iexact HR
        iexact Hg
      isplitl [Ho]; · iexact Ho
      isplitl [H0]; · iexact H0
      isplitl [H1]; · iexact H1
      iexact H2
  · have hz : t.val ≠ 0 := fun e => h0 (by rw [e])
    obtain ⟨n, hn⟩ : ∃ n, t.val = n + 1 := ⟨t.val - 1, by omega⟩
    rw [PhiS0_castSucc V c t, PhiS0_pos V c _ _ hz]
    have hacc : acc0 V c t.val t.isLt = step0 V c t.val t.isLt (acc0 V c (t.val - 1) (by omega)) := by
      have key : ∀ (u : ℕ) (hu : u < cfg0.N) (hu0 : ¬u % 49 = 0) (hpos : u ≠ 0), acc0 V c u hu = step0 V c u hu (acc0 V c (u - 1) (by omega)) := by
        intro u hu hu0 hpos
        cases u with
        | zero => exact absurd rfl hpos
        | succ u => exact acc0_step V c u hu hu0
      exact key t.val t.isLt h0 hz
    rw [hacc]; unfold step0
    iintro ⟨⟨⟨HS, HR⟩, Hg⟩, Ho, ⟨%d0, H0⟩, ⟨%d1, H1⟩, ⟨%d2, H2⟩⟩
    iapply (gather_next c Set.univ (grid0.coords t) _ _ _ _ _ _ _ _ (fun h => h0 ((hcond0 t).mp h)) (iblk0 V c 0 t) (iblk0 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitr [Hg]
      · isplitl [HS]; · iexact HS
        iexact HR
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 9604 := N_0; omega), PhiA0_eq]
  iintro ⟨⟨HS, HR⟩, Hg⟩
  isplitl [HS HR]
  · isplitl [HS]; · iexists _; iexact HS
    iexact HR
  iexact Hg

end

end Cert.KernelIdeal.Hand

end
-- ==== Proof.KI.Body1.lean ====
/-
  The scatter call's body at one grid point. The body keeps a [1024, 128] accumulator in a scratch buffer across the 196
  points of a row of the grid: at the row's first point it zeroes the accumulator, at every point it adds to it the
  product of a one-hot [1024, 4096] weight block (1024 node numbers against the destination words of 4096 edges) with a
  [4096, 128] block of gathered rows, and stores the accumulator into the output block. Two cases, by whether the point
  is the first of its row; in each the buffers end at the named pure terms of what the body loaded.
-/
import proofs.«421818_j2293512536174_1_alg».proof.Proof.Gen.KernelIdeal.Launch
import proofs.«421818_j2293512536174_1_alg».proof.Proof.Gen.KernelIdeal.Skeleton
import proofs.«421818_j2293512536174_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«421818_j2293512536174_1_alg».proof.Proof.LibWhole

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.LibWhole

/-- The scatter kernel's reset condition: the second grid coordinate is zero. -/
abbrev cond1 (i : grid1.Coords) : Prop :=
  (Scalar.cmpi .ne (Scalar.extui (Scalar.cmpi .eq (BitVec.ofNat 32 (i 1).val) 0#32)) 0#32) = 1#1

set_option maxHeartbeats 2000000 in
/-- At a point whose second coordinate is zero the body zeroes the accumulator, adds the block's product into it and
    stores it into the output block. -/
theorem scatter_first (c : Dev nD) (E : Set ℕ) (i : grid1.Coords)
    (arg2 : Memref sig .tc .vmem S1x4096 .i32) (harg2 : arg2.IsWhole) (arg3 : Memref sig .tc .vmem S4096x128 .bf16) (harg3 : arg3.IsWhole)
    (arg4 : Memref sig .tc .vmem S1024x128 .f32) (harg4 : arg4.IsWhole) (arg5 : Memref sig .tc .vmem S1024x128 .f32) (harg5 : arg5.IsWhole)
    (hc : cond1 i) (x0 : Vec F S1x4096 .i32) (x1 : Vec F S4096x128 .bf16) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k1_pay2 i x0 x1 (k1_pay1 (F := F)))
            ∗ owns (c : Thread nD τ) arg5 fullShare (k1_pay2 i x0 x1 (k1_pay1 (F := F)))) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [read_writes_head _ _ zeros2]
    sl_unfold_words
    simp only [View.readAt_eq_ld, hf0, hf1, View.ld_unit_zero (S := S1x4096) zeros2, View.ld_unit_zero (S := S4096x128) zeros2,
      View.ld_unit_zero (S := S1024x128) zeros2, readCov_head (S := S1024x128) _ zeros2]
  iexists _; isplitr
  swap; · iexact H3
  ipureintro
  sl_unfold_words
  rw [read_writes_head _ _ zeros2]
  simp only [View.readAt_eq_ld, hf0, hf1, View.ld_unit_zero (S := S1x4096) zeros2, View.ld_unit_zero (S := S4096x128) zeros2,
    View.ld_unit_zero (S := S1024x128) zeros2, readCov_head (S := S1024x128) _ zeros2]

set_option maxHeartbeats 2000000 in
/-- At any other point the body adds the block's product into the accumulator the point before left and stores it into
    the output block. -/
theorem scatter_next (c : Dev nD) (E : Set ℕ) (i : grid1.Coords)
    (arg2 : Memref sig .tc .vmem S1x4096 .i32) (harg2 : arg2.IsWhole) (arg3 : Memref sig .tc .vmem S4096x128 .bf16) (harg3 : arg3.IsWhole)
    (arg4 : Memref sig .tc .vmem S1024x128 .f32) (harg4 : arg4.IsWhole) (arg5 : Memref sig .tc .vmem S1024x128 .f32) (harg5 : arg5.IsWhole)
    (hc : ¬cond1 i) (x0 : Vec F S1x4096 .i32) (x1 : Vec F S4096x128 .bf16) (xs : Vec F S1024x128 .f32) (K : PUnit → sProp 𝕄) :
    iprop(owns (c : Thread nD τ) arg2 fullShare x0 ∗ owns (c : Thread nD τ) arg3 fullShare x1
        ∗ (∃ d, owns (c : Thread nD τ) arg4 fullShare d) ∗ owns (c : Thread nD τ) arg5 fullShare xs
        ∗ (iprop(owns (c : Thread nD τ) arg2 fullShare x0 ∗ owns (c : Thread nD τ) arg3 fullShare x1
            ∗ owns (c : Thread nD τ) arg4 fullShare (k1_pay2 i x0 x1 xs)
            ∗ owns (c : Thread nD τ) arg5 fullShare (k1_pay2 i x0 x1 xs)) -∗ K ⟨⟩))
      ⊢ wp frame (wpE (defs₀ (F := F)) Variants.none c none) E (cc1__scatter_kernel i arg2 harg2 arg3 harg3 arg4 harg4 arg5 harg5) K := by
  simp only [cc1__scatter_kernel_eq_skeleton]; unfold cc1__scatter_kernel_skel
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    rw [read_writes_head _ _ zeros2]
    sl_unfold_words
    simp only [View.readAt_eq_ld, hf0, hf1, hf3, View.ld_unit_zero (S := S1x4096) zeros2, View.ld_unit_zero (S := S4096x128) zeros2,
      View.ld_unit_zero (S := S1024x128) zeros2, readCov_head (S := S1024x128) _ zeros2]
  iexists _; isplitr
  swap; · iexact H3
  ipureintro
  sl_unfold_words
  rw [read_writes_head _ _ zeros2]
  simp only [View.readAt_eq_ld, hf0, hf1, hf3, View.ld_unit_zero (S := S1x4096) zeros2, View.ld_unit_zero (S := S4096x128) zeros2,
    View.ld_unit_zero (S := S1024x128) zeros2, readCov_head (S := S1024x128) _ zeros2]

end Cert.KernelIdeal.Hand

end
-- ==== Proof.KI.Dat1.lean ====
/-
  The scatter call point by point. What the accumulator holds after point n is defined by recursion on n: at a multiple
  of 196 the step applied to zeros, elsewhere the step applied to what the point before left. The region's invariant
  carries the accumulator at that value from one point to the next (any contents before the first point), each input
  window's buffer holds its block of the array the region was entered with, and the output window's buffer is left at
  the accumulator. With the two cases of the body this gives the obligation the pipeline asks at every point.
-/
import proofs.«421818_j2293512536174_1_alg».proof.Proof.Gen.KernelIdeal.Launch
import proofs.«421818_j2293512536174_1_alg».proof.Proof.Gen.KernelIdeal.Skeleton
import proofs.«421818_j2293512536174_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«421818_j2293512536174_1_alg».proof.Proof.KI.Body1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The reset condition holds exactly at the points whose number is a multiple of 196: decided over the grid. -/
theorem hcond1 : ∀ t : Fin cfg1.N, cond1 (grid1.coords t) ↔ t.val % 196 = 0 :=
  (by decide +kernel : ∀ t : Fin grid1.N, cond1 (grid1.coords t) ↔ t.val % 196 = 0)

/-! ## The accumulator after each point -/

/-- One step of the accumulator at point `n`: the block's product added to `xs`. -/
def step1 (c : Dev nD) (n : ℕ) (hn : n < cfg1.N) (xs : Vec F S1024x128 .f32) : Vec F S1024x128 .f32 :=
  k1_pay2 (grid1.coords ⟨n, hn⟩) (iblk1 V c 0 ⟨n, hn⟩) (iblk1 V c 1 ⟨n, hn⟩) xs

/-- What the accumulator holds after the body at position `n`: reset to zero before the step at the multiples of 196,
    stepped from what the point before left elsewhere. -/
def acc1 (c : Dev nD) : (n : ℕ) → n < cfg1.N → Vec F S1024x128 .f32
  | 0, hn => step1 V c 0 hn (k1_pay1 (F := F))
  | n + 1, hn => if (n + 1) % 196 = 0 then step1 V c (n + 1) hn (k1_pay1 (F := F)) else step1 V c (n + 1) hn (acc1 c n (Nat.lt_of_succ_lt hn))

theorem acc1_reset (c : Dev nD) (n : ℕ) (hn : n < cfg1.N) (h : n % 196 = 0) : acc1 V c n hn = step1 V c n hn (k1_pay1 (F := F)) := by
  cases n with
  | zero => rfl
  | succ n => exact if_pos h

theorem acc1_step (c : Dev nD) (n : ℕ) (hn : n + 1 < cfg1.N) (h : ¬(n + 1) % 196 = 0) :
    acc1 V c (n + 1) hn = step1 V c (n + 1) hn (acc1 V c n (Nat.lt_of_succ_lt hn)) := if_neg h

/-- The scratch operand: a whole scoped buffer of the kernel's own. -/
abbrev scM1 : Memref sig .tc .vmem S1024x128 .f32 := Memref.whole cc1_scratch0

/-- The scoped buffers no window of this call stages: the other call's, each whole at some contents, and last the
    accumulator, at `X`. -/
def restS1 (c : Dev nD) (X : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ X)

/-- The class invariant with the accumulator as a memref owned at some contents. -/
theorem PhiA1_eq (c : Dev nD) :
    (Pipeline.ΦA spec1 c : sProp 𝕄)
      = iprop(restS1 (F := F) c iprop(∃ d, owns (c : Thread nD τ) scM1 fullShare d) ∗ (∃ r, prngReg c r)) := by
  unfold Pipeline.ΦA restS1; rw [scopedRest1_eq]; simp only [scM1, owns_whole]; try rfl

/-- The region invariant before position `n`: before the first point the class's; afterwards the accumulator at what
    the point before left, the other scoped buffers at anything, the generator register at some state. -/
def PhiS1 (c : Dev nD) : (n : ℕ) → n ≤ cfg1.N → sProp 𝕄
  | 0, _ => Pipeline.ΦA spec1 c
  | n + 1, hn => iprop(restS1 (F := F) c (owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(restS1 (F := F) c (owns (c : Thread nD τ) scM1 fullShare (acc1 V c n hn)) ∗ (∃ r, prngReg c r)) := rfl
theorem PhiS1_pos (c : Dev nD) (n : ℕ) (h : n ≤ cfg1.N) (hz : n ≠ 0) :
    PhiS1 V c n h = iprop(restS1 (F := F) c (owns (c : Thread nD τ) scM1 fullShare (acc1 V c (n - 1) (by omega))) ∗ (∃ r, prngReg c r)) := by
  cases n with
  | zero => exact absurd rfl hz
  | succ n => rfl

/-! ## The pipeline's proof data -/

/-- The proof data of the scatter call on core `c`: the arrays as the region finds them; after the body at point `t`
    each input's buffer at its block and the output's at the accumulator narrowed; the invariant `PhiS1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ, after1_0, after1_1, after1_2]
  by_cases h0 : t.val % 196 = 0
  · rw [acc1_reset V c t.val t.isLt h0]; unfold step1
    by_cases hz : t.val = 0
    · rw [PhiS1_castSucc V c t, PhiS1_zero V c _ _ hz, PhiA1_eq]
      unfold restS1
      iintro ⟨⟨⟨R0, R1, R2, R3, R4, R5, R6, HS⟩, Hg⟩, Ho, ⟨%d0, H0⟩, ⟨%d1, H1⟩, ⟨%d2, H2⟩⟩
      iapply (scatter_first c Set.univ (grid1.coords t) _ _ _ _ _ _ _ _ ((hcond1 t).mpr h0) (iblk1 V c 0 t) (iblk1 V c 1 t) _)
      isplitl [H0]; · iexact H0
      isplitl [H1]; · iexact H1
      isplitl [H2]; · iexists _; iexact H2
      isplitl [HS]; · iexact HS
      iintro ⟨H0, H1, H2, HS⟩
      isplitl [HS R0 R1 R2 R3 R4 R5 R6 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          iexact HS
        iexact Hg
      isplitl [Ho]; · iexact Ho
      isplitl [H0]; · iexact H0
      isplitl [H1]; · iexact H1
      iexact H2
    · rw [PhiS1_castSucc V c t, PhiS1_pos V c _ _ hz]
      unfold restS1
      iintro ⟨⟨⟨R0, R1, R2, R3, R4, R5, R6, HS⟩, Hg⟩, Ho, ⟨%d0, H0⟩, ⟨%d1, H1⟩, ⟨%d2, H2⟩⟩
      iapply (scatter_first c Set.univ (grid1.coords t) _ _ _ _ _ _ _ _ ((hcond1 t).mpr h0) (iblk1 V c 0 t) (iblk1 V c 1 t) _)
      isplitl [H0]; · iexact H0
      isplitl [H1]; · iexact H1
      isplitl [H2]; · iexists _; iexact H2
      isplitl [HS]; · iexists _; iexact HS
      iintro ⟨H0, H1, H2, HS⟩
      isplitl [HS R0 R1 R2 R3 R4 R5 R6 Hg]
      · isplitr [Hg]
        · isplitl [R0]; · iexact R0
          isplitl [R1]; · iexact R1
          isplitl [R2]; · iexact R2
          isplitl [R3]; · iexact R3
          isplitl [R4]; · iexact R4
          isplitl [R5]; · iexact R5
          isplitl [R6]; · iexact R6
          iexact HS
        iexact Hg
      isplitl [Ho]; · iexact Ho
      isplitl [H0]; · iexact H0
      isplitl [H1]; · iexact H1
      iexact H2
  · have hz : t.val ≠ 0 := fun e => h0 (by rw [e])
    obtain ⟨n, hn⟩ : ∃ n, t.val = n + 1 := ⟨t.val - 1, by omega⟩
    rw [PhiS1_castSucc V c t, PhiS1_pos V c _ _ hz]
    have hacc : acc1 V c t.val t.isLt = step1 V c t.val t.isLt (acc1 V c (t.val - 1) (by omega)) := by
      have key : ∀ (u : ℕ) (hu : u < cfg1.N) (hu0 : ¬u % 196 = 0) (hpos : u ≠ 0), acc1 V c u hu = step1 V c u hu (acc1 V c (u - 1) (by omega)) := by
        intro u hu hu0 hpos
        cases u with
        | zero => exact absurd rfl hpos
        | succ u => exact acc1_step V c u hu hu0
      exact key t.val t.isLt h0 hz
    rw [hacc]; unfold step1
    unfold restS1
    iintro ⟨⟨⟨R0, R1, R2, R3, R4, R5, R6, HS⟩, Hg⟩, Ho, ⟨%d0, H0⟩, ⟨%d1, H1⟩, ⟨%d2, H2⟩⟩
    iapply (scatter_next c Set.univ (grid1.coords t) _ _ _ _ _ _ _ _ (fun h => h0 ((hcond1 t).mp h)) (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS R0 R1 R2 R3 R4 R5 R6 Hg]
    · isplitr [Hg]
      · isplitl [R0]; · iexact R0
        isplitl [R1]; · iexact R1
        isplitl [R2]; · iexact R2
        isplitl [R3]; · iexact R3
        isplitl [R4]; · iexact R4
        isplitl [R5]; · iexact R5
        isplitl [R6]; · iexact R6
        iexact HS
      iexact Hg
    isplitl [Ho]; · iexact Ho
    isplitl [H0]; · iexact H0
    isplitl [H1]; · iexact H1
    iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 9604 := N_1; omega), PhiA1_eq]
  unfold restS1
  iintro ⟨⟨R0, R1, R2, R3, R4, R5, R6, HS⟩, Hg⟩
  isplitl [HS R0 R1 R2 R3 R4 R5 R6]
  · isplitl [R0]; · iexact R0
    isplitl [R1]; · iexact R1
    isplitl [R2]; · iexact R2
    isplitl [R3]; · iexact R3
    isplitl [R4]; · iexact R4
    isplitl [R5]; · iexact R5
    isplitl [R6]; · iexact R6
    iexists _; iexact HS
  iexact Hg

end

end Cert.KernelIdeal.Hand

end
-- ==== Proof.KI.RunCond.lean ====
/-
  The program's run from one record per kernel region, with the result buffer named in the post: @main is a list of
  host stretches and two regions; between two items every unscoped buffer of the core is held at a known valuation, so
  at the end each argument is read back to its launch contents and the result buffer to the last valuation's value.
-/
import proofs.«421818_j2293512536174_1_alg».proof.Proof.Gen.KernelIdeal.Launch
import proofs.«421818_j2293512536174_1_alg».proof.Proof.Gen.KernelIdeal.Skeleton
import proofs.«421818_j2293512536174_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«421818_j2293512536174_1_alg».proof.Proof.Gen.KernelIdeal.Regions
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.Pipeline (Seg HostSeg RegionSeg)

variable (m : (ℓ : Loc nD τ sig) → Buf (Elt F) ℓ)

-- the launch theorem's implicit arguments are found by unifying its conclusion with this one
set_option backward.isDefEq.respectTransparency.types false in
/-- The conditional run with the result named: given, per kernel region, a segment record entered from the thread state
    before it and left at the one after it, every weakly fair execution of @main terminates and every final memory holds
    the result buffer at what the last valuation says and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V10 m c) ∗ E 0 c) ⊢ R0.pre c)
    (hpost0 : ∀ c : Dev nD, R0.post c ⊢ iprop(StableHlo.held (c : Thread nD τ) (Pipeline.ucRefs τ sig) (V11 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V11 m outs c) ∗ E 1 c) ⊢ R1.pre c)
    (hpost1 : ∀ c : Dev nD, R1.post c ⊢ iprop(StableHlo.held (c : Thread nD τ) (Pipeline.ucRefs τ sig) (V12 m outs c) ∗ E 2 c)) :
    θ_run defs (onTc (τ := τ) (main (F := F))) ⟨m, fun _ => 0, ρ⟩ (fun r => ∀ c : Dev nD,
      r.2.mem ((c.tc : Thread nD τ).loc main_v44) = V17 m outs c main_v44
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V17 m outs c))
    (hch := fun c => ⟨.rfl, .rfl, .rfl, .rfl, .rfl, .rfl, .rfl, .rfl, .rfl, .rfl, hpre0 c, (hpost0 c).trans (hpre1 c), hpost1 c, .rfl, .rfl, .rfl, .rfl, sep_mono .rfl (hE2 c)⟩)
    (hinit := ?_) (QY := fun c s => s.mem ((c.tc : Thread nD τ).loc main_v44) = V17 m outs c main_v44 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V17 m outs c) s') $$ [Hh HSI]
    · isplitl [Hh] <;> iassumption
    icases Hr with ⟨%h, HSI⟩
    imodintro
    isplitr
    · ipureintro
      exact ⟨h (Proc.devRef .tc main_v44) (Finset.mem_filter.mpr ⟨StableHlo.devRef_mem_tcRefs main_v44, by decide⟩),
        (h (Proc.devRef .tc main_arg0) (Finset.mem_filter.mpr ⟨StableHlo.devRef_mem_tcRefs main_arg0, by decide⟩)).trans (V17_main_arg0 m outs c),
        (h (Proc.devRef .tc main_arg1) (Finset.mem_filter.mpr ⟨StableHlo.devRef_mem_tcRefs main_arg1, by decide⟩)).trans (V17_main_arg1 m outs c),
        (h (Proc.devRef .tc main_arg2) (Finset.mem_filter.mpr ⟨StableHlo.devRef_mem_tcRefs main_arg2, by decide⟩)).trans (V17_main_arg2 m outs c),
        (h (Proc.devRef .tc main_arg3) (Finset.mem_filter.mpr ⟨StableHlo.devRef_mem_tcRefs main_arg3, by decide⟩)).trans (V17_main_arg3 m outs c),
        (h (Proc.devRef .tc main_arg4) (Finset.mem_filter.mpr ⟨StableHlo.devRef_mem_tcRefs main_arg4, by decide⟩)).trans (V17_main_arg4 m outs c),
        (h (Proc.devRef .tc main_arg5) (Finset.mem_filter.mpr ⟨StableHlo.devRef_mem_tcRefs main_arg5, by decide⟩)).trans (V17_main_arg5 m outs c),
        (h (Proc.devRef .tc main_arg6) (Finset.mem_filter.mpr ⟨StableHlo.devRef_mem_tcRefs main_arg6, by decide⟩)).trans (V17_main_arg6 m outs c),
        (h (Proc.devRef .tc main_arg7) (Finset.mem_filter.mpr ⟨StableHlo.devRef_mem_tcRefs main_arg7, by decide⟩)).trans (V17_main_arg7 m outs c)⟩
    · iexact HSI

end Cert.KernelIdeal.Hand

end
-- ==== Proof.KI.Run.lean ====
/-
  The two calls as regions of @main and the program's run. The gather call is entered from the contents the host
  operations before it leave and exits with its output array at what its write-backs leave; the scatter call is entered
  from there and exits likewise; every other buffer passes through a call unchanged. The run ends with the result buffer
  at the host operations after the calls applied to those contents, and every argument as launched.
-/
import proofs.«421818_j2293512536174_1_alg».proof.Proof.Gen.KernelIdeal.Launch
import proofs.«421818_j2293512536174_1_alg».proof.Proof.Gen.KernelIdeal.Skeleton
import proofs.«421818_j2293512536174_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value
import proofs.«421818_j2293512536174_1_alg».proof.Proof.KI.Dat0
import proofs.«421818_j2293512536174_1_alg».proof.Proof.KI.Dat1
import proofs.«421818_j2293512536174_1_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (m : (ℓ : Loc nD τ sig) → Buf (Elt F) ℓ) (ρ : Dev nD → PrngReg)

/-! ## The buffer contents around the two calls -/

/-- What the gather call is entered from, read at the TensorCore's references. -/
abbrev Vin0 : (c : Dev nD) → (b : Ref sig .tc) → Buf (Elt F) ((c : Thread nD τ).loc b) := fun c b => V10 m c b
/-- What the gather call leaves in its output array. -/
def gOut (c : Dev nD) : Buf (Elt F) ((c : Thread nD τ).loc main_v20) := (dat0 (Vin0 m) c).arrAt 2 cfg0.N
/-- The contents after the gather call: its output array at what the call leaves, every other buffer as entered. -/
def Wa (c : Dev nD) : Valuation τ sig (Elt F) := Function.update (V10 m c) main_v20 (gOut m c)
/-- What the scatter call is entered from, read at the TensorCore's references. -/
abbrev Vin1 : (c : Dev nD) → (b : Ref sig .tc) → Buf (Elt F) ((c : Thread nD τ).loc b) := fun c b => Wa m c b
/-- What the scatter call leaves in its output array. -/
def aOut (c : Dev nD) : Buf (Elt F) ((c : Thread nD τ).loc main_v21) := (dat1 (Vin1 m) c).arrAt 2 cfg1.N
/-- The contents after the scatter call. -/
def Wb (c : Dev nD) : Valuation τ sig (Elt F) := Function.update (Wa m c) main_v21 (aOut m c)

/-- What the two calls leave, as the family the valuations between @main's items are written over. -/
def outs : Outs (F := F) := fun J r c => if J = 11 then Wa m c r else Wb m c r

theorem Wa_v20 (c : Dev nD) : Wa m c main_v20 = gOut m c := by unfold Wa; exact Function.update_self ..
theorem Wb_v21 (c : Dev nD) : Wb m c main_v21 = aOut m c := by unfold Wb; exact Function.update_self ..
theorem Wa_of_ne (c : Dev nD) (b : Ref sig .tc) (hb : b ≠ main_v20) : Wa m c b = V10 m c b := by
  unfold Wa; exact Function.update_of_ne (StableHlo.devRef_ne_of_ne hb) ..
theorem Wb_of_ne (c : Dev nD) (b : Ref sig .tc) (hb : b ≠ main_v21) : Wb m c b = Wa m c b := by
  unfold Wb; exact Function.update_of_ne (StableHlo.devRef_ne_of_ne hb) ..

theorem outs_11 (c : Dev nD) : outs m 11 main_v20 c = gOut m c := by
  unfold outs; rw [if_pos rfl]; exact Wa_v20 m c
theorem outs_12 (c : Dev nD) : outs m 12 main_v21 c = aOut m c := by
  unfold outs; rw [if_neg (by decide)]; exact Wb_v21 m c

/-- The generated valuation after the gather call, at these contents, is `Wa`. -/
theorem V11_eq (c : Dev nD) : V11 m (outs m) c = Wa m c := by
  show Function.update (V10 m c) main_v20 (outs m 11 main_v20 c) = Wa m c
  rw [outs_11]; rfl
/-- The generated valuation after the scatter call, at these contents, is `Wb`. -/
theorem V12_eq (c : Dev nD) : V12 m (outs m) c = Wb m c := by
  show Function.update (V11 m (outs m) c) main_v21 (outs m 12 main_v21 c) = Wb m c
  rw [outs_12, V11_eq]; rfl

/-! ## The proof data family and the thread state -/

abbrev admK : (p : Fin 2) → (pcfgs (F := F) p).Adm := fun p => (cfgs p).toPCfg_adm
/-- Every call's proof data, each at its region's entry contents. -/
def pdats : (p : Fin 2) → (c : Dev nD) → Dat τ (Elt F) Unit ℕ (UR sig nD τ) ℕ (Pipeline.pin (pcfgs (F := F)) admK p) c
  | ⟨0, _⟩ => fun c => dat0 (Vin0 m) c
  | ⟨1, _⟩ => fun c => dat1 (Vin1 m) c
abbrev 𝒱K : Variants := Variants.none
abbrev LK : GSem nD τ sig → Finset Unit := fun _ => ∅
abbrev lvK : GSem nD τ sig → Unit → ℕ := fun _ _ => 0
/-- What rides beside the buffers through every item: the generator register at some state and the core owing nothing. -/
abbrev RK (c : Dev nD) : sProp 𝕄 := iprop((∃ r, prngReg c r) ∗ ∃ W, owes (c : Thread nD τ) (0 : CellTallies nD τ sig Unit) W)

/-- After the gather call its arrays hold what the pipeline leaves: the inputs as entered, the output `gOut`. -/
theorem hF0 (c : Dev nD) (w : Fin cfg0.W) : (dat0 (Vin0 m) c).arrAt w cfg0.N = Wa m c (Pipeline.arrRef spec0 w) := by
  match w with
  | ⟨0, _⟩ => exact (((dat0 (Vin0 m) c).arrAt_in 0 rfl _).trans (A_eq0 (Vin0 m) c 0)).trans (Wa_of_ne m c _ (by decide)).symm
  | ⟨1, _⟩ => exact (((dat0 (Vin0 m) c).arrAt_in 1 rfl _).trans (A_eq0 (Vin0 m) c 1)).trans (Wa_of_ne m c _ (by decide)).symm
  | ⟨2, _⟩ => exact (Wa_v20 m c).symm
theorem hrest0 (c : Dev nD) : ∀ b, b ∉ Finset.univ.image (Pipeline.arrRef spec0) → Vin1 m c b = Vin0 m c b :=
  fun b hb => Wa_of_ne m c b fun e => hb (Finset.mem_image.mpr ⟨2, Finset.mem_univ _, e.symm⟩)
theorem hF1 (c : Dev nD) (w : Fin cfg1.W) : (dat1 (Vin1 m) c).arrAt w cfg1.N = Wb m c (Pipeline.arrRef spec1 w) := by
  match w with
  | ⟨0, _⟩ => exact (((dat1 (Vin1 m) c).arrAt_in 0 rfl _).trans (A_eq1 (Vin1 m) c 0)).trans (Wb_of_ne m c _ (by decide)).symm
  | ⟨1, _⟩ => exact (((dat1 (Vin1 m) c).arrAt_in 1 rfl _).trans (A_eq1 (Vin1 m) c 1)).trans (Wb_of_ne m c _ (by decide)).symm
  | ⟨2, _⟩ => exact (Wb_v21 m c).symm
theorem hrest1 (c : Dev nD) : ∀ b, b ∉ Finset.univ.image (Pipeline.arrRef spec1) → (fun b : Ref sig .tc => Wb m c b) b = Vin1 m c b :=
  fun b hb => Wb_of_ne m c b fun e => hb (Finset.mem_image.mpr ⟨2, Finset.mem_univ _, e.symm⟩)

/-! ## The regions as segments -/

set_option backward.isDefEq.respectTransparency.types false in
/-- The gather call over the thread state: entered from every unscoped buffer at `V10`, left at `Wa`. -/
def reg0 : Pipeline.RegionSeg (pcfgs (F := F)) admK (pdats m) () defs₀ 𝒱K LK lvK 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ LK lvK 0 fun _ _ => rfl
  pre c := iprop(StableHlo.held (c : Thread nD τ) (Pipeline.ucRefs τ sig) (V10 m c) ∗ RK c)
  post c := iprop(StableHlo.held (c : Thread nD τ) (Pipeline.ucRefs τ sig) (Wa m c) ∗ RK c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) admK (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vin0 m) c)
    unfold Pipeline.ΦA
    iintro ⟨Hp, -, Hr⟩
    isplitl [Hr]; · iexact Hr
    iexact Hp
  hout c := by
    rw [Pipeline.ownSems0_none]
    refine BIBase.Entails.trans (hout0 (Vin0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m) ((pdats m 0 c).share_full fun _ => rfl)
      (Vin0 m c) (Vin1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scatter call over the thread state: entered from every unscoped buffer at `Wa`, left at `Wb`. -/
def reg1 : Pipeline.RegionSeg (pcfgs (F := F)) admK (pdats m) () defs₀ 𝒱K LK lvK 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ LK lvK 1 fun _ _ => rfl
  pre c := iprop(StableHlo.held (c : Thread nD τ) (Pipeline.ucRefs τ sig) (Wa m c) ∗ RK c)
  post c := iprop(StableHlo.held (c : Thread nD τ) (Pipeline.ucRefs τ sig) (Wb m c) ∗ RK c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) admK (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vin1 m) c)
    unfold Pipeline.ΦA
    iintro ⟨Hp, -, Hr⟩
    isplitl [Hr]; · iexact Hr
    iexact Hp
  hout c := by
    rw [Pipeline.ownSems0_none]
    refine BIBase.Entails.trans (hout1 (Vin1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m) ((pdats m 1 c).share_full fun _ => rfl)
      (Vin1 m c) (fun b : Ref sig .tc => Wb m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main terminates, nothing faulting; every final memory holds the result buffer at
    what the host operations after the two calls make of the calls' outputs, and each argument as launched. -/
theorem run_main : θ_run defs (onTc (τ := τ) (main (F := F))) ⟨m, fun _ => 0, ρ⟩ (fun r => ∀ c : Dev nD,
      r.2.mem ((c.tc : Thread nD τ).loc main_v44) = V17 m (outs m) c main_v44
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_cond m (Ix := Unit) (U := UR sig nD τ) (Lvl := ℕ) emb₁ () 𝒱K LK lvK (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => RK c)
    (hE0 := by
      refine Pipeline.initEach LK lvK fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl) (hpost0 := fun c => by rw [V11_eq]; exact .rfl)
    (R1 := reg1 m) (hpre1 := fun c => by rw [V11_eq]; exact .rfl) (hpost1 := fun c => by rw [V12_eq]; exact .rfl)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_main m ρ)

end

end Cert.KernelIdeal.Hand

end
-- ==== Proof.Spec.lean ====
/-
  One-hot weights on the extended reals. A word compared for equality with a row number gives the weight one at that
  row and zero at every other, so a weighted sum over all rows picks the one row the word names, or nothing when the
  word names no row.
-/
import Mathlib.Data.EReal.Basic
import Mathlib.Algebra.BigOperators.Fin
import Mathlib.Algebra.BigOperators.Intervals
import Idealize.ShloMosaic.Lib.StableHlo.Predicate

noncomputable section

open scoped BigOperators

namespace Cert.Spec

/-- The weight of a pair of words: one when they are equal, zero otherwise. -/
def hot (a b : BitVec 32) : EReal := if a = b then 1 else 0

theorem hot_self (a : BitVec 32) : hot a a = 1 := if_pos rfl
theorem hot_ne {a b : BitVec 32} (h : a ≠ b) : hot a b = 0 := if_neg h

/-- A weighted sum over the rows below `N` against the row numbers' words keeps the one row the word names. -/
theorem sum_hot_mul {N : ℕ} (hN : N ≤ 2 ^ 32) (w : BitVec 32) (H : Fin N → EReal) (hw : w.toNat < N) :
    ∑ n : Fin N, hot w (BitVec.ofNat 32 n.val) * H n = H ⟨w.toNat, hw⟩ := by
  rw [Finset.sum_eq_single (⟨w.toNat, hw⟩ : Fin N)]
  · rw [show BitVec.ofNat 32 w.toNat = w from by simp, hot_self, one_mul]
  · intro n _ hn
    rw [hot_ne, zero_mul]
    intro e
    apply hn
    apply Fin.ext
    have : (BitVec.ofNat 32 n.val).toNat = n.val := by
      rw [BitVec.toNat_ofNat]; exact Nat.mod_eq_of_lt (lt_of_lt_of_le n.isLt hN)
    rw [← this, ← e]
  · intro h; exact absurd (Finset.mem_univ _) h

/-- and is zero when the word names no row below `N`. -/
theorem sum_hot_mul_none {N : ℕ} (hN : N ≤ 2 ^ 32) (w : BitVec 32) (H : Fin N → EReal) (hw : N ≤ w.toNat) :
    ∑ n : Fin N, hot w (BitVec.ofNat 32 n.val) * H n = 0 := by
  refine Finset.sum_eq_zero fun n _ => ?_
  rw [hot_ne, zero_mul]
  intro e
  have : (BitVec.ofNat 32 n.val).toNat = n.val := by
    rw [BitVec.toNat_ofNat]; exact Nat.mod_eq_of_lt (lt_of_lt_of_le n.isLt hN)
  rw [← e] at this
  have := n.isLt
  omega

/-- A word equals a small row number's word exactly when it reads, signed, as that number. -/
theorem ofNat_eq_iff_toInt (n : ℕ) (hn : n < 2 ^ 31) (w : BitVec 32) : BitVec.ofNat 32 n = w ↔ w.toInt = (n : Int) := by
  have hto : (BitVec.ofNat 32 n).toInt = (n : Int) :=
    Idealize.ShloMosaic.StableHlo.Predicate.toInt_ofNat_small n hn
  constructor
  · intro h; rw [← h]; exact hto
  · intro h; exact BitVec.eq_of_toInt_eq (hto.trans h.symm)

/-- Weights against one row number select the entries whose word reads as that number. -/
theorem sum_hot_filter {M : ℕ} (n : ℕ) (hn : n < 2 ^ 31) (D : Fin M → BitVec 32) (X : Fin M → EReal) :
    ∑ e : Fin M, hot (BitVec.ofNat 32 n) (D e) * X e
      = ∑ e ∈ Finset.univ.filter (fun e : Fin M => (D e).toInt = (n : Int)), X e := by
  rw [Finset.sum_filter]
  refine Finset.sum_congr rfl fun e _ => ?_
  by_cases h : (D e).toInt = (n : Int)
  · rw [if_pos h, show BitVec.ofNat 32 n = D e from (ofNat_eq_iff_toInt n hn (D e)).mpr h, hot_self, one_mul]
  · rw [if_neg h, hot_ne (fun e' => h ((ofNat_eq_iff_toInt n hn (D e)).mp e')), zero_mul]

/-- A sum whose entries vanish from `N` on is the sum of its first `N` entries. -/
theorem sum_pad {N N' : ℕ} (hNN : N ≤ N') (f : Fin N' → EReal) (hz : ∀ e : Fin N', N ≤ e.val → f e = 0) :
    ∑ e : Fin N', f e = ∑ e : Fin N, f (Fin.castLE hNN e) := by
  have h1 : ∑ e : Fin N', f e = ∑ i ∈ Finset.range N', (if h : i < N' then f ⟨i, h⟩ else 0) := by
    rw [← Fin.sum_univ_eq_sum_range (fun i => if h : i < N' then f ⟨i, h⟩ else 0) N']
    exact Finset.sum_congr rfl fun e _ => by rw [dif_pos e.isLt]
  have h2 : ∑ e : Fin N, f (Fin.castLE hNN e) = ∑ i ∈ Finset.range N, (if h : i < N' then f ⟨i, h⟩ else 0) := by
    rw [← Fin.sum_univ_eq_sum_range (fun i => if h : i < N' then f ⟨i, h⟩ else 0) N]
    exact Finset.sum_congr rfl fun e _ => by
      rw [dif_pos (lt_of_lt_of_le e.isLt hNN)]; rfl
  rw [h1, h2]
  refine (Finset.sum_subset (Finset.range_mono hNN) fun i hi hni => ?_).symm
  rw [Finset.mem_range] at hi hni
  rw [dif_pos hi]
  exact hz ⟨i, hi⟩ (Nat.le_of_not_lt hni)

/-- A word that reads, signed, as a non-negative number reads the same unsigned. -/
theorem toNat_eq_toInt_toNat (w : BitVec 32) (h : 0 ≤ w.toInt) : w.toNat = w.toInt.toNat := by
  have hl := w.isLt
  rw [BitVec.toInt_eq_toNat_cond] at h ⊢
  split_ifs at h ⊢ with hc <;> omega

end Cert.Spec

end
-- ==== Proof.LibDotPlain.lean ====
/-
  The plain matrix product read at an index, at the ideal values: the matrix unit's product of an [m, k] block with a
  [k, n] block (the left operand's last axis against the right operand's first) into the zero accumulator, at (a, b), is
  `∑ c, A (a, c) · B (c, b)`: one finite sum over the contracted coordinate, no rounding and no order of summation left.
  Stated over the literal record of dimension numbers with its well-formedness fact a variable, so it applies to a
  program's own record whatever name that fact has.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {m n k : Nat}

/-- The matrix unit's product of an [m, k] block with a [k, n] block, accumulated from zero: entry (a, b) is the sum over
    the contracted coordinate `c` of `A (a, c) · B (c, b)`. -/
theorem matmul_zero_apply {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibDotPlain

end
-- ==== Proof.LibTile.lean ====
/- Sums over a range cut into equal tiles. A sum over `Fin (m * n)` is the sum over the `m` tiles of the sums over the
   `n` places inside a tile, place `p` of tile `t` being `n * t + p`; and an accumulator that starts at zero plus the
   first tile's sum and adds one tile's sum per step ends at the whole sum. Stated over any additive commutative monoid,
   then at the literal sizes 20 tiles of 5000 in 100000. -/
import Mathlib.Algebra.BigOperators.Fin
import Mathlib.Algebra.BigOperators.Intervals
import Mathlib.Logic.Equiv.Fin.Basic

namespace Cert.Hand.LibTile

variable {M : Type*} [AddCommMonoid M]

/-- Place `p` of tile `t` lies inside the range. -/
theorem tile_lt {m n N : ℕ} (h : m * n = N) {t p : ℕ} (ht : t < m) (hp : p < n) : n * t + p < N := by
  subst h
  calc n * t + p < n * t + n := Nat.add_lt_add_left hp _
    _ = n * (t + 1) := (Nat.mul_succ n t).symm
    _ ≤ n * m := Nat.mul_le_mul_left n ht
    _ = m * n := Nat.mul_comm n m

/-- The whole sum is the sum over tiles of the sums inside each tile. -/
theorem sum_tiles {m n N : ℕ} (h : m * n = N) (f : Fin N → M) :
    ∑ t : Fin m, ∑ p : Fin n, f ⟨n * t.val + p.val, tile_lt h t.isLt p.isLt⟩ = ∑ r : Fin N, f r := by
  subst h
  rw [← Fintype.sum_prod_type (f := fun x : Fin m × Fin n => f ⟨n * x.1.val + x.2.val, tile_lt rfl x.1.isLt x.2.isLt⟩),
    ← Equiv.sum_comp finProdFinEquiv f]
  refine Finset.sum_congr rfl fun x _ => congrArg f (Fin.ext ?_)
  show n * x.1.val + x.2.val = x.2.val + n * x.1.val
  exact Nat.add_comm _ _

/-- An accumulator that is zero plus tile 0's sum after the first step and gains tile `k + 1`'s sum at step `k + 1`
    holds, after step `k`, the sum of the tiles up to `k`. -/
theorem acc_eq_sum_range {n : ℕ} (a : ℕ → M) (g : ℕ → Fin n → M) (m : ℕ)
    (h0 : a 0 = 0 + ∑ p : Fin n, g 0 p) (hs : ∀ k, k + 1 < m → a (k + 1) = a k + ∑ p : Fin n, g (k + 1) p) :
    ∀ k, k < m → a k = ∑ t ∈ Finset.range (k + 1), ∑ p : Fin n, g t p
  | 0, _ => by rw [h0, zero_add, Finset.sum_range_one]
  | k + 1, hk => by
    rw [hs k hk, acc_eq_sum_range a g m h0 hs k (Nat.lt_of_succ_lt hk), Finset.sum_range_succ _ (k + 1)]

/-- So after the last of `m` steps it holds the sum over all tiles, -/
theorem acc_last_eq_sum_fin {n : ℕ} (a : ℕ → M) (g : ℕ → Fin n → M) (m : ℕ) (hm : 0 < m)
    (h0 : a 0 = 0 + ∑ p : Fin n, g 0 p) (hs : ∀ k, k + 1 < m → a (k + 1) = a k + ∑ p : Fin n, g (k + 1) p) :
    a (m - 1) = ∑ t : Fin m, ∑ p : Fin n, g t.val p := by
  rw [acc_eq_sum_range a g m h0 hs (m - 1) (Nat.sub_lt hm Nat.one_pos), Nat.sub_add_cancel hm,
    Finset.sum_range fun t => ∑ p : Fin n, g t p]

/-- and when tile `t`'s place `p` is entry `n * t + p` of a function on the whole range, the whole sum of that
    function. -/
theorem acc_last_eq_sum {m n N : ℕ} (h : m * n = N) (hm : 0 < m) (f : Fin N → M) (a : ℕ → M) (g : ℕ → Fin n → M)
    (hg : ∀ (t : ℕ) (ht : t < m) (p : Fin n), g t p = f ⟨n * t + p.val, tile_lt h ht p.isLt⟩)
    (h0 : a 0 = 0 + ∑ p : Fin n, g 0 p) (hs : ∀ k, k + 1 < m → a (k + 1) = a k + ∑ p : Fin n, g (k + 1) p) :
    a (m - 1) = ∑ r : Fin N, f r := by
  rw [acc_last_eq_sum_fin a g m hm h0 hs, ← sum_tiles h f]
  exact Finset.sum_congr rfl fun t _ => Finset.sum_congr rfl fun p _ => hg t.val t.isLt p

/-! ## At 20 tiles of 5000 rows in 100000 -/

/-- Row `p` of block `t` is a row of the array. -/
theorem row_lt {t p : ℕ} (ht : t < 20) (hp : p < 5000) : 5000 * t + p < 100000 := tile_lt (m := 20) (n := 5000) rfl ht hp

/-- The sum over the 100000 rows is the sum over the 20 blocks of the sums over each block's 5000 rows. -/
theorem sum_blocks (f : Fin 100000 → M) :
    ∑ t : Fin 20, ∑ p : Fin 5000, f ⟨5000 * t.val + p.val, row_lt t.isLt p.isLt⟩ = ∑ r : Fin 100000, f r :=
  sum_tiles (m := 20) (n := 5000) rfl f

/-- An accumulator started at zero plus block 0's sum and fed one block's sum per step holds, after the twentieth step,
    the sum over all 100000 rows. -/
theorem acc_blocks (f : Fin 100000 → M) (a : ℕ → M) (g : ℕ → Fin 5000 → M)
    (hg : ∀ (t : ℕ) (ht : t < 20) (p : Fin 5000), g t p = f ⟨5000 * t + p.val, row_lt ht p.isLt⟩)
    (h0 : a 0 = 0 + ∑ p : Fin 5000, g 0 p) (hs : ∀ k, k + 1 < 20 → a (k + 1) = a k + ∑ p : Fin 5000, g (k + 1) p) :
    a 19 = ∑ r : Fin 100000, f r :=
  acc_last_eq_sum (m := 20) (n := 5000) rfl (by decide) f a g hg h0 hs

end Cert.Hand.LibTile
-- ==== Proof.KI.Value0.lean ====
/-
  What the gather call's output array holds after the run, at the ideal values, index by index: row `e`, column `d` is
  `∑ n < 50176, [src e = n] · h (n, d)`. One step of the accumulator adds, at row `r` and column `d` of the block, the
  sum over the node block's 1024 places of the one-hot weight of the row's word at the node times the node's entry; the
  accumulator is zero at the first of a row block's 49 points and steps at each, so at the last it holds the 49 node
  blocks' shares, which tile the 50176 nodes; the points that write back are those last points, and their blocks cover
  the array.
-/
import proofs.«421818_j2293512536174_1_alg».proof.Proof.KI.Dat0
import proofs.«421818_j2293512536174_1_alg».proof.Proof.Spec
import proofs.«421818_j2293512536174_1_alg».proof.Proof.LibDotPlain
import proofs.«421818_j2293512536174_1_alg».proof.Proof.LibTile
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe
open Idealize.ShloMosaic.Pipeline (Dat Cfg Window)
open Cert.Spec Idealize.ShloMosaic.ValueIdx

/-! ## One step of the accumulator, at an index -/

/-- The weight the comparison of two words leaves once widened and converted: one when they are equal, zero otherwise. -/
theorem onehot_entry (a b : BitVec 32) :
    (FloatOps.sitofp (F := Ideal) .f32 ((IntOp.cmpi .eq a b).setWidth 32) : EReal) = hot a b := by
  unfold hot IntOp.cmpi
  show (((((BitVec.ofBool (a == b)).setWidth 32).toInt : ℝ)) : EReal) = _
  by_cases h : a = b
  · have e1 : ((BitVec.ofBool true).setWidth 32).toInt = 1 := by decide
    rw [if_pos h, beq_iff_eq.mpr h, e1, Int.cast_one, EReal.coe_one]
  · have e0 : ((BitVec.ofBool false).setWidth 32).toInt = 0 := by decide
    rw [if_neg h, beq_eq_false_iff_ne.mpr h, e0, Int.cast_zero, EReal.coe_zero]

/-- The word of a node's number: block `j`'s base `1024 · j` plus the place `k` inside the block, with no wrap-around
    since `1024 · j + k < 50176 < 2 ^ 32`. -/
theorem node_word (j : Fin 49) (k : Fin 1024) :
    IntOp.addi (Scalar.muli (BitVec.ofNat 32 j.val) 1024#32) (BitVec.ofNat 32 k.val) = BitVec.ofNat 32 (1024 * j.val + k.val) := by
  apply BitVec.eq_of_toNat_eq
  have hj := j.isLt
  have hk := k.isLt
  simp [Scalar.muli, IntOp.muli, IntOp.addi, BitVec.toNat_add, BitVec.toNat_mul, BitVec.toNat_ofNat]
  omega

/-- One step at grid coordinates `i`, at row `r` and column `d` of the block: what was there plus the sum over the node
    block's 1024 places `k` of the weight of row `r`'s word at node `1024 · i₁ + k` times the node block's entry `(k, d)`. -/
theorem pay2_apply (i : grid0.Coords) (x7 : Vec Ideal S4096x1 .i32) (x15 : Vec Ideal S1024x128 .f32) (xs : Vec Ideal S4096x128 .f32)
    (r : Fin 4096) (d : Fin 128) :
    k0_pay2 (F := Ideal) i x7 x15 xs (ix2 r d)
      = xs (ix2 r d) + ∑ k : Fin 1024, hot (x7 (ix2 r 0)) (BitVec.ofNat 32 (1024 * (i 1).val + k.val)) * x15 (ix2 k d) := by
  unfold k0_pay2
  simp only [shapeCast_self]
  rw [addf_apply]
  congr 1
  refine (Cert.LibDotPlain.matmul_zero_apply dot_S4096x1024_S1024x128_S4096x128_1_0_0_1_n_n_wf none _ _ r d).trans ?_
  refine Finset.sum_congr rfl fun k _ => ?_
  rw [truncf_apply, truncf_apply, sitofp_apply, extui_apply]
  have hA : broadcastTo S4096x1024 x7 broadcasts_S4096x1_S4096x1024 (ix2 r k) = x7 (ix2 r 0) :=
    broadcastTo_apply _ _ _ (ix2 r (0 : Fin 1)) (fun a => by match a with | ⟨0, _⟩ => rfl | ⟨1, _⟩ => rfl)
  have hB : broadcastTo S4096x1024 (addi (broadcast S1x1024 (Scalar.muli (BitVec.ofNat 32 (i 1).val) 1024#32))
      (iota Kind.tc S1x1024 32 [1] iota_S1x1024_d1_w32)) broadcasts_S1x1024_S4096x1024 (ix2 r k)
        = BitVec.ofNat 32 (1024 * (i 1).val + k.val) := by
    refine (broadcastTo_apply _ _ _ (ix2 (0 : Fin 1) k) (fun a => by match a with | ⟨0, _⟩ => rfl | ⟨1, _⟩ => rfl)).trans ?_
    show IntOp.addi (Scalar.muli (BitVec.ofNat 32 (i 1).val) 1024#32) (iota Kind.tc S1x1024 32 [1] iota_S1x1024_d1_w32 (ix2 0 k)) = _
    rw [iota_single_apply]
    exact node_word (i 1) k
  refine congrArg (· * x15 (ix2 k d)) ?_
  show FloatOps.sitofp (F := Ideal) .f32 ((IntOp.cmpi .eq (broadcastTo S4096x1024 x7 broadcasts_S4096x1_S4096x1024 (ix2 r k))
    (broadcastTo S4096x1024 (addi (broadcast S1x1024 (Scalar.muli (BitVec.ofNat 32 (i 1).val) 1024#32))
      (iota Kind.tc S1x1024 32 [1] iota_S1x1024_d1_w32)) broadcasts_S1x1024_S4096x1024 (ix2 r k))).setWidth 32) = _
  rw [hA, hB]
  exact onehot_entry _ _

/-- The reset value is zero everywhere. -/
theorem pay1_apply (j : S4096x128.Idx) : k0_pay1 (F := Ideal) j = 0 := by
  unfold k0_pay1
  simp only [shapeCast_self]
  show Ideal.ofBits .f32 0x00000000#32 = 0
  exact Ideal.ofBits_zero_f32

/-- Narrowing changes nothing. -/
theorem pay3_apply (xs : Vec Ideal S4096x128 .f32) (j : S4096x128.Idx) : k0_pay3 (F := Ideal) xs j = xs j := rfl

/-! ## The grid's points and the blocks they name -/

/-- The printed index maps and the second grid coordinate, decided over the grid: point `t` is row block `t / 49`,
    node block `t % 49`. -/
theorem idx_facts0 : ∀ t : Fin cfg0.N,
    win0_0.index t (0 : Fin 2) = t.val / 49 ∧ win0_0.index t (1 : Fin 2) = 0
    ∧ win0_1.index t (0 : Fin 2) = t.val % 49 ∧ win0_1.index t (1 : Fin 2) = 0
    ∧ win0_2.index t (0 : Fin 2) = t.val / 49 ∧ win0_2.index t (1 : Fin 2) = 0
    ∧ ((grid0.coords t) 1).val = t.val % 49 :=
  (by decide +kernel : ∀ t : Fin grid0.N,
    win0_0.index t (0 : Fin 2) = t.val / 49 ∧ win0_0.index t (1 : Fin 2) = 0
    ∧ win0_1.index t (0 : Fin 2) = t.val % 49 ∧ win0_1.index t (1 : Fin 2) = 0
    ∧ win0_2.index t (0 : Fin 2) = t.val / 49 ∧ win0_2.index t (1 : Fin 2) = 0
    ∧ ((grid0.coords t) 1).val = t.val % 49)

section
variable (V : (c : Dev nD) → (b : Ref sig .tc) → Buf (Elt Ideal) ((c : Thread nD τ).loc b))

/-- Row `r` of the source column's block at point `t` is row `4096 · (t / 49) + r` of the column. -/
theorem src_blk (c : Dev nD) (t : Fin cfg0.N) (r : Fin 4096) (e : Fin 802816) (he : e.val = 4096 * (t.val / 49) + r.val) :
    (iblk0 V c 0 t : Vec Ideal S4096x1 .i32) (ix2 r 0) = (V c main_v17 : S802816x1.Idx → BitVec 32) (ix2 e 0) := by
  unfold iblk0
  rw [View.read_apply]
  show (V c main_v17 : S802816x1.Idx → BitVec 32) _ = _
  refine congrArg _ (funext fun a => Fin.ext ?_)
  match a with
  | ⟨0, _⟩ => show win0_0.index t (0 : Fin 2) * 4096 + 1 * r.val = e.val; rw [(idx_facts0 t).1]; omega
  | ⟨1, _⟩ => show win0_0.index t (1 : Fin 2) * 1 + 1 * 0 = 0; rw [(idx_facts0 t).2.1]

/-- Entry `(k, d)` of the node rows' block at point `t` is entry `(1024 · (t % 49) + k, d)` of the node array. -/
theorem h_blk (c : Dev nD) (t : Fin cfg0.N) (k : Fin 1024) (d : Fin 128) (n : Fin 50176) (hn : n.val = 1024 * (t.val % 49) + k.val) :
    (iblk0 V c 1 t : Vec Ideal S1024x128 .f32) (ix2 k d) = (V c main_v19 : S50176x128.Idx → EReal) (ix2 n d) := by
  unfold iblk0
  rw [View.read_apply]
  show (V c main_v19 : S50176x128.Idx → EReal) _ = _
  refine congrArg _ (funext fun a => Fin.ext ?_)
  match a with
  | ⟨0, _⟩ => show win0_1.index t (0 : Fin 2) * 1024 + 1 * k.val = n.val; rw [(idx_facts0 t).2.2.1]; omega
  | ⟨1, _⟩ => show win0_1.index t (1 : Fin 2) * 128 + 1 * d.val = d.val; rw [(idx_facts0 t).2.2.2.1]; omega

/-- Node block `j`'s share of row `e`, column `d` of the result: the weights of `src e` at the block's 1024 nodes against
    their rows of `h`. -/
def share (c : Dev nD) (e : Fin 802816) (d : Fin 128) (j : Fin 49) : EReal :=
  ∑ k : Fin 1024, hot ((V c main_v17 : S802816x1.Idx → BitVec 32) (ix2 e 0)) (BitVec.ofNat 32 (1024 * j.val + k.val))
    * (V c main_v19 : S50176x128.Idx → EReal) (ix2 ⟨1024 * j.val + k.val, Cert.Hand.LibTile.tile_lt (m := 49) (n := 1024) rfl j.isLt k.isLt⟩ d)

/-- One step at point `n`, at row `r` and column `d` of the block: what was there plus node block `n % 49`'s share of row
    `4096 · (n / 49) + r`. -/
theorem step0_apply (c : Dev nD) (n : ℕ) (hn : n < cfg0.N) (xs : Vec Ideal S4096x128 .f32) (r : Fin 4096) (d : Fin 128)
    (e : Fin 802816) (he : e.val = 4096 * (n / 49) + r.val) :
    step0 V c n hn xs (ix2 r d) = xs (ix2 r d) + share V c e d ⟨n % 49, Nat.mod_lt n (by decide)⟩ := by
  unfold step0
  refine (pay2_apply _ _ _ _ r d).trans ?_
  congr 1
  unfold share
  refine Finset.sum_congr rfl fun k _ => ?_
  have hc : ((grid0.coords ⟨n, hn⟩) 1).val = n % 49 := (idx_facts0 ⟨n, hn⟩).2.2.2.2.2.2
  rw [src_blk V c ⟨n, hn⟩ r e he, h_blk V c ⟨n, hn⟩ k d ⟨1024 * (n % 49) + k.val, Cert.Hand.LibTile.tile_lt (m := 49) (n := 1024) rfl (Nat.mod_lt n (by decide)) k.isLt⟩ rfl, hc]

end

section
variable (V : (c : Dev nD) → (b : Ref sig .tc) → Buf (Elt Ideal) ((c : Thread nD τ).loc b))

/-! ## The accumulator at a point that writes back -/

/-- The gathered array: row `e` is the sum over every node `n` of the weight of `src e` at `n` times row `n` of `h`. -/
def gathered (c : Dev nD) : S802816x128.Idx → EReal := fun i =>
  ∑ n : Fin 50176, hot ((V c main_v17 : S802816x1.Idx → BitVec 32) (ix2 (i 0) 0)) (BitVec.ofNat 32 n.val)
    * (V c main_v19 : S50176x128.Idx → EReal) (ix2 n (i 1))

/-- The 49 node blocks' shares of an entry add up to the entry of the gathered array: 49 tiles of 1024 nodes are the 50176 nodes. -/
theorem sum_share (c : Dev nD) (e : Fin 802816) (d : Fin 128) : ∑ j : Fin 49, share V c e d j = gathered V c (ix2 e d) :=
  Cert.Hand.LibTile.sum_tiles (m := 49) (n := 1024) (N := 50176) rfl
    (fun n : Fin 50176 => hot ((V c main_v17 : S802816x1.Idx → BitVec 32) (ix2 e 0)) (BitVec.ofNat 32 n.val)
      * (V c main_v19 : S50176x128.Idx → EReal) (ix2 n d))

/-- At the last point of row block `t / 49`'s run the accumulator holds, at row `r` and column `d`, the gathered array's
    entry at row `4096 · (t / 49) + r`: zero at the run's first point, one node block's share added per point. -/
theorem acc0_last_apply (c : Dev nD) (t : Fin cfg0.N) (ht : t.val % 49 = 48) (r : Fin 4096) (d : Fin 128)
    (e : Fin 802816) (he : e.val = 4096 * (t.val / 49) + r.val) :
    acc0 V c t.val t.isLt (ix2 r d) = gathered V c (ix2 e d) := by
  have hN : cfg0.N = 9604 := N_0
  have htN : t.val < 9604 := hN ▸ t.isLt
  have h' : 49 * (t.val / 49) + t.val % 49 < cfg0.N := by rw [Nat.div_add_mod]; exact t.isLt
  have hq : t.val / 49 < 196 := by omega
  have hrow : ∀ j : S4096x128.Idx, 4096 * (t.val / 49) + (j 0).val < 802816 := fun j => by
    have := idx2_lt0 j; omega
  refine (congrFun (Pipeline.eq_accAt_of_mod (acc0 V c) 49 (fun n hn => step0 V c n hn (k0_pay1 (F := Ideal)))
    (fun n hn xs => step0 V c n hn xs) (acc0_reset V c) (acc0_step V c) (by decide) t.val t.isLt h') (ix2 r d)).trans ?_
  refine (Pipeline.accAt_add_apply (fun n hn => step0 V c n hn (k0_pay1 (F := Ideal))) (fun n hn xs => step0 V c n hn xs)
    (fun _ => (0 : EReal))
    (fun n (j : S4096x128.Idx) => share V c ⟨4096 * (t.val / 49) + (j 0).val, hrow j⟩ (j 1) ⟨n % 49, Nat.mod_lt n (by decide)⟩)
    (49 * (t.val / 49)) 48 ?_ ?_ (t.val % 49) (by omega) h' (ix2 r d)).trans ?_
  · intro h j
    obtain ⟨r', d', rfl⟩ : ∃ (r' : Fin 4096) (d' : Fin 128), j = ix2 r' d' := ⟨j 0, j 1, eq_ix2 j⟩
    refine (step0_apply V c _ h _ r' d' ⟨4096 * (t.val / 49) + r'.val, hrow (ix2 r' d')⟩ (by show 4096 * (t.val / 49) + r'.val = 4096 * (49 * (t.val / 49) / 49) + r'.val; omega)).trans ?_
    rw [pay1_apply]
  · intro n h acc j hb he'
    obtain ⟨r', d', rfl⟩ : ∃ (r' : Fin 4096) (d' : Fin 128), j = ix2 r' d' := ⟨j 0, j 1, eq_ix2 j⟩
    exact step0_apply V c n h acc r' d' ⟨4096 * (t.val / 49) + r'.val, hrow (ix2 r' d')⟩ (by show 4096 * (t.val / 49) + r'.val = 4096 * (n / 49) + r'.val; omega)
  · rw [ht, zero_add, Finset.sum_range (fun s => share V c ⟨4096 * (t.val / 49) + ((ix2 r d : S4096x128.Idx) 0).val, hrow (ix2 r d)⟩ ((ix2 r d : S4096x128.Idx) 1) ⟨(49 * (t.val / 49) + s) % 49, Nat.mod_lt _ (by decide)⟩),
      ← sum_share V c e d]
    refine Finset.sum_congr rfl fun s _ => ?_
    have hs : (⟨(49 * (t.val / 49) + s.val) % 49, Nat.mod_lt _ (by decide)⟩ : Fin 49) = s := Fin.ext (by
      show (49 * (t.val / 49) + s.val) % 49 = s.val
      have := s.isLt; omega)
    have hee : (⟨4096 * (t.val / 49) + r.val, hrow (ix2 r d)⟩ : Fin 802816) = e := Fin.ext he.symm
    show share V c ⟨4096 * (t.val / 49) + r.val, hrow (ix2 r d)⟩ d ⟨(49 * (t.val / 49) + s.val) % 49, Nat.mod_lt _ (by decide)⟩ = _
    rw [hs, hee]

/-! ## From the blocks to the array -/

/-- With no cut at the array's end, what is written back from a staging buffer is what the buffer holds. -/
theorem cut0_2_apply (t : Fin cfg0.N) (X : Vec Ideal S4096x128 .bf16) (r : Fin 4096) (d : Fin 128) :
    (cfg0.win 2).cut (grid0.coords t) X (ix2 r d) = X (ix2 r d) := rfl

/-- What a point that writes back writes is its block of the gathered array. -/
theorem flushed0_2_eq (c : Dev nD) (t : Fin cfg0.N) (hf : (cfg0.win 2).flush t = true) :
    (dat0 (F := Ideal) V c).flushed 2 t = ((cfg0.win 2).blk t).view.read (Elt Ideal) (gathered V c) := by
  have ht : t.val % 49 = 48 := (flush0_2 t).mp hf
  have hN : cfg0.N = 9604 := N_0
  have htN : t.val < 9604 := hN ▸ t.isLt
  show (cfg0.win 2).cut (grid0.coords t) ((dat0 V c).after 2 t) = _
  rw [after0_2]
  funext j
  obtain ⟨r, d, rfl⟩ : ∃ (r : Fin 4096) (d : Fin 128), j = ix2 r d := ⟨j 0, j 1, eq_ix2 j⟩
  rw [View.read_apply]
  have hr := r.isLt
  refine (cut0_2_apply t _ r d).trans ?_
  refine (pay3_apply _ _).trans ?_
  refine (acc0_last_apply V c t ht r d ⟨4096 * (t.val / 49) + r.val, by omega⟩ rfl).trans ?_
  refine Eq.trans ?_ (cast_eq _ _).symm
  refine congrArg (gathered V c) (funext fun a => Fin.ext ?_)
  match a with
  | ⟨0, _⟩ => show 4096 * (t.val / 49) + r.val = win0_2.index t (0 : Fin 2) * 4096 + 1 * r.val; rw [(idx_facts0 t).2.2.2.2.1]; omega
  | ⟨1, _⟩ => show d.val = win0_2.index t (1 : Fin 2) * 128 + 1 * d.val; rw [(idx_facts0 t).2.2.2.2.2.1]; omega

/-- An index of the output array is in point `t`'s block iff each coordinate is in the block's range on its axis. -/
theorem mem_blk0_2 (t : Fin cfg0.N) (i : S802816x128.Idx) :
    i ∈ ((cfg0.win 2).blk t).view.set ↔ ∀ a : Fin 2, win0_2.index t a * S4096x128.size a ≤ (i a).val ∧ (i a).val < win0_2.index t a * S4096x128.size a + S4096x128.size a := by
  show i ∈ ((View.whole main_v20).slice (win0_2.rect t)).set ↔ _
  rw [View.set_slice_whole, Rect.mem_set_unit]
  exact Iff.rfl

/-- Every row of the output lies in the block of the last point of its row block's run. -/
theorem cover0_2 (i : S802816x128.Idx) : ∃ t : Fin cfg0.N, (cfg0.win 2).flush t = true ∧ i ∈ ((cfg0.win 2).blk t).view.set := by
  have hN : cfg0.N = 9604 := N_0
  have hi0 : (i 0).val < 802816 := idx2_lt0 i
  have hi1 : (i 1).val < 128 := idx2_lt1 i
  refine ⟨⟨49 * ((i 0).val / 4096) + 48, by rw [hN]; omega⟩, (flush0_2 _).mpr (by show (49 * ((i 0).val / 4096) + 48) % 49 = 48; omega), ?_⟩
  rw [mem_blk0_2]
  have hf := idx_facts0 ⟨49 * ((i 0).val / 4096) + 48, by rw [hN]; omega⟩
  intro a
  match a with
  | ⟨0, _⟩ =>
    show win0_2.index _ (0 : Fin 2) * 4096 ≤ (i 0).val ∧ (i 0).val < win0_2.index _ (0 : Fin 2) * 4096 + 4096
    rw [hf.2.2.2.2.1]
    show (49 * ((i 0).val / 4096) + 48) / 49 * 4096 ≤ (i 0).val ∧ (i 0).val < (49 * ((i 0).val / 4096) + 48) / 49 * 4096 + 4096
    omega
  | ⟨1, _⟩ =>
    show win0_2.index _ (1 : Fin 2) * 128 ≤ (i 1).val ∧ (i 1).val < win0_2.index _ (1 : Fin 2) * 128 + 128
    rw [hf.2.2.2.2.2.1]
    omega

/-- After the run the output array is the gathered array. -/
theorem arrAt0_2_eq (c : Dev nD) : (dat0 (F := Ideal) V c).arrAt 2 cfg0.N = gathered V c :=
  (dat0 (F := Ideal) V c).arrAt_eq_of_cover 2 (gathered V c) (flushed0_2_eq V c) cover0_2

end

/-- THE GATHER CALL'S OUTPUT, index by index: row `e`, column `d` is the sum over every node `n` of the one-hot weight of
    `src e` at `n` times `h`'s entry `(n, d)`. -/
theorem g_apply (V : (c : Dev nD) → (b : Ref sig .tc) → Buf (Elt Ideal) ((c : Thread nD τ).loc b)) (c : Dev nD) (e : Fin 802816) (d : Fin 128) :
    ((dat0 (F := Ideal) V c).arrAt 2 cfg0.N : S802816x128.Idx → EReal) (ix2 e d)
      = ∑ n : Fin 50176, hot ((V c main_v17 : S802816x1.Idx → BitVec 32) (ix2 e 0)) (BitVec.ofNat 32 n.val) * (V c main_v19 : S50176x128.Idx → EReal) (ix2 n d) := by
  rw [arrAt0_2_eq V c]
  rfl

end Cert.KernelIdeal.Hand

end
-- ==== Proof.KI.Value1.lean ====
/-
  What the scatter call's output array holds after the run, at the ideal values, index by index. The call walks a grid
  of 49 node blocks by 196 edge chunks; at each point it adds to a [1024, 128] accumulator the product of a one-hot
  matrix (row r, column q is one when edge q of the chunk has destination node 1024·nb + r) with the chunk's 4096
  gathered rows, the accumulator starting from zero at the first chunk, and the node block is written back after the
  last chunk. So entry (n, d) of the output is the sum over all 802816 edges e of g[e, d] weighted one when edge e's
  destination word is node n's and zero otherwise. Four steps: one step of the accumulator at an index; the windows'
  blocks as pieces of their arrays; the accumulator at the point that writes back, as one sum over all edges (the run's
  fold unrolled, the 196 chunk sums joined into one); and the array from its blocks.
-/
import proofs.«421818_j2293512536174_1_alg».proof.Proof.KI.Dat1
import proofs.«421818_j2293512536174_1_alg».proof.Proof.Spec
import proofs.«421818_j2293512536174_1_alg».proof.Proof.LibDotPlain
import proofs.«421818_j2293512536174_1_alg».proof.Proof.LibTile
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand.Scatter

open Cert.KernelIdeal Cert.KernelIdeal.Gen
open Idealize.ShloMosaic Idealize.ShloMosaic.TcCoe
open Idealize.ShloMosaic.Pipeline (Dat Cfg Window)
open Cert.Spec Idealize.ShloMosaic.ValueIdx

/-! ## One step of the accumulator, at an index -/

/-- A one-bit comparison of two words, widened and read as a number, is the one-hot weight of the pair. -/
theorem hot_entry (a b : BitVec 32) :
    (FloatOps.sitofp (F := Ideal) .f32 ((IntOp.cmpi .eq a b).setWidth 32) : EReal) = hot a b := by
  unfold hot IntOp.cmpi
  by_cases h : a = b
  · subst h
    rw [if_pos rfl]
    show (((((BitVec.ofBool (a == a)).setWidth 32).toInt : ℤ) : ℝ) : EReal) = 1
    simp
  · rw [if_neg h]
    show (((((BitVec.ofBool (a == b)).setWidth 32).toInt : ℤ) : ℝ) : EReal) = 0
    have : (a == b) = false := by simpa using h
    rw [this]
    simp

/-- The word of node block `nb`'s row `r`. -/
theorem node_word (nb r : ℕ) :
    IntOp.addi (Scalar.muli (BitVec.ofNat 32 nb) 1024#32) (BitVec.ofNat 32 r) = BitVec.ofNat 32 (1024 * nb + r) := by
  show BitVec.ofNat 32 nb * BitVec.ofNat 32 1024 + BitVec.ofNat 32 r = _
  rw [← BitVec.ofNat_mul, ← BitVec.ofNat_add, Nat.mul_comm]

/-- The block product read at an index: one sum over the 4096 edges of the chunk. -/
theorem matmul_apply (A : FVec Ideal S1024x4096 .bf16) (B : FVec Ideal S4096x128 .bf16) (r : Fin 1024) (d : Fin 128) :
    matmul dot_S1024x4096_S4096x128_S1024x128_1_0_0_1_n_n none A B (constant (F := Ideal) S1024x128 .f32 0x00000000#32) (ix2 r d)
      = ∑ q : Fin 4096, A (ix2 r q) * B (ix2 q d) :=
  Cert.LibDotPlain.matmul_zero_apply (m := 1024) (k := 4096) (n := 128) (φ₁ := .bf16) (φ₂ := .bf16)
    dot_S1024x4096_S4096x128_S1024x128_1_0_0_1_n_n_wf none A B r d

/-- One step at index (r, d): what the accumulator held there plus the sum over the chunk's 4096 edges of the gathered
    row's entry, weighted one when the edge's destination word is the word of row `r` of node block `i 0`. -/
theorem step_apply (i : grid1.Coords) (v7 : Vec Ideal S1x4096 .i32) (v15 : Vec Ideal S4096x128 .bf16)
    (v17 : Vec Ideal S1024x128 .f32) (r : Fin 1024) (d : Fin 128) :
    (k1_pay2 (F := Ideal) i v7 v15 v17 : S1024x128.Idx → EReal) (ix2 r d)
      = (v17 : S1024x128.Idx → EReal) (ix2 r d)
        + ∑ q : Fin 4096, hot (BitVec.ofNat 32 (1024 * (i 0).val + r.val)) ((v7 : S1x4096.Idx → BitVec 32) (ix2 0 q))
            * (v15 : S4096x128.Idx → EReal) (ix2 q d) := by
  unfold k1_pay2
  simp only [shapeCast_self]
  rw [addf_apply]
  refine congrArg (v17 (ix2 r d) + ·) ?_
  refine (matmul_apply _ v15 r d).trans ?_
  refine Finset.sum_congr rfl fun q _ => ?_
  refine congrArg (· * v15 (ix2 q d)) ?_
  rw [truncf_apply, sitofp_apply, extui_apply]
  show FloatOps.sitofp FTy.f32 ((IntOp.cmpi .eq _ _).setWidth 32) = _
  rw [broadcastTo_apply _ broadcasts_S1024x1_S1024x4096 (ix2 r q) (ix2 r 0) (by intro a; match a with | ⟨0, _⟩ => rfl | ⟨1, _⟩ => rfl),
    broadcastTo_apply v7 broadcasts_S1x4096_S1024x4096 (ix2 r q) (ix2 0 q) (by intro a; match a with | ⟨0, _⟩ => rfl | ⟨1, _⟩ => rfl)]
  show FloatOps.sitofp FTy.f32 ((IntOp.cmpi .eq (IntOp.addi (Scalar.muli (BitVec.ofNat 32 (i 0).val) 1024#32) (iota Kind.tc S1024x1 32 [0] iota_S1024x1_d0_w32 (ix2 r 0))) _).setWidth 32) = _
  rw [iota_single_apply]
  show FloatOps.sitofp FTy.f32 ((IntOp.cmpi .eq (IntOp.addi (Scalar.muli (BitVec.ofNat 32 (i 0).val) 1024#32) (BitVec.ofNat 32 r.val)) _).setWidth 32) = _
  rw [node_word, hot_entry]

/-! ## The windows' blocks inside their arrays -/

/-- The printed index maps over the grid: at point `t` the destination row's block is chunk `t % 196`, the gathered
    rows' block is chunk `t % 196`, the output's block is node block `t / 196`, which is also the first grid coordinate. -/
theorem idx_facts1 : ∀ t : Fin cfg1.N, win1_0.index t (0 : Fin 2) = 0 ∧ win1_0.index t (1 : Fin 2) = t.val % 196
    ∧ win1_1.index t (0 : Fin 2) = t.val % 196 ∧ win1_1.index t (1 : Fin 2) = 0
    ∧ win1_2.index t (0 : Fin 2) = t.val / 196 ∧ win1_2.index t (1 : Fin 2) = 0
    ∧ (grid1.coords t 0).val = t.val / 196 :=
  (by decide +kernel : ∀ t : Fin grid1.N, _)

section
variable (V : (c : Dev nD) → (b : Ref sig .tc) → Buf (Elt Ideal) ((c : Thread nD τ).loc b))

/-- Edge `q` of a chunk is an edge of the whole list. -/
theorem edge_lt {k q : ℕ} (hq : q < 4096) : 4096 * (k % 196) + q < 802816 := by omega

/-- The destination row's block at point `t` is chunk `t % 196` of the row. -/
theorem dst_block (c : Dev nD) (t : Fin cfg1.N) (q : Fin 4096) :
    (iblk1 (F := Ideal) V c 0 t : S1x4096.Idx → BitVec 32) (ix2 0 q)
      = (V c main_v18 : S1x802816.Idx → BitVec 32) (ix2 0 ⟨4096 * (t.val % 196) + q.val, edge_lt q.isLt⟩) := by
  obtain ⟨e0, e1, -⟩ := idx_facts1 t
  unfold iblk1
  rw [View.read_apply]
  show V c main_v18 _ = V c main_v18 _
  congr 1
  funext a
  apply Fin.ext
  match a with
  | ⟨0, _⟩ => show win1_0.index t (0 : Fin 2) * 1 + 1 * 0 = 0; rw [e0]
  | ⟨1, _⟩ => show win1_0.index t (1 : Fin 2) * 4096 + 1 * q.val = 4096 * (t.val % 196) + q.val; rw [e1]; omega

/-- The gathered rows' block at point `t` is chunk `t % 196` of the rows. -/
theorem g_block (c : Dev nD) (t : Fin cfg1.N) (q : Fin 4096) (d : Fin 128) :
    (iblk1 (F := Ideal) V c 1 t : S4096x128.Idx → EReal) (ix2 q d)
      = (V c main_v20 : S802816x128.Idx → EReal) (ix2 ⟨4096 * (t.val % 196) + q.val, edge_lt q.isLt⟩ d) := by
  obtain ⟨-, -, e0, e1, -⟩ := idx_facts1 t
  unfold iblk1
  rw [View.read_apply]
  show V c main_v20 _ = V c main_v20 _
  congr 1
  funext a
  apply Fin.ext
  match a with
  | ⟨0, _⟩ => show win1_1.index t (0 : Fin 2) * 4096 + 1 * q.val = 4096 * (t.val % 196) + q.val; rw [e0]; omega
  | ⟨1, _⟩ => show win1_1.index t (1 : Fin 2) * 128 + 1 * d.val = d.val; rw [e1]; omega

end

/-! ## The accumulator at the point that writes a node block back -/

section
variable (V : (c : Dev nD) → (b : Ref sig .tc) → Buf (Elt Ideal) ((c : Thread nD τ).loc b))

/-- Edge `e`'s contribution to feature `d` of the node whose word is `w`: the gathered row's entry when the edge's
    destination is that node, zero otherwise. -/
def edgeTerm (c : Dev nD) (w : BitVec 32) (d : Fin 128) (e : Fin 802816) : EReal :=
  hot w ((V c main_v18 : S1x802816.Idx → BitVec 32) (ix2 0 e)) * (V c main_v20 : S802816x128.Idx → EReal) (ix2 e d)

/-- What point `n` adds at an index of the block: the sum over the 4096 edges of chunk `n % 196` of their contributions
    to the node of block `n / 196` on that row. -/
def addend1 (c : Dev nD) (n : ℕ) (i : S1024x128.Idx) : EReal :=
  ∑ q : Fin 4096, edgeTerm V c (BitVec.ofNat 32 (1024 * (n / 196) + (i 0).val)) (i 1) ⟨4096 * (n % 196) + q.val, edge_lt q.isLt⟩

/-- One step adds the point's addend. -/
theorem step1_apply (c : Dev nD) (n : ℕ) (hn : n < cfg1.N) (xs : Vec Ideal S1024x128 .f32) (i : S1024x128.Idx) :
    (step1 (F := Ideal) V c n hn xs : S1024x128.Idx → EReal) i = (xs : S1024x128.Idx → EReal) i + addend1 V c n i := by
  obtain ⟨r, d, rfl⟩ : ∃ (r : Fin 1024) (d : Fin 128), i = ix2 r d := ⟨i 0, i 1, eq_ix2 i⟩
  obtain ⟨-, -, -, -, -, -, e⟩ := idx_facts1 ⟨n, hn⟩
  unfold step1 addend1 edgeTerm
  refine (step_apply _ _ _ _ r d).trans ?_
  refine congrArg ((xs : S1024x128.Idx → EReal) (ix2 r d) + ·) (Finset.sum_congr rfl fun q _ => ?_)
  rw [dst_block, g_block, e]

/-- The reset value is zero everywhere. -/
theorem pay1_apply (i : S1024x128.Idx) : (k1_pay1 (F := Ideal) : S1024x128.Idx → EReal) i = 0 := by
  unfold k1_pay1
  rw [shapeCast_self]
  exact Ideal.ofBits_zero_f32

/-- At a point that writes its node block back, the accumulator holds at each index the sum over ALL edges of their
    contributions to that row's node. -/
theorem acc1_flush (c : Dev nD) (t : Fin cfg1.N) (ht : t.val % 196 = 195) (i : S1024x128.Idx) :
    (acc1 (F := Ideal) V c t.val t.isLt : S1024x128.Idx → EReal) i
      = ∑ e : Fin 802816, edgeTerm V c (BitVec.ofNat 32 (1024 * (t.val / 196) + (i 0).val)) (i 1) e := by
  have hN : cfg1.N = 9604 := N_1
  have h' : 196 * (t.val / 196) + t.val % 196 < cfg1.N := by rw [Nat.div_add_mod]; exact t.isLt
  refine (congrFun (Pipeline.eq_accAt_of_mod (acc1 (F := Ideal) V c) 196 (fun n hn => step1 (F := Ideal) V c n hn (k1_pay1 (F := Ideal)))
    (step1 (F := Ideal) V c) (acc1_reset V c) (acc1_step V c) (by decide) t.val t.isLt h') i).trans ?_
  refine (Pipeline.accAt_add_apply (ι := S1024x128.Idx) (β := EReal) _ _ (fun _ => 0) (addend1 V c) (196 * (t.val / 196)) 195
    (fun h j => by rw [step1_apply, pay1_apply]) (fun n h acc j _ _ => step1_apply V c n h acc j) (t.val % 196) (by omega) h' i).trans ?_
  rw [zero_add, ht, Finset.sum_range (fun s => addend1 V c (196 * (t.val / 196) + s) i),
    ← Cert.Hand.LibTile.sum_tiles (m := 196) (n := 4096) rfl]
  refine Finset.sum_congr rfl fun s _ => ?_
  unfold addend1
  have hs := s.isLt
  have e1 : (196 * (t.val / 196) + s.val) / 196 = t.val / 196 := by omega
  have e2 : (196 * (t.val / 196) + s.val) % 196 = s.val := by omega
  rw [e1]
  refine Finset.sum_congr rfl fun q _ => congrArg _ (Fin.ext ?_)
  show 4096 * ((196 * (t.val / 196) + s.val) % 196) + q.val = 4096 * s.val + q.val
  rw [e2]

end

/-! ## From the blocks to the array -/

section
variable (V : (c : Dev nD) → (b : Ref sig .tc) → Buf (Elt Ideal) ((c : Thread nD τ).loc b))

/-- What the output array holds after the run: at (node, feature), the sum over all edges of their contributions to
    the node. -/
def aggOf (c : Dev nD) : S50176x128.Idx → EReal :=
  fun i => ∑ e : Fin 802816, edgeTerm V c (BitVec.ofNat 32 (i 0).val) (i 1) e

/-- `aggOf` at the array index `y` that sits on row `x 0` of node block `nb` and on column `x 1`. -/
theorem aggOf_at (c : Dev nD) (nb : ℕ) (x : S1024x128.Idx) (y : S50176x128.Idx)
    (h0 : (y 0).val = 1024 * nb + (x 0).val) (h1 : (y 1).val = (x 1).val) :
    ∑ e : Fin 802816, edgeTerm V c (BitVec.ofNat 32 (1024 * nb + (x 0).val)) (x 1) e = aggOf V c y := by
  unfold aggOf
  rw [h0, show y 1 = x 1 from Fin.ext h1]

/-- What a point that writes back writes is its node block of `aggOf`. -/
theorem flushed1_eq (c : Dev nD) (t : Fin cfg1.N) (hf : (cfg1.win 2).flush t = true) :
    (dat1 (F := Ideal) V c).flushed 2 t = ((cfg1.win 2).blk t).view.read (Elt Ideal) (aggOf V c) := by
  have ht : t.val % 196 = 195 := (flush1_2 t).mp hf
  obtain ⟨-, -, -, -, e0, e1, -⟩ := idx_facts1 t
  show (cfg1.win 2).cut (grid1.coords t) ((dat1 (F := Ideal) V c).after 2 t) = _
  rw [after1_2]
  funext j
  rw [View.read_apply]
  refine (acc1_flush V c t ht _).trans ?_
  refine Eq.trans ?_ (cast_eq _ _).symm
  refine aggOf_at V c _ _ _ ?_ ?_
  · show win1_2.index t (0 : Fin 2) * 1024 + 1 * (j 0).val = 1024 * (t.val / 196) + (j 0).val
    rw [e0]; omega
  · show win1_2.index t (1 : Fin 2) * 128 + 1 * (j 1).val = (j 1).val
    rw [e1]; omega

/-- Every index of the output lies in the block of the point that closes its node block's run. -/
theorem cover1 (i : S50176x128.Idx) :
    ∃ t : Fin cfg1.N, (cfg1.win 2).flush t = true ∧ i ∈ ((cfg1.win 2).blk t).view.set := by
  have h0 : (i 0).val < 50176 := (i 0).isLt
  have h1 : (i 1).val < 128 := (i 1).isLt
  have hN : cfg1.N = 9604 := N_1
  obtain ⟨t, ht⟩ : ∃ t : Fin cfg1.N, t.val = 196 * ((i 0).val / 1024) + 195 := ⟨⟨_, by rw [hN]; omega⟩, rfl⟩
  obtain ⟨-, -, -, -, e0, e1, -⟩ := idx_facts1 t
  refine ⟨t, (flush1_2 t).mpr (by omega), ?_⟩
  show i ∈ ((View.whole main_v21).slice (win1_2.rect t)).set
  rw [View.set_slice_whole, Rect.mem_set_unit]
  intro a
  match a with
  | ⟨0, _⟩ =>
    show win1_2.index t (0 : Fin 2) * 1024 ≤ (i 0).val ∧ (i 0).val < win1_2.index t (0 : Fin 2) * 1024 + 1024
    rw [e0]; omega
  | ⟨1, _⟩ =>
    show win1_2.index t (1 : Fin 2) * 128 ≤ (i 1).val ∧ (i 1).val < win1_2.index t (1 : Fin 2) * 128 + 128
    rw [e1]; omega

/-- THE OUTPUT ARRAY after the run, index by index: entry (n, d) is the sum over all edges `e` of the gathered row's
    entry `g[e, d]` weighted one when edge `e`'s destination word is node `n`'s and zero otherwise. -/
theorem agg_apply (c : Dev nD) (n : Fin 50176) (d : Fin 128) :
    ((dat1 (F := Ideal) V c).arrAt 2 cfg1.N : S50176x128.Idx → EReal) (ix2 n d)
      = ∑ e : Fin 802816, hot (BitVec.ofNat 32 n.val) ((V c main_v18 : S1x802816.Idx → BitVec 32) (ix2 0 e))
          * (V c main_v20 : S802816x128.Idx → EReal) (ix2 e d) := by
  rw [(dat1 (F := Ideal) V c).arrAt_eq_of_cover 2 (aggOf V c) (flushed1_eq V c) cover1]
  rfl

end

end Cert.KernelIdeal.Hand.Scatter

end
-- ==== Proof.KI.Host.lean ====
/-
  What the host operations of the kernel's program compute.

  Between its two kernel regions the program runs straight lines of tensor operations on whole arrays. Each line is a
  composition of pure array functions of the launch contents: the degree counts of the two index lists (a scatter-add of
  ones), their clipped reciprocal square roots, the features scaled by the source normalisation and padded with zero rows,
  the index lists padded with an out-of-range row and reshaped to a column and to a row. After the regions: the aggregate
  cut back to the true rows, scaled by the destination normalisation, a dense layer with bias and rectifier, the mean
  over each graph (two scatter-adds, a clip and a division), and the dense head with bias.

  Here each of those is one function, written with the operations of the printed program in program order, and the
  arrays the regions read and the final result are shown to hold these functions of the launch contents and of what the
  regions leave. The layout operations (pad, slice, reshape) are then read at an index.
-/
import proofs.«421818_j2293512536174_1_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## The functions -/

/-- The number of entries of an index list that name each of the 50000 nodes: ones added into zeros at the listed rows. -/
def degK (x : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (broadcastInDim S800000x1 ![0] bcast_S800000_S800000x1_0 x)
    (broadcastInDim S800000 ![] bcast_S_S800000 (constant S_ .f32 0x3F800000#32))

/-- A degree vector clipped below at one. -/
def clipK (d : (⟨S50000, .f32⟩ : BufTy).Contents (Elt F)) : (⟨S50000, .f32⟩ : BufTy).Contents (Elt F) :=
  maximumf (broadcastInDim S50000 ![] bcast_S_S50000 (constant S_ .f32 0x3F800000#32)) d

/-- The normalisation column of an index list: the reciprocal square root of its clipped degrees. -/
def normK (x : (⟨S800000, .i32⟩ : BufTy).Contents (Elt F)) : (⟨S50000x1, .f32⟩ : BufTy).Contents (Elt F) :=
  broadcastInDim S50000x1 ![0] bcast_S50000_S50000x1_0 (Host.rsqrt (clipK (degK x)))

/-- The features scaled row by row by the normalisation of the source list. -/
def hK (x0 : (⟨S50000x128, .f32⟩ : BufTy).Contents (Elt F)) (x1 : (⟨S800000, .i32⟩ : BufTy).Contents (Elt F)) :
    (⟨S50000x128, .f32⟩ : BufTy).Contents (Elt F) :=
  mulf x0 (broadcastInDim S50000x128 ![0, 1] bcast_S50000x1_S50000x128_0_1 (normK x1))

/-- The normalisation column of the destination list. -/
def inNormK (x2 : (⟨S800000, .i32⟩ : BufTy).Contents (Elt F)) : (⟨S50000x1, .f32⟩ : BufTy).Contents (Elt F) :=
  normK x2

/-- An index list padded to 802816 entries with the out-of-range row 50176. -/
def padIdxK (x : (⟨S800000, .i32⟩ : BufTy).Contents (Elt F)) : (⟨S802816, .i32⟩ : BufTy).Contents (Elt F) :=
  pad S802816 ![0] ![2816] ![0] x (constantI S_ 32 50176#32) pads_S800000_S802816_028160 h_S_

/-- The dense layer on the aggregate: the true rows, scaled by the destination normalisation, times the weights, plus
    the bias, rectified. -/
def layerK (aggPad : (⟨S50176x128, .f32⟩ : BufTy).Contents (Elt F)) (inNorm : (⟨S50000x1, .f32⟩ : BufTy).Contents (Elt F))
    (x4 : (⟨S128x128, .f32⟩ : BufTy).Contents (Elt F)) (x5 : (⟨S128, .f32⟩ : BufTy).Contents (Elt F)) :
    (⟨S50000x128, .f32⟩ : BufTy).Contents (Elt F) :=
  maximumf
    (addf
      (Host.dotGeneral dot_S50000x128_S128x128_S50000x128_1_0_0_1_n_n none
        (mulf (extractStridedSlice S50000x128 ![0, 0] aggPad slices_S50176x128_S50000x128_0_0)
          (broadcastInDim S50000x128 ![0, 1] bcast_S50000x1_S50000x128_0_1 inNorm))
        x4)
      (broadcastInDim S50000x128 ![0, 1] bcast_S1x128_S50000x128_0_1 (broadcastInDim S1x128 ![1] bcast_S128_S1x128_1 x5)))
    (broadcastInDim S50000x128 ![] bcast_S_S50000x128 (constant S_ .f32 0x00000000#32))

/-- The number of nodes of each of the 64 graphs. -/
def countK (x3 : (⟨S50000, .i32⟩ : BufTy).Contents (Elt F)) : (⟨S64, .f32⟩ : BufTy).Contents (Elt F) :=
  Host.scatterAdd scatter_S64_S50000x1_S50000_n_0_0_1
    (broadcastInDim S64 ![] bcast_S_S64 (constant S_ .f32 0x00000000#32))
    (broadcastInDim S50000x1 ![0] bcast_S50000_S50000x1_0 x3)
    (broadcastInDim S50000 ![] bcast_S_S50000 (constant S_ .f32 0x3F800000#32))

/-- The sum of the node rows of each graph. -/
def sumK (h : (⟨S50000x128, .f32⟩ : BufTy).Contents (Elt F)) (x3 : (⟨S50000, .i32⟩ : BufTy).Contents (Elt F)) :
    (⟨S64x128, .f32⟩ : BufTy).Contents (Elt F) :=
  Host.scatterAdd scatter_S64x128_S50000x1_S50000x128_1_0_0_1
    (broadcastInDim S64x128 ![] bcast_S_S64x128 (constant S_ .f32 0x00000000#32))
    (broadcastInDim S50000x1 ![0] bcast_S50000_S50000x1_0 x3)
    h

/-- The graph sizes clipped below at one. -/
def clipCountK (n : (⟨S64, .f32⟩ : BufTy).Contents (Elt F)) : (⟨S64, .f32⟩ : BufTy).Contents (Elt F) :=
  maximumf (broadcastInDim S64 ![] bcast_S_S64 (constant S_ .f32 0x3F800000#32)) n

/-- The mean of the node rows of each graph, times the head's weights, plus its bias. -/
def headK (s : (⟨S64x128, .f32⟩ : BufTy).Contents (Elt F)) (n : (⟨S64, .f32⟩ : BufTy).Contents (Elt F))
    (x6 : (⟨S128x10, .f32⟩ : BufTy).Contents (Elt F)) (x7 : (⟨S10, .f32⟩ : BufTy).Contents (Elt F)) :
    (⟨S64x10, .f32⟩ : BufTy).Contents (Elt F) :=
  addf
    (Host.dotGeneral dot_S64x128_S128x10_S64x10_1_0_0_1_n_n none
      (Host.divf s (broadcastInDim S64x128 ![0, 1] bcast_S64x1_S64x128_0_1 (broadcastInDim S64x1 ![0] bcast_S64_S64x1_0 n)))
      x6)
    (broadcastInDim S64x10 ![0, 1] bcast_S1x10_S64x10_0_1 (broadcastInDim S1x10 ![1] bcast_S10_S1x10_1 x7))

/-- Everything after the regions, as one function of what the second region leaves, the destination normalisation and
    the launch arguments. -/
def tailK (aggPad : (⟨S50176x128, .f32⟩ : BufTy).Contents (Elt F)) (inNorm : (⟨S50000x1, .f32⟩ : BufTy).Contents (Elt F))
    (x3 : (⟨S50000, .i32⟩ : BufTy).Contents (Elt F)) (x4 : (⟨S128x128, .f32⟩ : BufTy).Contents (Elt F))
    (x5 : (⟨S128, .f32⟩ : BufTy).Contents (Elt F)) (x6 : (⟨S128x10, .f32⟩ : BufTy).Contents (Elt F))
    (x7 : (⟨S10, .f32⟩ : BufTy).Contents (Elt F)) : (⟨S64x10, .f32⟩ : BufTy).Contents (Elt F) :=
  headK (sumK (layerK aggPad inNorm x4 x5) x3) (clipCountK (countK x3)) x6 x7

/-! ## Each line, from any contents of the buffers before it -/

theorem hostOps0_v3 (W : Valuation τ sig (Elt F)) :
    (StableHlo.after hostOps0 W (Proc.devRef .tc main_v3) : (⟨S50000, .f32⟩ : BufTy).Contents (Elt F))
      = degK (W (Proc.devRef .tc main_arg1) : (⟨S800000, .i32⟩ : BufTy).Contents (Elt F)) := by
  after_results <;> rfl

theorem hostOps0_v6 (W : Valuation τ sig (Elt F)) :
    (StableHlo.after hostOps0 W (Proc.devRef .tc main_v6) : (⟨S50000, .f32⟩ : BufTy).Contents (Elt F))
      = degK (W (Proc.devRef .tc main_arg2) : (⟨S800000, .i32⟩ : BufTy).Contents (Elt F)) := by
  after_results <;> rfl

theorem hostOps0_cst2 (W : Valuation τ sig (Elt F)) :
    (StableHlo.after hostOps0 W (Proc.devRef .tc main_cst_2) : (⟨S_, .f32⟩ : BufTy).Contents (Elt F))
      = constant S_ .f32 0x3F800000#32 := by
  after_results <;> rfl

theorem hostOps0_1_v7 (W : Valuation τ sig (Elt F)) :
    (StableHlo.after hostOps0_1 W (Proc.devRef .tc main_v7) : (⟨S50000, .f32⟩ : BufTy).Contents (Elt F))
      = maximumf (broadcastInDim S50000 ![] bcast_S_S50000 (W (Proc.devRef .tc main_cst_2) : (⟨S_, .f32⟩ : BufTy).Contents (Elt F))) (W (Proc.devRef .tc main_v3) : (⟨S50000, .f32⟩ : BufTy).Contents (Elt F)) := by
  after_results <;> rfl

theorem hostOps0_2_v9 (W : Valuation τ sig (Elt F)) :
    (StableHlo.after hostOps0_2 W (Proc.devRef .tc main_v9) : (⟨S50000x1, .f32⟩ : BufTy).Contents (Elt F))
      = broadcastInDim S50000x1 ![0] bcast_S50000_S50000x1_0 (Host.rsqrt (W (Proc.devRef .tc main_v7) : (⟨S50000, .f32⟩ : BufTy).Contents (Elt F))) := by
  after_results <;> rfl

theorem hostOps0_2_cst3 (W : Valuation τ sig (Elt F)) :
    (StableHlo.after hostOps0_2 W (Proc.devRef .tc main_cst_3) : (⟨S_, .f32⟩ : BufTy).Contents (Elt F))
      = constant S_ .f32 0x3F800000#32 := by
  after_results <;> rfl

theorem hostOps0_3_v10 (W : Valuation τ sig (Elt F)) :
    (StableHlo.after hostOps0_3 W (Proc.devRef .tc main_v10) : (⟨S50000, .f32⟩ : BufTy).Contents (Elt F))
      = maximumf (broadcastInDim S50000 ![] bcast_S_S50000 (W (Proc.devRef .tc main_cst_3) : (⟨S_, .f32⟩ : BufTy).Contents (Elt F))) (W (Proc.devRef .tc main_v6) : (⟨S50000, .f32⟩ : BufTy).Contents (Elt F)) := by
  after_results <;> rfl

theorem hostOps0_4_v12 (W : Valuation τ sig (Elt F)) :
    (StableHlo.after hostOps0_4 W (Proc.devRef .tc main_v12) : (⟨S50000x1, .f32⟩ : BufTy).Contents (Elt F))
      = broadcastInDim S50000x1 ![0] bcast_S50000_S50000x1_0 (Host.rsqrt (W (Proc.devRef .tc main_v10) : (⟨S50000, .f32⟩ : BufTy).Contents (Elt F))) := by
  after_results <;> rfl

theorem hostOps0_4_v14 (W : Valuation τ sig (Elt F)) :
    (StableHlo.after hostOps0_4 W (Proc.devRef .tc main_v14) : (⟨S50000x128, .f32⟩ : BufTy).Contents (Elt F))
      = mulf (W (Proc.devRef .tc main_arg0) : (⟨S50000x128, .f32⟩ : BufTy).Contents (Elt F)) (broadcastInDim S50000x128 ![0, 1] bcast_S50000x1_S50000x128_0_1 (W (Proc.devRef .tc main_v9) : (⟨S50000x1, .f32⟩ : BufTy).Contents (Elt F))) := by
  after_results <;> rfl

theorem hostOps0_4_c (W : Valuation τ sig (Elt F)) :
    (StableHlo.after hostOps0_4 W (Proc.devRef .tc main_c) : (⟨S_, .i32⟩ : BufTy).Contents (Elt F))
      = constantI S_ 32 50176#32 := by
  after_results <;> rfl

theorem hostOps0_5_v15 (W : Valuation τ sig (Elt F)) :
    (StableHlo.after hostOps0_5 W (Proc.devRef .tc main_v15) : (⟨S802816, .i32⟩ : BufTy).Contents (Elt F))
      = pad S802816 ![0] ![2816] ![0] (W (Proc.devRef .tc main_arg1) : (⟨S800000, .i32⟩ : BufTy).Contents (Elt F)) (W (Proc.devRef .tc main_c) : (⟨S_, .i32⟩ : BufTy).Contents (Elt F)) pads_S800000_S802816_028160 h_S_ := by
  after_results <;> rfl

theorem hostOps0_6_c4 (W : Valuation τ sig (Elt F)) :
    (StableHlo.after hostOps0_6 W (Proc.devRef .tc main_c_4) : (⟨S_, .i32⟩ : BufTy).Contents (Elt F))
      = constantI S_ 32 50176#32 := by
  after_results <;> rfl

theorem hostOps0_7_v16 (W : Valuation τ sig (Elt F)) :
    (StableHlo.after hostOps0_7 W (Proc.devRef .tc main_v16) : (⟨S802816, .i32⟩ : BufTy).Contents (Elt F))
      = pad S802816 ![0] ![2816] ![0] (W (Proc.devRef .tc main_arg2) : (⟨S800000, .i32⟩ : BufTy).Contents (Elt F)) (W (Proc.devRef .tc main_c_4) : (⟨S_, .i32⟩ : BufTy).Contents (Elt F)) pads_S800000_S802816_028160 h_S_ := by
  after_results <;> rfl

theorem hostOps0_8_v17 (W : Valuation τ sig (Elt F)) :
    (StableHlo.after hostOps0_8 W (Proc.devRef .tc main_v17) : (⟨S802816x1, .i32⟩ : BufTy).Contents (Elt F))
      = shapeCast S802816x1 (W (Proc.devRef .tc main_v15) : (⟨S802816, .i32⟩ : BufTy).Contents (Elt F)) shapeCasts_S802816_S802816x1 := by
  after_results <;> rfl

theorem hostOps0_8_v18 (W : Valuation τ sig (Elt F)) :
    (StableHlo.after hostOps0_8 W (Proc.devRef .tc main_v18) : (⟨S1x802816, .i32⟩ : BufTy).Contents (Elt F))
      = shapeCast S1x802816 (W (Proc.devRef .tc main_v16) : (⟨S802816, .i32⟩ : BufTy).Contents (Elt F)) shapeCasts_S802816_S1x802816 := by
  after_results <;> rfl

theorem hostOps0_8_c5 (W : Valuation τ sig (Elt F)) :
    (StableHlo.after hostOps0_8 W (Proc.devRef .tc main_c_5) : (⟨S_, .i32⟩ : BufTy).Contents (Elt F))
      = constantI S_ 32 0#32 := by
  after_results <;> rfl

theorem hostOps0_9_v19 (W : Valuation τ sig (Elt F)) :
    (StableHlo.after hostOps0_9 W (Proc.devRef .tc main_v19) : (⟨S50176x128, .f32⟩ : BufTy).Contents (Elt F))
      = pad S50176x128 ![0, 0] ![176, 0] ![0, 0] (W (Proc.devRef .tc main_v14) : (⟨S50000x128, .f32⟩ : BufTy).Contents (Elt F)) (sitofp .f32 (W (Proc.devRef .tc main_c_5) : (⟨S_, .i32⟩ : BufTy).Contents (Elt F))) pads_S50000x128_S50176x128_01760_000 h_S_ := by
  after_results <;> rfl

theorem hostOps2_v28 (W : Valuation τ sig (Elt F)) :
    (StableHlo.after hostOps2 W (Proc.devRef .tc main_v28) : (⟨S50000x128, .f32⟩ : BufTy).Contents (Elt F))
      = addf
          (Host.dotGeneral dot_S50000x128_S128x128_S50000x128_1_0_0_1_n_n none
            (mulf (extractStridedSlice S50000x128 ![0, 0] (W (Proc.devRef .tc main_v21) : (⟨S50176x128, .f32⟩ : BufTy).Contents (Elt F)) slices_S50176x128_S50000x128_0_0)
              (broadcastInDim S50000x128 ![0, 1] bcast_S50000x1_S50000x128_0_1 (W (Proc.devRef .tc main_v12) : (⟨S50000x1, .f32⟩ : BufTy).Contents (Elt F))))
            (W (Proc.devRef .tc main_arg4) : (⟨S128x128, .f32⟩ : BufTy).Contents (Elt F)))
          (broadcastInDim S50000x128 ![0, 1] bcast_S1x128_S50000x128_0_1
            (broadcastInDim S1x128 ![1] bcast_S128_S1x128_1 (W (Proc.devRef .tc main_arg5) : (⟨S128, .f32⟩ : BufTy).Contents (Elt F)))) := by
  after_results <;> rfl

theorem hostOps2_1_v29 (W : Valuation τ sig (Elt F)) :
    (StableHlo.after hostOps2_1 W (Proc.devRef .tc main_v29) : (⟨S50000x128, .f32⟩ : BufTy).Contents (Elt F))
      = maximumf (W (Proc.devRef .tc main_v28) : (⟨S50000x128, .f32⟩ : BufTy).Contents (Elt F))
          (broadcastInDim S50000x128 ![] bcast_S_S50000x128 (constant S_ .f32 0x00000000#32)) := by
  after_results <;> rfl

theorem hostOps2_2_v33 (W : Valuation τ sig (Elt F)) :
    (StableHlo.after hostOps2_2 W (Proc.devRef .tc main_v33) : (⟨S64, .f32⟩ : BufTy).Contents (Elt F))
      = countK (W (Proc.devRef .tc main_arg3) : (⟨S50000, .i32⟩ : BufTy).Contents (Elt F)) := by
  after_results <;> rfl

theorem hostOps2_2_v36 (W : Valuation τ sig (Elt F)) :
    (StableHlo.after hostOps2_2 W (Proc.devRef .tc main_v36) : (⟨S64x128, .f32⟩ : BufTy).Contents (Elt F))
      = sumK (W (Proc.devRef .tc main_v29) : (⟨S50000x128, .f32⟩ : BufTy).Contents (Elt F)) (W (Proc.devRef .tc main_arg3) : (⟨S50000, .i32⟩ : BufTy).Contents (Elt F)) := by
  after_results <;> rfl

theorem hostOps2_2_cst9 (W : Valuation τ sig (Elt F)) :
    (StableHlo.after hostOps2_2 W (Proc.devRef .tc main_cst_9) : (⟨S_, .f32⟩ : BufTy).Contents (Elt F))
      = constant S_ .f32 0x3F800000#32 := by
  after_results <;> rfl

theorem hostOps2_3_v37 (W : Valuation τ sig (Elt F)) :
    (StableHlo.after hostOps2_3 W (Proc.devRef .tc main_v37) : (⟨S64, .f32⟩ : BufTy).Contents (Elt F))
      = maximumf (broadcastInDim S64 ![] bcast_S_S64 (W (Proc.devRef .tc main_cst_9) : (⟨S_, .f32⟩ : BufTy).Contents (Elt F))) (W (Proc.devRef .tc main_v33) : (⟨S64, .f32⟩ : BufTy).Contents (Elt F)) := by
  after_results <;> rfl

theorem hostOps2_4_v44 (W : Valuation τ sig (Elt F)) :
    (StableHlo.after hostOps2_4 W (Proc.devRef .tc main_v44) : (⟨S64x10, .f32⟩ : BufTy).Contents (Elt F))
      = headK (W (Proc.devRef .tc main_v36) : (⟨S64x128, .f32⟩ : BufTy).Contents (Elt F)) (W (Proc.devRef .tc main_v37) : (⟨S64, .f32⟩ : BufTy).Contents (Elt F)) (W (Proc.devRef .tc main_arg6) : (⟨S128x10, .f32⟩ : BufTy).Contents (Elt F)) (W (Proc.devRef .tc main_arg7) : (⟨S10, .f32⟩ : BufTy).Contents (Elt F)) := by
  after_results <;> rfl

variable (m : (ℓ : Loc nD τ sig) → Buf (Elt F) ℓ) (outs : Outs (F := F))

/-! ## What no line writes -/

theorem V12_arg4 (c : Dev nD) : V12 m outs c main_arg4 = m ((c : Thread nD τ).loc main_arg4) :=
  (V12_of m outs c main_arg4 (by decide)).trans <| (V11_of m outs c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans rfl
theorem V12_arg5 (c : Dev nD) : V12 m outs c main_arg5 = m ((c : Thread nD τ).loc main_arg5) :=
  (V12_of m outs c main_arg5 (by decide)).trans <| (V11_of m outs c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans rfl
theorem V14_arg3 (c : Dev nD) : V14 m outs c main_arg3 = m ((c : Thread nD τ).loc main_arg3) :=
  (V14_of m outs c main_arg3 (by decide)).trans <| (V13_of m outs c main_arg3 (by decide)).trans <| (V12_of m outs c main_arg3 (by decide)).trans <| (V11_of m outs c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl
theorem V16_arg6 (c : Dev nD) : V16 m outs c main_arg6 = m ((c : Thread nD τ).loc main_arg6) :=
  (V16_of m outs c main_arg6 (by decide)).trans <| (V15_of m outs c main_arg6 (by decide)).trans <| (V14_of m outs c main_arg6 (by decide)).trans <| (V13_of m outs c main_arg6 (by decide)).trans <| (V12_of m outs c main_arg6 (by decide)).trans <| (V11_of m outs c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans rfl
theorem V16_arg7 (c : Dev nD) : V16 m outs c main_arg7 = m ((c : Thread nD τ).loc main_arg7) :=
  (V16_of m outs c main_arg7 (by decide)).trans <| (V15_of m outs c main_arg7 (by decide)).trans <| (V14_of m outs c main_arg7 (by decide)).trans <| (V13_of m outs c main_arg7 (by decide)).trans <| (V12_of m outs c main_arg7 (by decide)).trans <| (V11_of m outs c main_arg7 (by decide)).trans <| (V10_of m c main_arg7 (by decide)).trans <| (V9_of m c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans rfl
theorem V4_arg0 (c : Dev nD) : V4 m c main_arg0 = m ((c : Thread nD τ).loc main_arg0) :=
  (V4_of m c main_arg0 (by decide)).trans <| (V3_of m c main_arg0 (by decide)).trans <| (V2_of m c main_arg0 (by decide)).trans <| (V1_of m c main_arg0 (by decide)).trans rfl
theorem V5_arg1 (c : Dev nD) : V5 m c main_arg1 = m ((c : Thread nD τ).loc main_arg1) :=
  (V5_of m c main_arg1 (by decide)).trans <| (V4_of m c main_arg1 (by decide)).trans <| (V3_of m c main_arg1 (by decide)).trans <| (V2_of m c main_arg1 (by decide)).trans <| (V1_of m c main_arg1 (by decide)).trans rfl
theorem V7_arg2 (c : Dev nD) : V7 m c main_arg2 = m ((c : Thread nD τ).loc main_arg2) :=
  (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans rfl

/-! ## The same at the program's own buffer contents -/

theorem V1_v3 (c : Dev nD) :
    (V1 m c main_v3 : (⟨S50000, .f32⟩ : BufTy).Contents (Elt F))
      = degK (V0 m c main_arg1 : (⟨S800000, .i32⟩ : BufTy).Contents (Elt F)) :=
  hostOps0_v3 (V0 m c)

theorem V1_v6 (c : Dev nD) :
    (V1 m c main_v6 : (⟨S50000, .f32⟩ : BufTy).Contents (Elt F))
      = degK (V0 m c main_arg2 : (⟨S800000, .i32⟩ : BufTy).Contents (Elt F)) :=
  hostOps0_v6 (V0 m c)

theorem V1_cst2 (c : Dev nD) :
    (V1 m c main_cst_2 : (⟨S_, .f32⟩ : BufTy).Contents (Elt F))
      = constant S_ .f32 0x3F800000#32 :=
  hostOps0_cst2 (V0 m c)

theorem V2_v7 (c : Dev nD) :
    (V2 m c main_v7 : (⟨S50000, .f32⟩ : BufTy).Contents (Elt F))
      = maximumf (broadcastInDim S50000 ![] bcast_S_S50000 (V1 m c main_cst_2 : (⟨S_, .f32⟩ : BufTy).Contents (Elt F))) (V1 m c main_v3 : (⟨S50000, .f32⟩ : BufTy).Contents (Elt F)) :=
  hostOps0_1_v7 (V1 m c)

theorem V3_v9 (c : Dev nD) :
    (V3 m c main_v9 : (⟨S50000x1, .f32⟩ : BufTy).Contents (Elt F))
      = broadcastInDim S50000x1 ![0] bcast_S50000_S50000x1_0 (Host.rsqrt (V2 m c main_v7 : (⟨S50000, .f32⟩ : BufTy).Contents (Elt F))) :=
  hostOps0_2_v9 (V2 m c)

theorem V3_cst3 (c : Dev nD) :
    (V3 m c main_cst_3 : (⟨S_, .f32⟩ : BufTy).Contents (Elt F))
      = constant S_ .f32 0x3F800000#32 :=
  hostOps0_2_cst3 (V2 m c)

theorem V4_v10 (c : Dev nD) :
    (V4 m c main_v10 : (⟨S50000, .f32⟩ : BufTy).Contents (Elt F))
      = maximumf (broadcastInDim S50000 ![] bcast_S_S50000 (V3 m c main_cst_3 : (⟨S_, .f32⟩ : BufTy).Contents (Elt F))) (V3 m c main_v6 : (⟨S50000, .f32⟩ : BufTy).Contents (Elt F)) :=
  hostOps0_3_v10 (V3 m c)

theorem V5_v12 (c : Dev nD) :
    (V5 m c main_v12 : (⟨S50000x1, .f32⟩ : BufTy).Contents (Elt F))
      = broadcastInDim S50000x1 ![0] bcast_S50000_S50000x1_0 (Host.rsqrt (V4 m c main_v10 : (⟨S50000, .f32⟩ : BufTy).Contents (Elt F))) :=
  hostOps0_4_v12 (V4 m c)

theorem V5_v14 (c : Dev nD) :
    (V5 m c main_v14 : (⟨S50000x128, .f32⟩ : BufTy).Contents (Elt F))
      = mulf (V4 m c main_arg0 : (⟨S50000x128, .f32⟩ : BufTy).Contents (Elt F)) (broadcastInDim S50000x128 ![0, 1] bcast_S50000x1_S50000x128_0_1 (V4 m c main_v9 : (⟨S50000x1, .f32⟩ : BufTy).Contents (Elt F))) :=
  hostOps0_4_v14 (V4 m c)

theorem V5_c (c : Dev nD) :
    (V5 m c main_c : (⟨S_, .i32⟩ : BufTy).Contents (Elt F))
      = constantI S_ 32 50176#32 :=
  hostOps0_4_c (V4 m c)

theorem V6_v15 (c : Dev nD) :
    (V6 m c main_v15 : (⟨S802816, .i32⟩ : BufTy).Contents (Elt F))
      = pad S802816 ![0] ![2816] ![0] (V5 m c main_arg1 : (⟨S800000, .i32⟩ : BufTy).Contents (Elt F)) (V5 m c main_c : (⟨S_, .i32⟩ : BufTy).Contents (Elt F)) pads_S800000_S802816_028160 h_S_ :=
  hostOps0_5_v15 (V5 m c)

theorem V7_c4 (c : Dev nD) :
    (V7 m c main_c_4 : (⟨S_, .i32⟩ : BufTy).Contents (Elt F))
      = constantI S_ 32 50176#32 :=
  hostOps0_6_c4 (V6 m c)

theorem V8_v16 (c : Dev nD) :
    (V8 m c main_v16 : (⟨S802816, .i32⟩ : BufTy).Contents (Elt F))
      = pad S802816 ![0] ![2816] ![0] (V7 m c main_arg2 : (⟨S800000, .i32⟩ : BufTy).Contents (Elt F)) (V7 m c main_c_4 : (⟨S_, .i32⟩ : BufTy).Contents (Elt F)) pads_S800000_S802816_028160 h_S_ :=
  hostOps0_7_v16 (V7 m c)

theorem V9_v17 (c : Dev nD) :
    (V9 m c main_v17 : (⟨S802816x1, .i32⟩ : BufTy).Contents (Elt F))
      = shapeCast S802816x1 (V8 m c main_v15 : (⟨S802816, .i32⟩ : BufTy).Contents (Elt F)) shapeCasts_S802816_S802816x1 :=
  hostOps0_8_v17 (V8 m c)

theorem V9_v18 (c : Dev nD) :
    (V9 m c main_v18 : (⟨S1x802816, .i32⟩ : BufTy).Contents (Elt F))
      = shapeCast S1x802816 (V8 m c main_v16 : (⟨S802816, .i32⟩ : BufTy).Contents (Elt F)) shapeCasts_S802816_S1x802816 :=
  hostOps0_8_v18 (V8 m c)

theorem V9_c5 (c : Dev nD) :
    (V9 m c main_c_5 : (⟨S_, .i32⟩ : BufTy).Contents (Elt F))
      = constantI S_ 32 0#32 :=
  hostOps0_8_c5 (V8 m c)

theorem V10_v19' (c : Dev nD) :
    (V10 m c main_v19 : (⟨S50176x128, .f32⟩ : BufTy).Contents (Elt F))
      = pad S50176x128 ![0, 0] ![176, 0] ![0, 0] (V9 m c main_v14 : (⟨S50000x128, .f32⟩ : BufTy).Contents (Elt F)) (sitofp .f32 (V9 m c main_c_5 : (⟨S_, .i32⟩ : BufTy).Contents (Elt F))) pads_S50000x128_S50176x128_01760_000 h_S_ :=
  hostOps0_9_v19 (V9 m c)

theorem V13_v28 (c : Dev nD) :
    (V13 m outs c main_v28 : (⟨S50000x128, .f32⟩ : BufTy).Contents (Elt F))
      = addf
          (Host.dotGeneral dot_S50000x128_S128x128_S50000x128_1_0_0_1_n_n none
            (mulf (extractStridedSlice S50000x128 ![0, 0] (V12 m outs c main_v21 : (⟨S50176x128, .f32⟩ : BufTy).Contents (Elt F)) slices_S50176x128_S50000x128_0_0)
              (broadcastInDim S50000x128 ![0, 1] bcast_S50000x1_S50000x128_0_1 (V12 m outs c main_v12 : (⟨S50000x1, .f32⟩ : BufTy).Contents (Elt F))))
            (V12 m outs c main_arg4 : (⟨S128x128, .f32⟩ : BufTy).Contents (Elt F)))
          (broadcastInDim S50000x128 ![0, 1] bcast_S1x128_S50000x128_0_1
            (broadcastInDim S1x128 ![1] bcast_S128_S1x128_1 (V12 m outs c main_arg5 : (⟨S128, .f32⟩ : BufTy).Contents (Elt F)))) :=
  hostOps2_v28 (V12 m outs c)

theorem V14_v29 (c : Dev nD) :
    (V14 m outs c main_v29 : (⟨S50000x128, .f32⟩ : BufTy).Contents (Elt F))
      = maximumf (V13 m outs c main_v28 : (⟨S50000x128, .f32⟩ : BufTy).Contents (Elt F))
          (broadcastInDim S50000x128 ![] bcast_S_S50000x128 (constant S_ .f32 0x00000000#32)) :=
  hostOps2_1_v29 (V13 m outs c)

theorem V15_v33 (c : Dev nD) :
    (V15 m outs c main_v33 : (⟨S64, .f32⟩ : BufTy).Contents (Elt F))
      = countK (V14 m outs c main_arg3 : (⟨S50000, .i32⟩ : BufTy).Contents (Elt F)) :=
  hostOps2_2_v33 (V14 m outs c)

theorem V15_v36 (c : Dev nD) :
    (V15 m outs c main_v36 : (⟨S64x128, .f32⟩ : BufTy).Contents (Elt F))
      = sumK (V14 m outs c main_v29 : (⟨S50000x128, .f32⟩ : BufTy).Contents (Elt F)) (V14 m outs c main_arg3 : (⟨S50000, .i32⟩ : BufTy).Contents (Elt F)) :=
  hostOps2_2_v36 (V14 m outs c)

theorem V15_cst9 (c : Dev nD) :
    (V15 m outs c main_cst_9 : (⟨S_, .f32⟩ : BufTy).Contents (Elt F))
      = constant S_ .f32 0x3F800000#32 :=
  hostOps2_2_cst9 (V14 m outs c)

theorem V16_v37 (c : Dev nD) :
    (V16 m outs c main_v37 : (⟨S64, .f32⟩ : BufTy).Contents (Elt F))
      = maximumf (broadcastInDim S64 ![] bcast_S_S64 (V15 m outs c main_cst_9 : (⟨S_, .f32⟩ : BufTy).Contents (Elt F))) (V15 m outs c main_v33 : (⟨S64, .f32⟩ : BufTy).Contents (Elt F)) :=
  hostOps2_3_v37 (V15 m outs c)

theorem V17_v44' (c : Dev nD) :
    (V17 m outs c main_v44 : (⟨S64x10, .f32⟩ : BufTy).Contents (Elt F))
      = headK (V16 m outs c main_v36 : (⟨S64x128, .f32⟩ : BufTy).Contents (Elt F)) (V16 m outs c main_v37 : (⟨S64, .f32⟩ : BufTy).Contents (Elt F)) (V16 m outs c main_arg6 : (⟨S128x10, .f32⟩ : BufTy).Contents (Elt F)) (V16 m outs c main_arg7 : (⟨S10, .f32⟩ : BufTy).Contents (Elt F)) :=
  hostOps2_4_v44 (V16 m outs c)

/-! ## The arrays the regions read, and the result -/

/-- The first region's source column: the source list padded with the out-of-range row, as a column. -/
theorem V10_v17 (c : Dev nD) :
    (V10 m c main_v17 : (⟨S802816x1, .i32⟩ : BufTy).Contents (Elt F))
      = shapeCast S802816x1 (padIdxK (m ((c : Thread nD τ).loc main_arg1))) shapeCasts_S802816_S802816x1 := by
  rw [V10_of m c main_v17 (by decide), V9_v17,
    ((V8_of m c main_v15 (by decide)).trans <| (V7_of m c main_v15 (by decide)) : V8 m c main_v15 = V6 m c main_v15), V6_v15, V5_arg1, V5_c]
  rfl

/-- The features the first region gathers: scaled by the source normalisation, padded with 176 zero rows. -/
theorem V10_v19 (c : Dev nD) :
    (V10 m c main_v19 : (⟨S50176x128, .f32⟩ : BufTy).Contents (Elt F))
      = pad S50176x128 ![0, 0] ![176, 0] ![0, 0]
          (hK (m ((c : Thread nD τ).loc main_arg0)) (m ((c : Thread nD τ).loc main_arg1)))
          (sitofp .f32 (constantI S_ 32 0#32)) pads_S50000x128_S50176x128_01760_000 h_S_ := by
  rw [V10_v19', V9_c5,
    ((V9_of m c main_v14 (by decide)).trans <| (V8_of m c main_v14 (by decide)).trans <| (V7_of m c main_v14 (by decide)).trans <| (V6_of m c main_v14 (by decide)) : V9 m c main_v14 = V5 m c main_v14), V5_v14, V4_arg0,
    ((V4_of m c main_v9 (by decide)) : V4 m c main_v9 = V3 m c main_v9), V3_v9, V2_v7, V1_cst2, V1_v3]
  rfl

/-- The second region's destination row: the destination list padded with the out-of-range row, as a row. -/
theorem V11_v18 (c : Dev nD) :
    (V11 m outs c main_v18 : (⟨S1x802816, .i32⟩ : BufTy).Contents (Elt F))
      = shapeCast S1x802816 (padIdxK (m ((c : Thread nD τ).loc main_arg2))) shapeCasts_S802816_S1x802816 := by
  rw [((V11_of m outs c main_v18 (by decide)).trans <| (V10_of m c main_v18 (by decide)) : V11 m outs c main_v18 = V9 m c main_v18), V9_v18, V8_v16, V7_arg2, V7_c4]
  rfl

/-- What the first region leaves. -/
theorem V11_v20 (c : Dev nD) : V11 m outs c main_v20 = outs 11 main_v20 c := by
  simp only [V11, Function.update_self]

/-- What the second region leaves. -/
theorem V12_v21 (c : Dev nD) : V12 m outs c main_v21 = outs 12 main_v21 c := by
  simp only [V12, Function.update_self]

/-- The destination normalisation is still there after the regions. -/
theorem V12_v12 (c : Dev nD) :
    (V12 m outs c main_v12 : (⟨S50000x1, .f32⟩ : BufTy).Contents (Elt F)) = inNormK (m ((c : Thread nD τ).loc main_arg2)) := by
  rw [((V12_of m outs c main_v12 (by decide)).trans <| (V11_of m outs c main_v12 (by decide)).trans <| (V10_of m c main_v12 (by decide)).trans <| (V9_of m c main_v12 (by decide)).trans <| (V8_of m c main_v12 (by decide)).trans <| (V7_of m c main_v12 (by decide)).trans <| (V6_of m c main_v12 (by decide)) : V12 m outs c main_v12 = V5 m c main_v12), V5_v12, V4_v10, V3_cst3,
    ((V3_of m c main_v6 (by decide)).trans <| (V2_of m c main_v6 (by decide)) : V3 m c main_v6 = V1 m c main_v6), V1_v6]
  rfl

/-- The program's result: the tail of what the second region leaves, of the destination normalisation and of the
    launch arguments. -/
theorem V17_v44 (c : Dev nD) :
    (V17 m outs c main_v44 : (⟨S64x10, .f32⟩ : BufTy).Contents (Elt F))
      = tailK (V12 m outs c main_v21) (V12 m outs c main_v12)
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [V17_v44', V16_arg6, V16_arg7, V16_v37, V16_of m outs c main_v36 (by decide), V15_v36, V15_v33, V15_cst9, V14_arg3,
    V14_v29, V13_v28, V12_arg4, V12_arg5]
  rfl

/-! ## The layout operations read at an index -/

section Read

open Idealize.ShloMosaic.ValueIdx

/-- A padded index list, entry by entry: the list's own entries, then the out-of-range row. -/
theorem padIdxK_apply (x : (⟨S800000, .i32⟩ : BufTy).Contents (Elt F)) (e : Fin 802816) :
    padIdxK x (ix1 e) = if h : e.val < 800000 then x (ix1 ⟨e.val, h⟩) else 50176#32 := by
  unfold padIdxK
  by_cases h : e.val < 800000
  · rw [dif_pos h]
    exact pad_apply_of_inside _ _ _ x _ _ _ (ix1 e) (ix1 (⟨e.val, h⟩ : Fin 800000)) (by
      intro a
      have ha : a = 0 := Subsingleton.elim _ _
      subst ha
      show e.val = 0 + e.val * (0 + 1); omega)
  · rw [dif_neg h]
    refine (pad_apply_of_not_inside _ _ _ x _ _ _ (ix1 e) (0 : Fin 1) ?_).trans rfl
    show ¬(0 ≤ e.val ∧ (e.val - 0) % (0 + 1) = 0 ∧ (e.val - 0) / (0 + 1) < 800000)
    omega

/-- The first region's source column at row e. -/
theorem srcCol_apply (x1 : (⟨S800000, .i32⟩ : BufTy).Contents (Elt F)) (e : Fin 802816) :
    shapeCast S802816x1 (padIdxK x1) shapeCasts_S802816_S802816x1 (ix2 e (0 : Fin 1))
      = if h : e.val < 800000 then x1 (ix1 ⟨e.val, h⟩) else 50176#32 := by
  refine (shapeCast_apply (padIdxK x1) shapeCasts_S802816_S802816x1 (ix2 e (0 : Fin 1)) (ix1 e) ?_).trans (padIdxK_apply x1 e)
  rw [Shape.rowMajor_val_two, Shape.rowMajor_val_one]
  show e.val = e.val * 1 + 0
  omega

/-- The second region's destination row at column e. -/
theorem dstRow_apply (x2 : (⟨S800000, .i32⟩ : BufTy).Contents (Elt F)) (e : Fin 802816) :
    shapeCast S1x802816 (padIdxK x2) shapeCasts_S802816_S1x802816 (ix2 (0 : Fin 1) e)
      = if h : e.val < 800000 then x2 (ix1 ⟨e.val, h⟩) else 50176#32 :=
  (shapeCast_a_1a_apply (padIdxK x2) shapeCasts_S802816_S1x802816 (0 : Fin 1) e).trans (padIdxK_apply x2 e)

/-- The true rows of a padded aggregate. -/
theorem slice_apply (A : (⟨S50176x128, .f32⟩ : BufTy).Contents (Elt F)) (n : Fin 50000) (d : Fin 128) :
    extractStridedSlice S50000x128 ![0, 0] A slices_S50176x128_S50000x128_0_0 (ix2 n d)
      = A (ix2 (⟨n.val, by omega⟩ : Fin 50176) d) :=
  slice2_axis0_apply 0 A slices_S50176x128_S50000x128_0_0 n d ⟨n.val, by omega⟩ (Nat.zero_add _).symm

/-- The padded features at the ideal values: the features on the true rows, zero on the 176 rows after them. -/
theorem hPad_apply (H : (⟨S50000x128, .f32⟩ : BufTy).Contents (Elt Ideal)) (n : Fin 50176) (d : Fin 128) :
    (pad S50176x128 ![0, 0] ![176, 0] ![0, 0] H (sitofp (F := Ideal) .f32 (constantI S_ 32 0#32))
        pads_S50000x128_S50176x128_01760_000 h_S_ : S50176x128.Idx → EReal) (ix2 n d)
      = if h : n.val < 50000 then H (ix2 ⟨n.val, h⟩ d) else 0 := by
  by_cases h : n.val < 50000
  · rw [dif_pos h]
    exact pad_apply_of_inside _ _ _ H _ _ _ (ix2 n d) (ix2 (⟨n.val, h⟩ : Fin 50000) d) (fun a => by
      match a with
      | ⟨0, _⟩ => show n.val = 0 + n.val * (0 + 1); omega
      | ⟨1, _⟩ => show d.val = 0 + d.val * (0 + 1); omega)
  · rw [dif_neg h]
    refine (pad_apply_of_not_inside _ _ _ H _ _ _ (ix2 n d) (0 : Fin 2) ?_).trans ?_
    · show ¬(0 ≤ n.val ∧ (n.val - 0) % (0 + 1) = 0 ∧ (n.val - 0) / (0 + 1) < 50000)
      omega
    · exact sitofp_zero (φ := .f32)

end Read

end Cert.KernelIdeal.Hand

end
-- ==== Proof.LibTakeRows.lean ====
/-
  A take of rows read at an index.

  A gather of an operand [R, C] at a column [M, 1] of start indices, whose start-indexed row axis is collapsed and whose
  column axis is the one offset axis, reads at (p, q) the operand's row named by start index p — read as a signed
  integer and clamped into [0, R − 1] — at column q.
-/
import Idealize.ShloMosaic.Lib.ValueIdx
import Idealize.ShloMosaic.Lib.Pipeline.Value

noncomputable section

namespace Cert.TakeRows

open Idealize.ShloMosaic Idealize.ShloMosaic.ValueIdx

variable {α : Type}

/-- The dimension numbers of a take of rows, opened: operand [R, C], a column [M, 1] of start indices, result [M, C];
    the rows are start-indexed and collapsed, the columns are the one offset axis. The start indices' batching axes and
    the slice sizes stay as the record has them. -/
abbrev takeRowsDims {R C M : Nat} (sb : List (Fin 2)) (ss : Fin 2 → Nat)
    (wf : GatherDims.WF ⟨2, ![R, C]⟩ ⟨2, ![M, 1]⟩ ⟨2, ![M, C]⟩ [1] [0] [] [0] sb 1 ss) :
    GatherDims ⟨2, ![R, C]⟩ ⟨2, ![M, 1]⟩ ⟨2, ![M, C]⟩ where
  offsetDims := [1]
  collapsedSliceDims := [0]
  operandBatchingDims := []
  startIndicesBatchingDims := sb
  startIndexMap := [0]
  indexVectorDim := 1
  sliceSizes := ss
  wf := wf

/-- On the row axis the operand coordinate of result (p, q) is start index p, read signed and clamped to R − 1 (the slice
    size on a collapsed axis is one); no batching, no offset. -/
theorem takeRows_axis0 {R C M : Nat} (sb : List (Fin 2)) (ss : Fin 2 → Nat)
    (wf : GatherDims.WF ⟨2, ![R, C]⟩ ⟨2, ![M, 1]⟩ ⟨2, ![M, C]⟩ [1] [0] [] [0] sb 1 ss)
    (idx : IVec ⟨2, ![M, 1]⟩ 32) (p : Fin M) (q : Fin C) :
    (takeRowsDims sb ss wf).start (ix2 p q) idx (0 : Fin 2) + (takeRowsDims sb ss wf).batchCoord (ix2 p q) (0 : Fin 2)
        + (takeRowsDims sb ss wf).offCoord (ix2 p q) (0 : Fin 2)
      = min (idx (ix2 p (0 : Fin 1))).toInt.toNat (R - 1) := by
  have hm : (0 : Fin 2) ∈ (takeRowsDims sb ss wf).startIndexMap := by
    show (0 : Fin 2) ∈ ([0] : List (Fin 2)); decide
  have hsl : ss 0 = 1 := (takeRowsDims sb ss wf).slice_collapsed 0 (by show (0 : Fin 2) ∈ ([0] : List (Fin 2)); decide)
  rw [GatherDims.batchCoord_eq_zero _ _ _ List.not_mem_nil,
    GatherDims.offCoord_eq_zero _ _ _ (fun h => ((GatherDims.mem_sKept _ _).mp h).1
      (show (0 : Fin 2) ∈ ([0] : List (Fin 2)) by decide))]
  simp only [Nat.add_zero]
  unfold GatherDims.start
  rw [dif_pos hm]
  have hsi : (takeRowsDims sb ss wf).siIdx (ix2 p q) ⟨List.idxOf (0 : Fin 2) (takeRowsDims sb ss wf).startIndexMap,
      List.idxOf_lt_length_iff.2 hm⟩ = ix2 p (0 : Fin 1) := by
    funext b; refine Fin.ext ?_
    match b with
    | ⟨0, _⟩ => rfl
    | ⟨1, _⟩ => rfl
  rw [hsi]
  show min (idx (ix2 p (0 : Fin 1))).toInt.toNat (R - ss 0) = _
  rw [hsl]

/-- On the column axis the operand coordinate of result (p, q) is q: no start index, no batching, offset q. -/
theorem takeRows_axis1 {R C M : Nat} (sb : List (Fin 2)) (ss : Fin 2 → Nat)
    (wf : GatherDims.WF ⟨2, ![R, C]⟩ ⟨2, ![M, 1]⟩ ⟨2, ![M, C]⟩ [1] [0] [] [0] sb 1 ss)
    (idx : IVec ⟨2, ![M, 1]⟩ 32) (p : Fin M) (q : Fin C) :
    (takeRowsDims sb ss wf).start (ix2 p q) idx (1 : Fin 2) + (takeRowsDims sb ss wf).batchCoord (ix2 p q) (1 : Fin 2)
        + (takeRowsDims sb ss wf).offCoord (ix2 p q) (1 : Fin 2) = q.val := by
  have hm : (1 : Fin 2) ∉ (takeRowsDims sb ss wf).startIndexMap := by
    show (1 : Fin 2) ∉ ([0] : List (Fin 2)); decide
  have hk : (1 : Fin 2) ∈ (takeRowsDims sb ss wf).sKept :=
    (GatherDims.mem_sKept _ _).mpr ⟨by show (1 : Fin 2) ∉ ([0] : List (Fin 2)); decide, List.not_mem_nil⟩
  rw [GatherDims.batchCoord_eq_zero _ _ _ List.not_mem_nil]
  unfold GatherDims.start GatherDims.offCoord
  rw [dif_neg hm, dif_pos hk]
  simp only [Nat.add_zero, Nat.zero_add]
  rfl

/-- THE TAKE OF ROWS. A gather of an operand [R, C] at a column [M, 1] of start indices, whose one start-indexed axis
    (the rows) is collapsed and whose column axis is the one offset axis (the printed dimension numbers, each by `rfl`),
    reads at (p, q) the operand's row named by start index p, read signed and clamped into [0, R − 1], at column q. -/
theorem take_rows_apply {R C M : Nat} (d : GatherDims ⟨2, ![R, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1) (hR : 0 < R)
    (x : (⟨2, ![R, C]⟩ : Shape).Idx → α) (idx : IVec ⟨2, ![M, 1]⟩ 32) (p : Fin M) (q : Fin C) :
    Host.gather d x idx (ix2 p q)
      = x (ix2 (⟨min (idx (ix2 p (0 : Fin 1))).toInt.toNat (R - 1), by omega⟩ : Fin R) q) := by
  obtain ⟨od, cd, ob, sb, sim, ivd, ss, wf⟩ := d
  dsimp only at hoff hcoll hob hsim hivd
  subst hoff hcoll hob hsim hivd
  show Host.gather (takeRowsDims sb ss wf) x idx (ix2 p q) = _
  unfold Host.gather
  congr 1
  funext a
  refine Fin.ext ?_
  show (takeRowsDims sb ss wf).start (ix2 p q) idx a + (takeRowsDims sb ss wf).batchCoord (ix2 p q) a
    + (takeRowsDims sb ss wf).offCoord (ix2 p q) a = _
  match a with
  | ⟨0, _⟩ => exact takeRows_axis0 sb ss wf idx p q
  | ⟨1, _⟩ => exact takeRows_axis1 sb ss wf idx p q

end Cert.TakeRows

end
-- ==== Proof.LibScatterRows.lean ====
/-
  A scatter-add of rows read at an index, on the extended reals.

  Updates [M, C] are added into an operand [R, C]: row p of the updates goes to the operand row named by start index
  p — a column [M, 1] of words read as signed integers and not clamped — and keeps its column; a row whose index falls
  outside the operand is dropped. At (n, o) the result is the operand there plus the sum, over the update rows whose
  index is n, of the update at (p, o).
-/
import Idealize.ShloMosaic.PureOps.Ideal
import Idealize.ShloMosaic.PureOps.Contract
import Idealize.ShloMosaic.Lib.ValueIdx

noncomputable section

open scoped BigOperators

namespace Cert.ScatterRows

open Idealize.ShloMosaic Idealize.ShloMosaic.ValueIdx

/-- The dimension numbers of a scatter-add of rows, opened: operand [R, C], a column [M, 1] of start indices, updates
    [M, C]; the update's column axis is its one window axis, the operand's row axis is the one inserted axis and the one
    axis a start index names, and the index vector lies along the indices' second axis. -/
abbrev scatterRowsDims {R C M : Nat}
    (wf : ScatterDims.WF ⟨2, ![R, C]⟩ ⟨2, ![M, 1]⟩ ⟨2, ![M, C]⟩ [1] [0] [0] 1) :
    ScatterDims ⟨2, ![R, C]⟩ ⟨2, ![M, 1]⟩ ⟨2, ![M, C]⟩ where
  updateWindowDims := [1]
  insertedWindowDims := [0]
  scatterDimsToOperandDims := [0]
  indexVectorDim := 1
  wf := wf

/-- On the row axis the window of update (p, q) starts at start index p, read signed and not clamped. -/
theorem scatterRows_start0 {R C M : Nat}
    (wf : ScatterDims.WF ⟨2, ![R, C]⟩ ⟨2, ![M, 1]⟩ ⟨2, ![M, C]⟩ [1] [0] [0] 1)
    (idx : IVec ⟨2, ![M, 1]⟩ 32) (p : Fin M) (q : Fin C) :
    (scatterRowsDims wf).start (ix2 p q) idx (0 : Fin 2) = (idx (ix2 p (0 : Fin 1))).toInt := by
  have hm : (0 : Fin 2) ∈ (scatterRowsDims wf).scatterDimsToOperandDims := by
    show (0 : Fin 2) ∈ ([0] : List (Fin 2)); decide
  unfold ScatterDims.start
  rw [dif_pos hm]
  have hsi : (scatterRowsDims wf).siIdx (ix2 p q) ⟨List.idxOf (0 : Fin 2) (scatterRowsDims wf).scatterDimsToOperandDims,
      List.idxOf_lt_length_iff.2 hm⟩ = ix2 p (0 : Fin 1) := by
    funext b; refine Fin.ext ?_
    match b with
    | ⟨0, _⟩ => rfl
    | ⟨1, _⟩ => rfl
  rw [hsi]

/-- On the column axis no start index is named: the window of update (p, q) starts at 0. -/
theorem scatterRows_start1 {R C M : Nat}
    (wf : ScatterDims.WF ⟨2, ![R, C]⟩ ⟨2, ![M, 1]⟩ ⟨2, ![M, C]⟩ [1] [0] [0] 1)
    (idx : IVec ⟨2, ![M, 1]⟩ 32) (p : Fin M) (q : Fin C) :
    (scatterRowsDims wf).start (ix2 p q) idx (1 : Fin 2) = 0 := by
  have hm : (1 : Fin 2) ∉ (scatterRowsDims wf).scatterDimsToOperandDims := by
    show (1 : Fin 2) ∉ ([0] : List (Fin 2)); decide
  unfold ScatterDims.start
  rw [dif_neg hm]

/-- The row axis is inserted: the window coordinate of update (p, q) there is 0. -/
theorem scatterRows_window0 {R C M : Nat}
    (wf : ScatterDims.WF ⟨2, ![R, C]⟩ ⟨2, ![M, 1]⟩ ⟨2, ![M, C]⟩ [1] [0] [0] 1)
    (p : Fin M) (q : Fin C) :
    (scatterRowsDims wf).window (ix2 p q) (0 : Fin 2) = 0 := by
  have hk : (0 : Fin 2) ∉ (scatterRowsDims wf).sKept := by
    show (0 : Fin 2) ∉ ((List.finRange 2).filter (fun a => a ∉ ([0] : List (Fin 2)))); decide
  unfold ScatterDims.window
  rw [dif_neg hk]

/-- The column axis is the one window axis: the window coordinate of update (p, q) there is q. -/
theorem scatterRows_window1 {R C M : Nat}
    (wf : ScatterDims.WF ⟨2, ![R, C]⟩ ⟨2, ![M, 1]⟩ ⟨2, ![M, C]⟩ [1] [0] [0] 1)
    (p : Fin M) (q : Fin C) :
    (scatterRowsDims wf).window (ix2 p q) (1 : Fin 2) = q.val := by
  have hk : (1 : Fin 2) ∈ (scatterRowsDims wf).sKept := by
    show (1 : Fin 2) ∈ ((List.finRange 2).filter (fun a => a ∉ ([0] : List (Fin 2)))); decide
  unfold ScatterDims.window
  rw [dif_pos hk]
  rfl

/-- Update (p, q) lands on operand element (n, o) exactly when start index p, read signed, is n and q is o: on the row
    axis the landing coordinate is the start index (which must lie in [0, R) to land at all), on the column axis it is
    q. -/
theorem scatterRows_resultIdx_iff {R C M : Nat}
    (wf : ScatterDims.WF ⟨2, ![R, C]⟩ ⟨2, ![M, 1]⟩ ⟨2, ![M, C]⟩ [1] [0] [0] 1)
    (idx : IVec ⟨2, ![M, 1]⟩ 32) (p : Fin M) (q : Fin C) (n : Fin R) (o : Fin C) :
    (scatterRowsDims wf).resultIdx? (ix2 p q) idx = some (ix2 n o)
      ↔ (idx (ix2 p (0 : Fin 1))).toInt = (n.val : Int) ∧ q = o := by
  have h0 : (scatterRowsDims wf).start (ix2 p q) idx (0 : Fin 2) + (scatterRowsDims wf).window (ix2 p q) (0 : Fin 2)
      = (idx (ix2 p (0 : Fin 1))).toInt := by
    rw [scatterRows_start0, scatterRows_window0]; simp
  have h1 : (scatterRowsDims wf).start (ix2 p q) idx (1 : Fin 2) + (scatterRowsDims wf).window (ix2 p q) (1 : Fin 2)
      = (q.val : Int) := by
    rw [scatterRows_start1, scatterRows_window1]; simp
  unfold ScatterDims.resultIdx?
  constructor
  · intro h
    split_ifs at h with hc
    have e := Option.some.inj h
    have e0 : ((scatterRowsDims wf).start (ix2 p q) idx (0 : Fin 2)
        + (scatterRowsDims wf).window (ix2 p q) (0 : Fin 2)).toNat = n.val := congrArg Fin.val (congrFun e (0 : Fin 2))
    have e1 : ((scatterRowsDims wf).start (ix2 p q) idx (1 : Fin 2)
        + (scatterRowsDims wf).window (ix2 p q) (1 : Fin 2)).toNat = o.val := congrArg Fin.val (congrFun e (1 : Fin 2))
    have c0 := (hc (0 : Fin 2)).1
    rw [h0] at e0 c0
    rw [h1] at e1
    refine ⟨by omega, Fin.ext (by omega)⟩
  · rintro ⟨hn, rfl⟩
    have hc : ∀ a : Fin 2, 0 ≤ (scatterRowsDims wf).start (ix2 p q) idx a + (scatterRowsDims wf).window (ix2 p q) a
        ∧ (scatterRowsDims wf).start (ix2 p q) idx a + (scatterRowsDims wf).window (ix2 p q) a
          < (⟨2, ![R, C]⟩ : Shape).size a := by
      intro a
      match a with
      | ⟨0, _⟩ =>
        show 0 ≤ (scatterRowsDims wf).start (ix2 p q) idx (0 : Fin 2) + (scatterRowsDims wf).window (ix2 p q) (0 : Fin 2)
          ∧ (scatterRowsDims wf).start (ix2 p q) idx (0 : Fin 2) + (scatterRowsDims wf).window (ix2 p q) (0 : Fin 2)
            < (R : Int)
        rw [h0, hn]; have := n.isLt; omega
      | ⟨1, _⟩ =>
        show 0 ≤ (scatterRowsDims wf).start (ix2 p q) idx (1 : Fin 2) + (scatterRowsDims wf).window (ix2 p q) (1 : Fin 2)
          ∧ (scatterRowsDims wf).start (ix2 p q) idx (1 : Fin 2) + (scatterRowsDims wf).window (ix2 p q) (1 : Fin 2)
            < (C : Int)
        rw [h1]; have := q.isLt; omega
    rw [dif_pos hc]
    congr 1
    funext a
    refine Fin.ext ?_
    match a with
    | ⟨0, _⟩ =>
      show ((scatterRowsDims wf).start (ix2 p q) idx (0 : Fin 2)
        + (scatterRowsDims wf).window (ix2 p q) (0 : Fin 2)).toNat = n.val
      rw [h0, hn]; rfl
    | ⟨1, _⟩ =>
      show ((scatterRowsDims wf).start (ix2 p q) idx (1 : Fin 2)
        + (scatterRowsDims wf).window (ix2 p q) (1 : Fin 2)).toNat = q.val
      rw [h1]; rfl

/-- THE SCATTER-ADD OF ROWS at (n, o). The four hypotheses are the printed dimension numbers, each by `rfl`. -/
theorem scatter_rows_apply {R C M : Nat} (d : ScatterDims ⟨2, ![R, C]⟩ ⟨2, ![M, 1]⟩ ⟨2, ![M, C]⟩)
    (huw : d.updateWindowDims = [1]) (hiw : d.insertedWindowDims = [0]) (hsd : d.scatterDimsToOperandDims = [0])
    (hiv : d.indexVectorDim = 1)
    (x : (⟨2, ![R, C]⟩ : Shape).Idx → EReal) (idx : IVec ⟨2, ![M, 1]⟩ 32) (upd : (⟨2, ![M, C]⟩ : Shape).Idx → EReal)
    (n : Fin R) (o : Fin C) :
    Host.scatterAdd (F := Ideal) (φ := .f32) d x idx upd (ix2 n o)
      = x (ix2 n o) + ∑ p ∈ Finset.univ.filter (fun p : Fin M => (idx (ix2 p (0 : Fin 1))).toInt = (n.val : Int)),
          upd (ix2 p o) := by
  obtain ⟨uw, iw, sd, iv, wf⟩ := d
  dsimp only at huw hiw hsd hiv
  subst huw hiw hsd hiv
  show Ideal.hostScatterAdd (scatterRowsDims wf) x idx upd (ix2 n o) = _
  unfold Ideal.hostScatterAdd
  congr 1
  -- both filtered sums become sums of guarded terms; the sum over update indices is the double sum over (p, q)
  rw [Finset.sum_filter, Finset.sum_filter, sum_idx2]
  refine Finset.sum_congr rfl fun p _ => ?_
  -- row p: the guard on (p, q) is "start index p is n, and q = o"; the inner sum over q keeps the one term q = o
  simp only [scatterRows_resultIdx_iff]
  by_cases hp : (idx (ix2 p (0 : Fin 1))).toInt = (n.val : Int)
  · simp only [hp, true_and, if_true]
    exact (Finset.sum_ite_eq' Finset.univ o fun q => upd (ix2 p q)).trans (if_pos (Finset.mem_univ o))
  · simp only [hp, false_and, if_false]
    exact Finset.sum_const_zero

end Cert.ScatterRows

end
-- ==== Proof.RefSide.lean ====
/-
  The reference program's value, read where the proof needs it.

  (1) The aggregation at an index: under 0 ≤ src < 50000 the scatter-add of the gathered rows at (n, d) is the sum,
      over the edges e whose destination is n, of the scaled features at (src e, d).
  (2) The rest of the program as one function "tail" of the aggregation and the in-degree norm.
-/
import proofs.«421818_j2293512536174_1_alg».proof.Proof.Gen.ReferenceIdeal.Read
import proofs.«421818_j2293512536174_1_alg».proof.Proof.LibTakeRows
import proofs.«421818_j2293512536174_1_alg».proof.Proof.LibScatterRows
import Idealize.ShloMosaic.Lib.ValueIdx

set_option maxRecDepth 16384

noncomputable section

open scoped BigOperators

namespace Cert.Hand.RefSide

open Idealize.ShloMosaic Idealize.ShloMosaic.ValueIdx Cert.ReferenceIdeal Cert.ReferenceIdeal.Gen
  Cert.ReferenceIdeal.Read Idealize.ShloMosaic.StableHlo

/-- The index column of the destination, at row p, is dst at p. -/
theorem v23_row (x2 : (⟨S800000, .i32⟩ : BufTy).Contents (Elt Ideal)) (p : Fin 800000) :
    val_main_v23 (F := Ideal) x2 (ix2 p (0 : Fin 1)) = x2 (ix1 p) := by
  rw [val_main_v23_apply]
  congr 1
  funext a
  match a with
  | ⟨0, _⟩ => rfl

/-- Where src is not negative the select "src < 0 ? src + 50000 : src" is src. -/
theorem v19_of_nonneg (x1 : (⟨S800000, .i32⟩ : BufTy).Contents (Elt Ideal)) (e : S800000.Idx)
    (h : 0 ≤ (x1 e).toInt) : val_main_v19 (F := Ideal) x1 e = x1 e := by
  rw [val_main_v19_apply, val_main_v16_apply, val_main_v15_apply, val_main_c_apply]
  have hlt : (x1 e).slt 0#32 = false := by
    simp only [BitVec.slt, BitVec.toInt_zero, decide_eq_false_iff_not, Int.not_lt]
    exact h
  show (if BitVec.ofBool ((x1 e).slt 0#32) = 1 then _ else _) = _
  rw [hlt]
  rfl

/-- The index column of the source, at row p, is src at p (where src is not negative). -/
theorem v20_row (x1 : (⟨S800000, .i32⟩ : BufTy).Contents (Elt Ideal)) (p : Fin 800000)
    (h : 0 ≤ (x1 (ix1 p)).toInt) : val_main_v20 (F := Ideal) x1 (ix2 p (0 : Fin 1)) = x1 (ix1 p) := by
  rw [val_main_v20_apply]
  have e : idx_main_v20 (ix2 p (0 : Fin 1)) = ix1 p := by
    funext a
    match a with
    | ⟨0, _⟩ => rfl
  rw [e, v19_of_nonneg x1 (ix1 p) h]

/-- The gathered row p at column q is the scaled features' row src p at column q. -/
theorem v21_apply (x0 : (⟨S50000x128, .f32⟩ : BufTy).Contents (Elt Ideal)) (x1 : (⟨S800000, .i32⟩ : BufTy).Contents (Elt Ideal))
    (hsrc : ∀ e : S800000.Idx, 0 ≤ (x1 e).toInt ∧ (x1 e).toInt < 50000) (p : Fin 800000) (q : Fin 128) :
    val_main_v21 (F := Ideal) x0 x1 (ix2 p q)
      = val_main_v14 (F := Ideal) x0 x1
          (ix2 (⟨(x1 (ix1 p)).toInt.toNat, by have := hsrc (ix1 p); omega⟩ : Fin 50000) q) := by
  unfold val_main_v21
  rw [Cert.TakeRows.take_rows_apply gather_S50000x128_S800000x1_S800000x128_1_0_n_n_0_1_1128 rfl rfl rfl rfl rfl
    (by decide) (val_main_v14 (F := Ideal) x0 x1) (val_main_v20 (F := Ideal) x1) p q]
  have hp := hsrc (ix1 p)
  have hr : (⟨min (val_main_v20 (F := Ideal) x1 (ix2 p (0 : Fin 1))).toInt.toNat (50000 - 1), by omega⟩ : Fin 50000)
      = ⟨(x1 (ix1 p)).toInt.toNat, by omega⟩ := by
    refine Fin.ext ?_
    show min (val_main_v20 (F := Ideal) x1 (ix2 p (0 : Fin 1))).toInt.toNat (50000 - 1) = (x1 (ix1 p)).toInt.toNat
    rw [v20_row x1 p hp.1]
    omega
  rw [hr]

/-- (1) THE AGGREGATION AT AN INDEX, under the index range of src. -/
theorem v24_apply (x0 : (⟨S50000x128, .f32⟩ : BufTy).Contents (Elt Ideal)) (x1 x2 : (⟨S800000, .i32⟩ : BufTy).Contents (Elt Ideal))
    (hsrc : ∀ e : S800000.Idx, 0 ≤ (x1 e).toInt ∧ (x1 e).toInt < 50000) (n : Fin 50000) (d : Fin 128) :
    val_main_v24 (F := Ideal) x0 x1 x2 (ix2 n d)
      = ∑ e ∈ Finset.univ.filter (fun e : Fin 800000 => (x2 (ix1 e)).toInt = (n.val : Int)),
          val_main_v14 (F := Ideal) x0 x1
            (ix2 (⟨(x1 (ix1 e)).toInt.toNat, by have := hsrc (ix1 e); omega⟩ : Fin 50000) d) := by
  unfold val_main_v24
  rw [Cert.ScatterRows.scatter_rows_apply scatter_S50000x128_S800000x1_S800000x128_1_0_0_1 rfl rfl rfl rfl
    (val_main_v22 (F := Ideal)) (val_main_v23 (F := Ideal) x2) (val_main_v21 (F := Ideal) x0 x1) n d]
  rw [val_main_v22_apply, val_main_cst_5_apply]
  have hz : (FloatOps.ofBits (F := Ideal) .f32 0x00000000#32 : EReal) = 0 := Ideal.ofBits_zero_f32
  rw [hz, zero_add]
  simp only [v23_row]
  refine Finset.sum_congr rfl fun p _ => ?_
  exact v21_apply x0 x1 hsrc p d

/-- (2) THE REST OF THE PROGRAM as one function of the aggregation and the in-degree norm: the aggregation times the
    norm broadcast along the columns, times W plus b, the maximum with zero, the segment sums over graph_ids divided
    by the clipped counts, times W_head plus b_head. -/
def tail (agg : (⟨S50000x128, .f32⟩ : BufTy).Contents (Elt Ideal)) (inNorm : (⟨S50000x1, .f32⟩ : BufTy).Contents (Elt Ideal))
    (x3 : (⟨S50000, .i32⟩ : BufTy).Contents (Elt Ideal)) (x4 : (⟨S128x128, .f32⟩ : BufTy).Contents (Elt Ideal))
    (x5 : (⟨S128, .f32⟩ : BufTy).Contents (Elt Ideal)) (x6 : (⟨S128x10, .f32⟩ : BufTy).Contents (Elt Ideal))
    (x7 : (⟨S10, .f32⟩ : BufTy).Contents (Elt Ideal)) : (⟨S64x10, .f32⟩ : BufTy).Contents (Elt Ideal) :=
  addf (F := Ideal) (φ := .f32)
    (Host.dotGeneral (F := Ideal) (φ₁ := .f32) (φ₂ := .f32) dot_S64x128_S128x10_S64x10_1_0_0_1_n_n none
      (Host.divf (F := Ideal) (φ := .f32)
        (Host.scatterAdd (F := Ideal) (φ := .f32) scatter_S64x128_S50000x1_S50000x128_1_0_0_1 (val_main_v36 (F := Ideal)) (val_main_v37 (F := Ideal) x3)
          (maximumf (F := Ideal) (φ := .f32)
            (addf (F := Ideal) (φ := .f32)
              (Host.dotGeneral (F := Ideal) (φ₁ := .f32) (φ₂ := .f32) dot_S50000x128_S128x128_S50000x128_1_0_0_1_n_n none
                (mulf (F := Ideal) (φ := .f32) agg (broadcastInDim S50000x128 ![0, 1] bcast_S50000x1_S50000x128_0_1 inNorm))
                x4)
              (val_main_v29 (F := Ideal) x5))
            (val_main_call2_v0 (F := Ideal))))
        (val_main_v41 (F := Ideal) x3))
      x6)
    (val_main_v45 (F := Ideal) x7)

/-- The program's result is the tail of its aggregation and its in-degree norm. -/
theorem v46_eq_tail (x0 : (⟨S50000x128, .f32⟩ : BufTy).Contents (Elt Ideal)) (x1 x2 : (⟨S800000, .i32⟩ : BufTy).Contents (Elt Ideal))
    (x3 : (⟨S50000, .i32⟩ : BufTy).Contents (Elt Ideal)) (x4 : (⟨S128x128, .f32⟩ : BufTy).Contents (Elt Ideal))
    (x5 : (⟨S128, .f32⟩ : BufTy).Contents (Elt Ideal)) (x6 : (⟨S128x10, .f32⟩ : BufTy).Contents (Elt Ideal))
    (x7 : (⟨S10, .f32⟩ : BufTy).Contents (Elt Ideal)) :
    val_main_v46 (F := Ideal) x0 x1 x2 x3 x4 x5 x6 x7
      = tail (val_main_v24 (F := Ideal) x0 x1 x2) (val_main_v12 (F := Ideal) x2) x3 x4 x5 x6 x7 := rfl

end Cert.Hand.RefSide

end
-- ==== Proof.PreSrc.lean ====
/-
  The index range of `src`, read out of the printed precondition.

  The precondition is a conjunction of `i1` words whose last conjunct is the
  all-reduction by `and` of the pointwise word
      (0 ≤ src[e], signed) and (src[e] < 50000, signed)
  over every position `e` of `src`.  If the whole conjunction is the word 1 then so is
  that last conjunct; a reduction by `and` that is 1 met a 1 at every position; and a
  pointwise `and` of two comparison bits that is 1 has both comparisons true.  The two
  bounds are broadcast rank-0 constants, read as the integers 0 and 50000.
-/
import proofs.«421818_j2293512536174_1_alg».proof.Pre_finite_inputs
import Idealize.ShloMosaic.Lib.ReduceAll
import Idealize.ShloMosaic.Lib.StableHlo.Predicate

namespace Cert.Hand.PreSrc
open Idealize.ShloMosaic

/-- The rank-0 shape has exactly one index. -/
instance : Subsingleton Cert.Pre_finite_inputs.S_.Idx := ⟨fun a b => funext fun d => d.elim0⟩

theorem src_range [Cert.Pre_finite_inputs.Facts] {F : FTy → Type} [FloatOps F]
    (a0 : FVec F Cert.Pre_finite_inputs.S50000x128 .f32) (a1 a2 : IVec Cert.Pre_finite_inputs.S800000 32) (a3 : IVec Cert.Pre_finite_inputs.S50000 32)
    (a4 : FVec F Cert.Pre_finite_inputs.S128x128 .f32) (a5 : FVec F Cert.Pre_finite_inputs.S128 .f32) (a6 : FVec F Cert.Pre_finite_inputs.S128x10 .f32) (a7 : FVec F Cert.Pre_finite_inputs.S10 .f32)
    (h : Cert.Pre_finite_inputs.fn (F := F) a0 a1 a2 a3 a4 a5 a6 a7 = fun _ => 1#1) (e : Cert.Pre_finite_inputs.S800000.Idx) :
    0 ≤ (a1 e).toInt ∧ (a1 e).toInt < 50000 := by
  -- the conjunction at the one index of the rank-0 result
  have h0 := congrFun h (fun d => d.elim0)
  dsimp only [Cert.Pre_finite_inputs.fn, Cert.Pre_finite_inputs.fn_part1] at h0
  -- its last conjunct: the all-reduction over the positions of `src`
  have h1 := (IntOp.andi_eq_one.1 h0).2
  -- every position of the reduced word is 1
  have h2 := Host.reduce_andi_all _ _ _ _ _ h1 e
  -- both comparison bits at `e` are 1
  obtain ⟨hge, hlt⟩ := IntOp.andi_eq_one.1 h2
  -- a broadcast rank-0 constant reads that constant at `e`; the signed comparisons read as integers
  have hge' : (0#32 : BitVec 32).toInt ≤ (a1 e).toInt := IntOp.cmpi_sge.1 hge
  have hlt' : (a1 e).toInt < (50000#32 : BitVec 32).toInt := IntOp.cmpi_slt.1 hlt
  have e0 : (0#32 : BitVec 32).toInt = 0 := by decide
  have e5 : (50000#32 : BitVec 32).toInt = 50000 := by decide
  rw [e0] at hge'
  rw [e5] at hlt'
  exact ⟨hge', hlt'⟩

end Cert.Hand.PreSrc
-- ==== Proof.Bridge.lean ====
/-
  The two aggregations are one function of the arguments.

  The first call leaves, at edge e, the feature row the edge's source names: a one-hot weighted sum over all 50176
  padded rows keeps the row whose number is the source word, the source being a node by the precondition; the 2816 padded
  edges carry the word 50176, which no row has, and get the zero row. The second call leaves, at node n, the sum of those
  rows over the edges whose destination word is n's: padded edges contribute a weight times a zero row, and a weighted
  sum with one-hot weights is the sum over the entries the weights select. That is the reference's segment sum of the
  gathered rows. Both programs then apply the same operations to it.
-/
import proofs.«421818_j2293512536174_1_alg».proof.Defs
import proofs.«421818_j2293512536174_1_alg».proof.Proof.Gen.KernelIdeal
import proofs.«421818_j2293512536174_1_alg».proof.Proof.Gen.ReferenceIdeal
import proofs.«421818_j2293512536174_1_alg».proof.Proof.Gen.ReferenceIdeal.Run
import proofs.«421818_j2293512536174_1_alg».proof.Proof.Gen.ReferenceIdeal.Read
import proofs.«421818_j2293512536174_1_alg».proof.Proof.Gen.Pre_finite_inputs
import proofs.«421818_j2293512536174_1_alg».proof.Proof.KI.Run
import proofs.«421818_j2293512536174_1_alg».proof.Proof.KI.Value0
import proofs.«421818_j2293512536174_1_alg».proof.Proof.KI.Value1
import proofs.«421818_j2293512536174_1_alg».proof.Proof.KI.Host
import proofs.«421818_j2293512536174_1_alg».proof.Proof.RefSide
import proofs.«421818_j2293512536174_1_alg».proof.Proof.PreSrc
import proofs.«421818_j2293512536174_1_alg».proof.Proof.Spec

set_option maxRecDepth 16384

noncomputable section

open scoped BigOperators

namespace Cert.Hand.Bridge

open Idealize.ShloMosaic Idealize.ShloMosaic.TcCoe Idealize.SL.Sem Idealize.ShloMosaic.ValueIdx
open Cert.KernelIdeal Cert.KernelIdeal.Gen Cert.KernelIdeal.Hand Cert.Spec

section

variable (m : (ℓ : Loc nD τ sig) → Buf (Elt Ideal) ℓ)

/-- The launch arguments on core `c`, at their literal types. -/
abbrev feat (c : Dev nD) : S50000x128.Idx → EReal := m ((c : Thread nD τ).loc main_arg0)
abbrev srcw (c : Dev nD) : S800000.Idx → BitVec 32 := m ((c : Thread nD τ).loc main_arg1)
abbrev dstw (c : Dev nD) : S800000.Idx → BitVec 32 := m ((c : Thread nD τ).loc main_arg2)

/-- The scaled feature rows, at their literal type. -/
abbrev hrow (c : Dev nD) : S50000x128.Idx → EReal := hK (F := Ideal) (feat m c) (srcw m c)

/-- What the gather call leaves at edge `e`: the feature row its source names, or the zero row for a padded edge. -/
theorem gOut_apply (c : Dev nD) (hsrc : ∀ e : S800000.Idx, 0 ≤ (srcw m c e).toInt ∧ (srcw m c e).toInt < 50000)
    (e : Fin 802816) (d : Fin 128) :
    (gOut m c : S802816x128.Idx → EReal) (ix2 e d)
      = if h : e.val < 800000 then
          hrow m c (ix2 (⟨(srcw m c (ix1 ⟨e.val, h⟩)).toInt.toNat, by have := hsrc (ix1 ⟨e.val, h⟩); omega⟩ : Fin 50000) d)
        else 0 := by
  unfold gOut
  rw [g_apply (Vin0 m) c e d]
  have h17 : (Vin0 m c main_v17 : S802816x1.Idx → BitVec 32) (ix2 e (0 : Fin 1))
      = if h : e.val < 800000 then srcw m c (ix1 ⟨e.val, h⟩) else 50176#32 :=
    (congrFun (V10_v17 m c) (ix2 e (0 : Fin 1))).trans (srcCol_apply (F := Ideal) (srcw m c) e)
  have h19 : ∀ n : Fin 50176, (Vin0 m c main_v19 : S50176x128.Idx → EReal) (ix2 n d)
      = if h : n.val < 50000 then hrow m c (ix2 ⟨n.val, h⟩ d) else 0 := fun n =>
    (congrFun (V10_v19 m c) (ix2 n d)).trans (hPad_apply (hrow m c) n d)
  rw [h17]
  simp only [h19]
  by_cases h : e.val < 800000
  · rw [dif_pos h, dif_pos h]
    have hw := hsrc (ix1 ⟨e.val, h⟩)
    have hnat : (srcw m c (ix1 ⟨e.val, h⟩)).toNat = (srcw m c (ix1 ⟨e.val, h⟩)).toInt.toNat :=
      toNat_eq_toInt_toNat _ hw.1
    have hlt : (srcw m c (ix1 ⟨e.val, h⟩)).toNat < 50000 := by omega
    rw [sum_hot_mul (N := 50176) (by norm_num) (srcw m c (ix1 ⟨e.val, h⟩))
      (fun n : Fin 50176 => if h' : n.val < 50000 then hrow m c (ix2 ⟨n.val, h'⟩ d) else 0) (by omega)]
    rw [dif_pos hlt]
    exact congrArg (fun r : Fin 50000 => hrow m c (ix2 r d)) (Fin.ext hnat)
  · rw [dif_neg h, dif_neg h]
    exact sum_hot_mul_none (N := 50176) (by norm_num) (50176#32) _ (by decide)

/-- What the scatter call leaves at node `n`: the sum, over the edges whose destination is `n`, of the feature rows
    their sources name. -/
theorem aOut_apply (c : Dev nD) (hsrc : ∀ e : S800000.Idx, 0 ≤ (srcw m c e).toInt ∧ (srcw m c e).toInt < 50000)
    (n : Fin 50000) (d : Fin 128) :
    (aOut m c : S50176x128.Idx → EReal) (ix2 (⟨n.val, by omega⟩ : Fin 50176) d)
      = ∑ e ∈ Finset.univ.filter (fun e : Fin 800000 => (dstw m c (ix1 e)).toInt = (n.val : Int)),
          hrow m c (ix2 (⟨(srcw m c (ix1 e)).toInt.toNat, by have := hsrc (ix1 e); omega⟩ : Fin 50000) d) := by
  unfold aOut
  rw [Scatter.agg_apply (Vin1 m) c ⟨n.val, by omega⟩ d]
  have h18 : ∀ e : Fin 802816, (Vin1 m c main_v18 : S1x802816.Idx → BitVec 32) (ix2 (0 : Fin 1) e)
      = if h : e.val < 800000 then dstw m c (ix1 ⟨e.val, h⟩) else 50176#32 := fun e =>
    (congrFun ((congrFun (V11_eq m c) main_v18).symm.trans (V11_v18 m (outs m) c)) (ix2 (0 : Fin 1) e)).trans
      (dstRow_apply (F := Ideal) (dstw m c) e)
  have h20 : ∀ e : Fin 802816, (Vin1 m c main_v20 : S802816x128.Idx → EReal) (ix2 e d)
      = if h : e.val < 800000 then
          hrow m c (ix2 (⟨(srcw m c (ix1 ⟨e.val, h⟩)).toInt.toNat, by have := hsrc (ix1 ⟨e.val, h⟩); omega⟩ : Fin 50000) d)
        else 0 := fun e =>
    (congrFun (Wa_v20 m c) (ix2 e d)).trans (gOut_apply m c hsrc e d)
  simp only [h18, h20]
  rw [sum_pad (N := 800000) (N' := 802816) (by norm_num) _ (fun e he => by
    rw [dif_neg (Nat.not_lt.mpr he), dif_neg (Nat.not_lt.mpr he), mul_zero])]
  have hcast : ∀ e : Fin 800000, (Fin.castLE (by norm_num : 800000 ≤ 802816) e).val < 800000 := fun e => e.isLt
  simp only [dif_pos (hcast _)]
  exact sum_hot_filter n.val (by have := n.isLt; omega) (fun e : Fin 800000 => dstw m c (ix1 e)) _

/-- The scaled feature rows are the reference's: the same operations on the same arguments. -/
theorem hrow_eq (c : Dev nD) :
    hrow m c = Cert.ReferenceIdeal.Read.val_main_v14 (F := Ideal) (feat m c) (srcw m c) := rfl

/-- The true rows of what the scatter call leaves are the reference's aggregation. -/
theorem slice_eq (c : Dev nD) (hsrc : ∀ e : S800000.Idx, 0 ≤ (srcw m c e).toInt ∧ (srcw m c e).toInt < 50000) :
    (extractStridedSlice S50000x128 ![0, 0] (aOut m c) slices_S50176x128_S50000x128_0_0 : S50000x128.Idx → EReal)
      = Cert.ReferenceIdeal.Read.val_main_v24 (F := Ideal) (feat m c) (srcw m c) (dstw m c) := by
  funext i
  obtain ⟨n, d, rfl⟩ : ∃ (n : Fin 50000) (d : Fin 128), i = ix2 n d := ⟨i 0, i 1, eq_ix2 i⟩
  rw [slice_apply, aOut_apply m c hsrc n d]
  refine Eq.trans ?_ (Cert.Hand.RefSide.v24_apply (feat m c) (srcw m c) (dstw m c) hsrc n d).symm
  rw [hrow_eq]

/-- The host operations after the calls are the reference's last operations, on the true rows. -/
theorem tail_eq (A : S50176x128.Idx → EReal) (x2 : S800000.Idx → BitVec 32) (x3 : S50000.Idx → BitVec 32)
    (x4 : S128x128.Idx → EReal) (x5 : S128.Idx → EReal) (x6 : S128x10.Idx → EReal) (x7 : S10.Idx → EReal) :
    tailK (F := Ideal) A (inNormK (F := Ideal) x2) x3 x4 x5 x6 x7
      = Cert.Hand.RefSide.tail (extractStridedSlice S50000x128 ![0, 0] A slices_S50176x128_S50000x128_0_0)
          (Cert.ReferenceIdeal.Read.val_main_v12 (F := Ideal) x2) x3 x4 x5 x6 x7 := rfl

/-- The kernel program's result is the reference's, as functions of the launch arguments. -/
theorem result_eq (c : Dev nD) (hsrc : ∀ e : S800000.Idx, 0 ≤ (srcw m c e).toInt ∧ (srcw m c e).toInt < 50000) :
    (V17 m (outs m) c main_v44 : S64x10.Idx → EReal)
      = Cert.ReferenceIdeal.Read.val_main_v46 (F := Ideal) (feat m c) (srcw m c) (dstw m c)
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [V17_v44 m (outs m) c, V12_v21, outs_12, V12_v12, Cert.Hand.RefSide.v46_eq_tail, ← slice_eq m c hsrc]
  exact tail_eq (aOut m c) (dstw m c) _ _ _ _ _

/-- Every source index names a node: read off the precondition. -/
theorem src_ok (hpre : Cert.Pre_KernelIdeal (hPre_finite_inputs := Cert.Pre_finite_inputs.Gen.facts) m) (c : Dev nD) :
    ∀ e : S800000.Idx, 0 ≤ (srcw m c e).toInt ∧ (srcw m c e).toInt < 50000 := fun e =>
  @Cert.Hand.PreSrc.src_range Cert.Pre_finite_inputs.Gen.facts Ideal _ _ _ _ _ _ _ _ _ (hpre c) e

end

/-- Over the extended reals, from memories that agree on the arguments, both programs run and end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => V17 m (outs m) c main_v44, run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (result_eq m c (src_ok m hpre c)).symm

end Cert.Hand.Bridge

end
-- ==== Proof.lean ====
/-
  The certificate of the graph-convolution layer: a message-passing step whose neighbour aggregation the kernel's
  program computes as two tiled products with one-hot weights (a gather of rows, then a scatter-add of rows), against
  the reference's indexed gather and segment sum; then, in both programs, the same normalisation, dense layer, mean
  over graphs and linear head.

  Both printed kernel programs (the word-level one and its idealization are the same text) run their two calls
  point by point, each call's accumulator carried from a grid point to the next and reset at the head of every run of
  the reduction axis; the frames follow from those runs. The reference is host operations only. Over the extended
  reals, under the precondition that every source index names a node, the two aggregations agree row by row: a one-hot
  weighted sum over all rows keeps the one row the index names, padded edges carry an index no row has, and a sum cut
  into equal tiles is the whole sum. No idealization rule rewrote the kernel, so the preservation conjunct is empty.
-/
import proofs.«421818_j2293512536174_1_alg».proof.Defs
import proofs.«421818_j2293512536174_1_alg».proof.Proof.Gen.Kernel
import proofs.«421818_j2293512536174_1_alg».proof.Proof.Gen.KernelIdeal
import proofs.«421818_j2293512536174_1_alg».proof.Proof.Gen.ReferenceIdeal
import proofs.«421818_j2293512536174_1_alg».proof.Proof.Gen.ReferenceIdeal.Run
import proofs.«421818_j2293512536174_1_alg».proof.Proof.Gen.ReferenceIdeal.Read
import proofs.«421818_j2293512536174_1_alg».proof.Proof.Gen.Pre_finite_inputs
import proofs.«421818_j2293512536174_1_alg».proof.Proof.K.Run
import proofs.«421818_j2293512536174_1_alg».proof.Proof.KI.Run
import proofs.«421818_j2293512536174_1_alg».proof.Proof.Bridge
import Idealize.ShloMosaic.Adequacy
import Idealize.ShloMosaic.Init

noncomputable section

namespace Cert.Proof

open Idealize.ShloMosaic Idealize.SL.Sem

theorem frame_p : Cert.frame_Kernel (hKernel := Cert.Kernel.Gen.facts) (hPre_finite_inputs := Cert.Pre_finite_inputs.Gen.facts) :=
  fun m ρ _ => Cert.Kernel.Hand.frame m ρ

theorem frame_pi : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_p, frame_pi, frame_ri, trivial, Cert.Hand.Bridge.algebraic⟩

end Cert.Proof

end
